-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16800x64x7x7 : Shape := ⟨4, ![16800, 64, 7, 7]⟩
abbrev S1x1 : Shape := ⟨2, ![1, 1]⟩
abbrev S16000 : Shape := ⟨1, ![16000]⟩
abbrev S_ : Shape := ⟨0, ![]⟩

class Facts : Prop where
  bcast_S_S16800x64x7x7 : S_.BroadcastsInDim S16800x64x7x7 (![] : Fin 0 → Fin S16800x64x7x7.rank)
  reducesTo_S16800x64x7x7_S_d0_1_2_3 : S16800x64x7x7.ReducesTo [0, 1, 2, 3] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S16800x64x7x7 .f32) (main_arg1 : FVec F S1x1 .f32) (main_arg2 : IVec S16000 32) : IVec S_ 1 :=
  let main_v0 : FVec F S16800x64x7x7 .f32 := Host.absf main_arg0
  let main_cst : FVec F S_ .f32 := constant S_ .f32 0x7F800000#32
  let main_v1 : FVec F S16800x64x7x7 .f32 := broadcastInDim S16800x64x7x7 ![] bcast_S_S16800x64x7x7 main_cst
  let main_v2 : IVec S16800x64x7x7 1 := cmpf .olt main_v0 main_v1
  let main_c : IVec S_ 1 := constantI S_ 1 1#1
  let main_v3 : IVec S_ 1 := (fun x v => Host.reduce IntOp.andi x v reducesTo_S16800x64x7x7_S_d0_1_2_3 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  main_v8
-- ==== Kernel.lean ====
abbrev S16800x64x7x7 : Shape := ⟨4, ![16800, 64, 7, 7]⟩
abbrev S1x1 : Shape := ⟨2, ![1, 1]⟩
abbrev S16000 : Shape := ⟨1, ![16000]⟩
abbrev S16800x64x49 : Shape := ⟨3, ![16800, 64, 49]⟩
abbrev S800x64x49 : Shape := ⟨3, ![800, 64, 49]⟩
abbrev S16000x64x49 : Shape := ⟨3, ![16000, 64, 49]⟩
abbrev S800x64x64 : Shape := ⟨3, ![800, 64, 64]⟩
abbrev S100x64x49 : Shape := ⟨3, ![100, 64, 49]⟩
abbrev S100x64x64 : Shape := ⟨3, ![100, 64, 64]⟩
abbrev S64x64 : Shape := ⟨2, ![64, 64]⟩
abbrev S1x64x64 : Shape := ⟨3, ![1, 64, 64]⟩
abbrev S100x64 : Shape := ⟨2, ![100, 64]⟩
abbrev S100x1x64 : Shape := ⟨3, ![100, 1, 64]⟩
abbrev S100x64x1 : Shape := ⟨3, ![100, 64, 1]⟩
abbrev S100 : Shape := ⟨1, ![100]⟩
abbrev S100x1x1 : Shape := ⟨3, ![100, 1, 1]⟩
abbrev S10x80x64x64 : Shape := ⟨4, ![10, 80, 64, 64]⟩
abbrev S_ : Shape := ⟨0, ![]⟩
abbrev S10x64x64 : Shape := ⟨3, ![10, 64, 64]⟩
abbrev S10 : Shape := ⟨1, ![10]⟩
abbrev S1x10 : Shape := ⟨2, ![1, 10]⟩
abbrev S16000x10 : Shape := ⟨2, ![16000, 10]⟩
abbrev S400x64x49 : Shape := ⟨3, ![400, 64, 49]⟩
abbrev S400x10 : Shape := ⟨2, ![400, 10]⟩
abbrev S400x64x64 : Shape := ⟨3, ![400, 64, 64]⟩
abbrev S400x64 : Shape := ⟨2, ![400, 64]⟩
abbrev S400x1x64 : Shape := ⟨3, ![400, 1, 64]⟩
abbrev S400x64x1 : Shape := ⟨3, ![400, 64, 1]⟩
abbrev S400 : Shape := ⟨1, ![400]⟩
abbrev S400x1x1 : Shape := ⟨3, ![400, 1, 1]⟩
abbrev S400x1 : Shape := ⟨2, ![400, 1]⟩
abbrev S16000x1 : Shape := ⟨2, ![16000, 1]⟩
abbrev S16000x1x1 : Shape := ⟨3, ![16000, 1, 1]⟩
abbrev S1 : Shape := ⟨1, ![1]⟩
abbrev S1x1x1 : Shape := ⟨3, ![1, 1, 1]⟩

abbrev nBuf : Space → Nat
  | .hbm => 61
  | .vmem => 12
  | .smem => 0
  | _ => 0

abbrev bufTy : (tb : Table) → Fin (tcTables nBuf tb) → BufTy
  | .hbm, ⟨0, _⟩ => ⟨S16800x64x7x7, .f32⟩
  | .hbm, ⟨1, _⟩ => ⟨S1x1, .f32⟩
  | .hbm, ⟨2, _⟩ => ⟨S16000, .i32⟩
  | .hbm, ⟨3, _⟩ => ⟨S16800x64x49, .f32⟩
  | .hbm, ⟨4, _⟩ => ⟨S800x64x49, .f32⟩
  | .hbm, ⟨5, _⟩ => ⟨S16000x64x49, .f32⟩
  | .hbm, ⟨6, _⟩ => ⟨S800x64x64, .f32⟩
  | .hbm, ⟨7, _⟩ => ⟨S10x80x64x64, .f32⟩
  | .hbm, ⟨8, _⟩ => ⟨S_, .f32⟩
  | .hbm, ⟨9, _⟩ => ⟨S10x64x64, .f32⟩
  | .hbm, ⟨10, _⟩ => ⟨S_, .f32⟩
  | .hbm, ⟨11, _⟩ => ⟨S10x64x64, .f32⟩
  | .hbm, ⟨12, _⟩ => ⟨S10x64x64, .f32⟩
  | .hbm, ⟨13, _⟩ => ⟨S10x64x64, .f32⟩
  | .hbm, ⟨14, _⟩ => ⟨S_, .f32⟩
  | .hbm, ⟨15, _⟩ => ⟨S10, .f32⟩
  | .hbm, ⟨16, _⟩ => ⟨S1x10, .f32⟩
  | .hbm, ⟨17, _⟩ => ⟨S16000x10, .f32⟩
  | .hbm, ⟨18, _⟩ => ⟨S_, .f32⟩
  | .hbm, ⟨19, _⟩ => ⟨S16000, .f32⟩
  | .hbm, ⟨20, _⟩ => ⟨S_, .f32⟩
  | .hbm, ⟨21, _⟩ => ⟨S16000, .f32⟩
  | .hbm, ⟨22, _⟩ => ⟨S16000, .f32⟩
  | .hbm, ⟨23, _⟩ => ⟨S16000x1, .f32⟩
  | .hbm, ⟨24, _⟩ => ⟨S16000x10, .f32⟩
  | .hbm, ⟨25, _⟩ => ⟨S16000x10, .f32⟩
  | .hbm, ⟨26, _⟩ => ⟨S16000x10, .f32⟩
  | .hbm, ⟨27, _⟩ => ⟨S_, .f32⟩
  | .hbm, ⟨28, _⟩ => ⟨S16000, .f32⟩
  | .hbm, ⟨29, _⟩ => ⟨S16000x1, .f32⟩
  | .hbm, ⟨30, _⟩ => ⟨S16000x1, .f32⟩
  | .hbm, ⟨31, _⟩ => ⟨S16000x10, .f32⟩
  | .hbm, ⟨32, _⟩ => ⟨S16000x10, .f32⟩
  | .hbm, ⟨33, _⟩ => ⟨S16000x1, .i32⟩
  | .hbm, ⟨34, _⟩ => ⟨S_, .i32⟩
  | .hbm, ⟨35, _⟩ => ⟨S16000x1, .i32⟩
  | .hbm, ⟨36, _⟩ => ⟨S16000x1, .i1⟩
  | .hbm, ⟨37, _⟩ => ⟨S_, .i32⟩
  | .hbm, ⟨38, _⟩ => ⟨S16000x1, .i32⟩
  | .hbm, ⟨39, _⟩ => ⟨S16000x1, .i32⟩
  | .hbm, ⟨40, _⟩ => ⟨S16000x1, .i32⟩
  | .hbm, ⟨41, _⟩ => ⟨S16000x1x1, .i32⟩
  | .hbm, ⟨42, _⟩ => ⟨S1, .i32⟩
  | .hbm, ⟨43, _⟩ => ⟨S_, .i32⟩
  | .hbm, ⟨44, _⟩ => ⟨S16000x1x1, .i32⟩
  | .hbm, ⟨45, _⟩ => ⟨S16000x1x1, .i1⟩
  | .hbm, ⟨46, _⟩ => ⟨S1x1x1, .i32⟩
  | .hbm, ⟨47, _⟩ => ⟨S16000x1x1, .i32⟩
  | .hbm, ⟨48, _⟩ => ⟨S16000x1x1, .i1⟩
  | .hbm, ⟨49, _⟩ => ⟨S16000x1x1, .i1⟩
  | .hbm, ⟨50, _⟩ => ⟨S_, .i1⟩
  | .hbm, ⟨51, _⟩ => ⟨S16000x1, .i1⟩
  | .hbm, ⟨52, _⟩ => ⟨S16000x1, .f32⟩
  | .hbm, ⟨53, _⟩ => ⟨S_, .f32⟩
  | .hbm, ⟨54, _⟩ => ⟨S16000x1, .f32⟩
  | .hbm, ⟨55, _⟩ => ⟨S16000x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S100x64x49, .f32⟩
  | .local _ .vmem, ⟨1, _⟩ => ⟨S100x64x49, .f32⟩
  | .local _ .vmem, ⟨2, _⟩ => ⟨S1x1, .f32⟩
  | .local _ .vmem, ⟨3, _⟩ => ⟨S100x64x64, .f32⟩
  | .local _ .vmem, ⟨4, _⟩ => ⟨S100x64x64, .f32⟩
  | .local _ .vmem, ⟨5, _⟩ => ⟨S400x64x49, .f32⟩
  | .local _ .vmem, ⟨6, _⟩ => ⟨S400x64x49, .f32⟩
  | .local _ .vmem, ⟨7, _⟩ => ⟨S1x1, .f32⟩
  | .local _ .vmem, ⟨8, _⟩ => ⟨S10x64x64, .f32⟩
  | .local _ .vmem, ⟨9, _⟩ => ⟨S1x10, .f32⟩
  | .local _ .vmem, ⟨10, _⟩ => ⟨S400x10, .f32⟩
  | .local _ .vmem, ⟨11, _⟩ => ⟨S400x10, .f32⟩
  | _, _ => ⟨S16800x64x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v12 : Ref sig .tc := ⟨.hbm, 32, rfl⟩
abbrev main_v13 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_cst_3 : Ref sig .tc := ⟨.hbm, 58, rfl⟩
abbrev main_v16 : Ref sig .tc := ⟨.hbm, 59, rfl⟩
abbrev main_v17 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S100x64x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S100x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x64x49 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S16800x64x7x7_S16800x64x49 : S16800x64x7x7.ShapeCasts S16800x64x49
  slices_S16800x64x49_S800x64x49_0_0_0 : S16800x64x49.Slices ![0, 0, 0] S800x64x49
  slices_S16800x64x49_S16000x64x49_800_0_0 : S16800x64x49.Slices ![800, 0, 0] S16000x64x49
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S100x64x49_S100x64x49_0_0_0 : ∀ a, (![0, 0, 0] : Fin 3 → Nat) a + S100x64x49.size a ≤ S100x64x49.size a
  h_S100x64x49 : 0 < S100x64x49.numel
  shapeCasts_S100x64x49_S100x64x49 : S100x64x49.ShapeCasts S100x64x49
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  broadcasts_S1x64x64_S100x64x64 : S1x64x64.Broadcasts S100x64x64
  reduces_S100x64x64_S100x64 : S100x64x64.Reduces [2] S100x64
  shapeCasts_S100x64_S100x1x64 : S100x64.ShapeCasts S100x1x64
  shapeCasts_S100x64_S100x64x1 : S100x64.ShapeCasts S100x64x1
  broadcasts_S100x1x64_S100x64x64 : S100x1x64.Broadcasts S100x64x64
  broadcasts_S100x64x1_S100x64x64 : S100x64x1.Broadcasts S100x64x64
  reduces_S100x64x64_S100x64_2 : S100x64x64.Reduces [1] S100x64
  reduces_S100x64x64_S100 : S100x64x64.Reduces [1, 2] S100
  shapeCasts_S100_S100x1x1 : S100.ShapeCasts S100x1x1
  broadcasts_S100x1x1_S100x64x64 : S100x1x1.Broadcasts S100x64x64
  inb_S100x64x64_S100x64x64_0_0_0 : ∀ a, (![0, 0, 0] : Fin 3 → Nat) a + S100x64x64.size a ≤ S100x64x64.size a
  h_S100x64x64 : 0 < S100x64x64.numel
  shapeCasts_S800x64x64_S10x80x64x64 : S800x64x64.ShapeCasts S10x80x64x64
  reducesTo_S10x80x64x64_S10x64x64_d1 : S10x80x64x64.ReducesTo [1] S10x64x64
  h_S_ : 0 < S_.numel
  bcast_S_S10x64x64 : S_.BroadcastsInDim S10x64x64 (![] : Fin 0 → Fin S10x64x64.rank)
  reducesTo_S10x64x64_S10_d1_2 : S10x64x64.ReducesTo [1, 2] S10
  bcast_S10_S1x10_1 : S10.BroadcastsInDim S1x10 (![1] : Fin 1 → Fin S1x10.rank)
  inb_S400x64x49_S400x64x49_0_0_0 : ∀ a, (![0, 0, 0] : Fin 3 → Nat) a + S400x64x49.size a ≤ S400x64x49.size a
  h_S400x64x49 : 0 < S400x64x49.numel
  shapeCasts_S400x64x49_S400x64x49 : S400x64x49.ShapeCasts S400x64x49
  broadcasts_S1x64x64_S400x64x64 : S1x64x64.Broadcasts S400x64x64
  reduces_S400x64x64_S400x64 : S400x64x64.Reduces [2] S400x64
  shapeCasts_S400x64_S400x1x64 : S400x64.ShapeCasts S400x1x64
  shapeCasts_S400x64_S400x64x1 : S400x64.ShapeCasts S400x64x1
  broadcasts_S400x1x64_S400x64x64 : S400x1x64.Broadcasts S400x64x64
  broadcasts_S400x64x1_S400x64x64 : S400x64x1.Broadcasts S400x64x64
  reduces_S400x64x64_S400x64_2 : S400x64x64.Reduces [1] S400x64
  reduces_S400x64x64_S400 : S400x64x64.Reduces [1, 2] S400
  shapeCasts_S400_S400x1x1 : S400.ShapeCasts S400x1x1
  broadcasts_S400x1x1_S400x64x64 : S400x1x1.Broadcasts S400x64x64
  inb_S10x64x64_S10x64x64_0_0_0 : ∀ a, (![0, 0, 0] : Fin 3 → Nat) a + S10x64x64.size a ≤ S10x64x64.size a
  h_S10x64x64 : 0 < S10x64x64.numel
  shapeCasts_S10x64x64_S10x64x64 : S10x64x64.ShapeCasts S10x64x64
  slices_S10x64x64_o0_0_0_S1x64x64 : S10x64x64.Slices ![0, 0, 0] S1x64x64
  shapeCasts_S1x64x64_S64x64 : S1x64x64.ShapeCasts S64x64
  shapeCasts_S400_S400x1 : S400.ShapeCasts S400x1
  slices_S10x64x64_o1_0_0_S1x64x64 : S10x64x64.Slices ![1, 0, 0] S1x64x64
  slices_S10x64x64_o2_0_0_S1x64x64 : S10x64x64.Slices ![2, 0, 0] S1x64x64
  slices_S10x64x64_o3_0_0_S1x64x64 : S10x64x64.Slices ![3, 0, 0] S1x64x64
  slices_S10x64x64_o4_0_0_S1x64x64 : S10x64x64.Slices ![4, 0, 0] S1x64x64
  slices_S10x64x64_o5_0_0_S1x64x64 : S10x64x64.Slices ![5, 0, 0] S1x64x64
  slices_S10x64x64_o6_0_0_S1x64x64 : S10x64x64.Slices ![6, 0, 0] S1x64x64
  slices_S10x64x64_o7_0_0_S1x64x64 : S10x64x64.Slices ![7, 0, 0] S1x64x64
  slices_S10x64x64_o8_0_0_S1x64x64 : S10x64x64.Slices ![8, 0, 0] S1x64x64
  slices_S10x64x64_o9_0_0_S1x64x64 : S10x64x64.Slices ![9, 0, 0] S1x64x64
  concatenates_S400x1_S400x1_S400x1_S400x1_S400x1_S400x1_S400x1_S400x1_S400x1_S400x1_S400x10_d1 : Shape.Concatenates [S400x1, S400x1, S400x1, S400x1, S400x1, S400x1, S400x1, S400x1, S400x1, S400x1] S400x10 1
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S400x1_S400x10 : S400x1.Broadcasts S400x10
  broadcasts_S1x10_S400x10 : S1x10.Broadcasts S400x10
  inb_S400x10_S400x10_0_0 : ∀ a, (![0, 0] : Fin 2 → Nat) a + S400x10.size a ≤ S400x10.size a
  h_S400x10 : 0 < S400x10.numel
  reducesTo_S16000x10_S16000_d1 : S16000x10.ReducesTo [1] S16000
  bcast_S_S16000 : S_.BroadcastsInDim S16000 (![] : Fin 0 → Fin S16000.rank)
  bcast_S16000_S16000x1_0 : S16000.BroadcastsInDim S16000x1 (![0] : Fin 1 → Fin S16000x1.rank)
  bcast_S16000x1_S16000x10_0_1 : S16000x1.BroadcastsInDim S16000x10 (![0, 1] : Fin 2 → Fin S16000x10.rank)
  bcast_S_S16000x1 : S_.BroadcastsInDim S16000x1 (![] : Fin 0 → Fin S16000x1.rank)
  shapeCasts_S16000x1_S16000x1x1 : S16000x1.ShapeCasts S16000x1x1
  bcast_S_S16000x1x1 : S_.BroadcastsInDim S16000x1x1 (![] : Fin 0 → Fin S16000x1x1.rank)
  bcast_S1_S1x1x1_2 : S1.BroadcastsInDim S1x1x1 (![2] : Fin 1 → Fin S1x1x1.rank)
  bcast_S1x1x1_S16000x1x1_0_1_2 : S1x1x1.BroadcastsInDim S16000x1x1 (![0, 1, 2] : Fin 3 → Fin S16000x1x1.rank)
  reducesTo_S16000x1x1_S16000x1_d2 : S16000x1x1.ReducesTo [2] S16000x1
  reducesTo_S16000x1_S_d0_1 : S16000x1.ReducesTo [0, 1] S_
  dot_S100x64x49_S100x64x49_S100x64x64_2_2_1_1_0_0_wf : DotDims.WF S100x64x49 S100x64x49 S100x64x64 [2] [2] [1] [1] [0] [0]
  dot_S400x64x49_S400x64x49_S400x64x64_2_2_1_1_0_0_wf : DotDims.WF S400x64x49 S400x64x49 S400x64x64 [2] [2] [1] [1] [0] [0]
  gather_S16000x10_S16000x1x1_S16000x1_n_1_0_0_1_2_11_wf : GatherDims.WF S16000x10 S16000x1x1 S16000x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100x64x49.size a ≤ S800x64x49.size a
  hwx0_0 : ∀ i : grid0.Coords, EltTy.bits .f32 = 32 ∨ (Rect.block (s := S800x64x49) S100x64x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100x64x64.size a ≤ S800x64x64.size a
  hwx0_2 : ∀ i : grid0.Coords, EltTy.bits .f32 = 32 ∨ (Rect.block (s := S800x64x64) S100x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x64x49.size a ≤ S16000x64x49.size a
  hwx1_0 : ∀ i : grid1.Coords, EltTy.bits .f32 = 32 ∨ (Rect.block (s := S16000x64x49) S400x64x49.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x64x64.size a ≤ S10x64x64.size a
  hwx1_2 : ∀ i : grid1.Coords, EltTy.bits .f32 = 32 ∨ (Rect.block (s := S10x64x64) S10x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x10.size a ≤ S16000x10.size a
  hwx1_4 : ∀ i : grid1.Coords, EltTy.bits .f32 = 32 ∨ (Rect.block (s := S16000x10) S400x10.size (cc1_transform_4 i) (hinb1_4 i)).WholeWords (EltTy.packing .f32)

variable [Facts₀]

def dot_S100x64x49_S100x64x49_S100x64x64_2_2_1_1_0_0 : DotDims S100x64x49 S100x64x49 S100x64x64 where
  lhsContracting := [2]
  rhsContracting := [2]
  lhsNonContracting := [1]
  rhsNonContracting := [1]
  lhsBatch := [0]
  rhsBatch := [0]
  wf := dot_S100x64x49_S100x64x49_S100x64x64_2_2_1_1_0_0_wf
def dot_S400x64x49_S400x64x49_S400x64x64_2_2_1_1_0_0 : DotDims S400x64x49 S400x64x49 S400x64x64 where
  lhsContracting := [2]
  rhsContracting := [2]
  lhsNonContracting := [1]
  rhsNonContracting := [1]
  lhsBatch := [0]
  rhsBatch := [0]
  wf := dot_S400x64x49_S400x64x49_S400x64x64_2_2_1_1_0_0_wf
def gather_S16000x10_S16000x1x1_S16000x1_n_1_0_0_1_2_11 : GatherDims S16000x10 S16000x1x1 S16000x1 where
  offsetDims := []
  collapsedSliceDims := [1]
  operandBatchingDims := [0]
  startIndicesBatchingDims := [0]
  startIndexMap := [1]
  indexVectorDim := 2
  sliceSizes := ![1, 1]
  wf := gather_S16000x10_S16000x1x1_S16000x1_n_1_0_0_1_2_11_wf

abbrev win0_0 : Pipeline.Window sig grid0 :=
  Pipeline.Window.ofSpec (Memref.whole main_v1) S100x64x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S100x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S400x64x49.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S10x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S400x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16800x64x7x7 : Shape := ⟨4, ![16800, 64, 7, 7]⟩
abbrev S1x1 : Shape := ⟨2, ![1, 1]⟩
abbrev S16000 : Shape := ⟨1, ![16000]⟩
abbrev S2080 : Shape := ⟨1, ![2080]⟩
abbrev S16800x64x49 : Shape := ⟨3, ![16800, 64, 49]⟩
abbrev S16800x64x64 : Shape := ⟨3, ![16800, 64, 64]⟩
abbrev S64 : Shape := ⟨1, ![64]⟩
abbrev S_ : Shape := ⟨0, ![]⟩
abbrev S64x1 : Shape := ⟨2, ![64, 1]⟩
abbrev S64x2 : Shape := ⟨2, ![64, 2]⟩
abbrev S16800x64 : Shape := ⟨2, ![16800, 64]⟩
abbrev S16800x1x64 : Shape := ⟨3, ![16800, 1, 64]⟩
abbrev S16800x64x1 : Shape := ⟨3, ![16800, 64, 1]⟩
abbrev S1x1x1 : Shape := ⟨3, ![1, 1, 1]⟩
abbrev S16800 : Shape := ⟨1, ![16800]⟩
abbrev S16800x1x1 : Shape := ⟨3, ![16800, 1, 1]⟩
abbrev S2080x1 : Shape := ⟨2, ![2080, 1]⟩
abbrev S2080x2 : Shape := ⟨2, ![2080, 2]⟩
abbrev S16800x2080 : Shape := ⟨2, ![16800, 2080]⟩
abbrev S800x2080 : Shape := ⟨2, ![800, 2080]⟩
abbrev S10x80x2080 : Shape := ⟨3, ![10, 80, 2080]⟩
abbrev S10x2080 : Shape := ⟨2, ![10, 2080]⟩
abbrev S16000x2080 : Shape := ⟨2, ![16000, 2080]⟩
abbrev S16000x1 : Shape := ⟨2, ![16000, 1]⟩
abbrev S10 : Shape := ⟨1, ![10]⟩
abbrev S1x10 : Shape := ⟨2, ![1, 10]⟩
abbrev S16000x10 : Shape := ⟨2, ![16000, 10]⟩
abbrev S16000x1x1 : Shape := ⟨3, ![16000, 1, 1]⟩
abbrev S1 : Shape := ⟨1, ![1]⟩

abbrev nBuf : Space → Nat
  | .hbm => 154
  | .vmem => 0
  | .smem => 0
  | _ => 0

abbrev hbmTy0_0 (i : Nat) : BufTy := match i % 128 with
  | 0 => ⟨S16800x64x7x7, .f32⟩
  | 1 => ⟨S1x1, .f32⟩
  | 2 => ⟨S16000, .i32⟩
  | 3 => ⟨S2080, .i32⟩
  | 4 => ⟨S2080, .i1⟩
  | 5 => ⟨S2080, .i32⟩
  | 6 => ⟨S2080, .i1⟩
  | 7 => ⟨S16800x64x49, .f32⟩
  | 8 => ⟨S16800x64x64, .f32⟩
  | 9 => ⟨S64, .i32⟩
  | 10 => ⟨S64, .i32⟩
  | 11 => ⟨S_, .i32⟩
  | 12 => ⟨S64, .i32⟩
  | 13 => ⟨S64, .i1⟩
  | 14 => ⟨S_, .i32⟩
  | 15 => ⟨S64, .i32⟩
  | 16 => ⟨S64, .i32⟩
  | 17 => ⟨S64, .i32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S64, .i32⟩
  | 25 => ⟨S64x1, .i32⟩
  | 26 => ⟨S64x1, .i32⟩
  | 27 => ⟨S64x2, .i32⟩
  | 28 => ⟨S16800x64, .f32⟩
  | 29 => ⟨S16800x1x64, .f32⟩
  | 30 => ⟨S16800x64x1, .f32⟩
  | 31 => ⟨S16800x64x64, .f32⟩
  | 32 => ⟨S16800x64x64, .f32⟩
  | 33 => ⟨S16800x64x64, .f32⟩
  | 34 => ⟨S_, .f32⟩
  | 35 => ⟨S16800x64x64, .f32⟩
  | 36 => ⟨S16800x64x64, .f32⟩
  | 37 => ⟨S16800x64x64, .f32⟩
  | 38 => ⟨S1x1, .f32⟩
  | 39 => ⟨S_, .f32⟩
  | 40 => ⟨S_, .f32⟩
  | 41 => ⟨S16800x64x64, .f32⟩
  | 42 => ⟨S16800x64x64, .f32⟩
  | 43 => ⟨S1x1x1, .f32⟩
  | 44 => ⟨S16800x64x64, .f32⟩
  | 45 => ⟨S16800x64x64, .f32⟩
  | 46 => ⟨S_, .f32⟩
  | 47 => ⟨S16800x64x64, .f32⟩
  | 48 => ⟨S16800x64x64, .f32⟩
  | 49 => ⟨S16800x64x64, .f32⟩
  | 50 => ⟨S_, .f32⟩
  | 51 => ⟨S16800x64, .f32⟩
  | 52 => ⟨S16800x64x1, .f32⟩
  | 53 => ⟨S_, .f32⟩
  | 54 => ⟨S16800x64x1, .f32⟩
  | 55 => ⟨S16800x64x1, .f32⟩
  | 56 => ⟨S_, .f32⟩
  | 57 => ⟨S16800x64, .f32⟩
  | 58 => ⟨S16800x1x64, .f32⟩
  | 59 => ⟨S_, .f32⟩
  | 60 => ⟨S16800x1x64, .f32⟩
  | 61 => ⟨S16800x1x64, .f32⟩
  | 62 => ⟨S_, .f32⟩
  | 63 => ⟨S16800, .f32⟩
  | 64 => ⟨S16800x1x1, .f32⟩
  | 65 => ⟨S_, .f32⟩
  | 66 => ⟨S16800x1x1, .f32⟩
  | 67 => ⟨S16800x1x1, .f32⟩
  | 68 => ⟨S16800x64x64, .f32⟩
  | 69 => ⟨S16800x64x64, .f32⟩
  | 70 => ⟨S16800x64x64, .f32⟩
  | 71 => ⟨S16800x64x64, .f32⟩
  | 72 => ⟨S16800x64x64, .f32⟩
  | 73 => ⟨S16800x64x64, .f32⟩
  | 74 => ⟨S_, .i32⟩
  | 75 => ⟨S2080, .i32⟩
  | 76 => ⟨S2080, .i32⟩
  | 77 => ⟨S2080, .i32⟩
  | 78 => ⟨S_, .i32⟩
  | 79 => ⟨S2080, .i32⟩
  | 80 => ⟨S2080, .i32⟩
  | 81 => ⟨S2080, .i32⟩
  | 82 => ⟨S2080x1, .i32⟩
  | 83 => ⟨S2080x1, .i32⟩
  | 84 => ⟨S2080x2, .i32⟩
  | 85 => ⟨S16800x2080, .f32⟩
  | 86 => ⟨S800x2080, .f32⟩
  | 87 => ⟨S10x80x2080, .f32⟩
  | 88 => ⟨S_, .f32⟩
  | 89 => ⟨S10x2080, .f32⟩
  | 90 => ⟨S_, .f32⟩
  | 91 => ⟨S10x2080, .f32⟩
  | 92 => ⟨S10x2080, .f32⟩
  | 93 => ⟨S16000x2080, .f32⟩
  | 94 => ⟨S16000x2080, .f32⟩
  | 95 => ⟨S_, .f32⟩
  | 96 => ⟨S16000, .f32⟩
  | 97 => ⟨S16000x1, .f32⟩
  | 98 => ⟨S10x2080, .f32⟩
  | 99 => ⟨S_, .f32⟩
  | 100 => ⟨S10, .f32⟩
  | 101 => ⟨S1x10, .f32⟩
  | 102 => ⟨S16000x10, .f32⟩
  | 103 => ⟨S16000x10, .f32⟩
  | 104 => ⟨S16000x10, .f32⟩
  | 105 => ⟨S16000x10, .f32⟩
  | 106 => ⟨S_, .f32⟩
  | 107 => ⟨S16000x10, .f32⟩
  | 108 => ⟨S16000x10, .f32⟩
  | 109 => ⟨S16000x10, .f32⟩
  | 110 => ⟨S16000x10, .f32⟩
  | 111 => ⟨S_, .f32⟩
  | 112 => ⟨S16000, .f32⟩
  | 113 => ⟨S_, .f32⟩
  | 114 => ⟨S16000, .f32⟩
  | 115 => ⟨S16000, .f32⟩
  | 116 => ⟨S16000x1, .f32⟩
  | 117 => ⟨S16000x10, .f32⟩
  | 118 => ⟨S16000x10, .f32⟩
  | 119 => ⟨S16000x10, .f32⟩
  | 120 => ⟨S_, .f32⟩
  | 121 => ⟨S16000, .f32⟩
  | 122 => ⟨S16000x1, .f32⟩
  | 123 => ⟨S16000x1, .f32⟩
  | 124 => ⟨S16000x10, .f32⟩
  | 125 => ⟨S16000x10, .f32⟩
  | 126 => ⟨S16000x1, .i32⟩
  | 127 => ⟨S_, .i32⟩
  | _ => ⟨S16800x64x7x7, .f32⟩

abbrev hbmTy0_1 (i : Nat) : BufTy := match i % 128 with
  | 0 => ⟨S16000x1, .i32⟩
  | 1 => ⟨S16000x1, .i1⟩
  | 2 => ⟨S_, .i32⟩
  | 3 => ⟨S16000x1, .i32⟩
  | 4 => ⟨S16000x1, .i32⟩
  | 5 => ⟨S16000x1, .i32⟩
  | 6 => ⟨S16000x1x1, .i32⟩
  | 7 => ⟨S1, .i32⟩
  | 8 => ⟨S_, .i32⟩
  | 9 => ⟨S16000x1x1, .i32⟩
  | 10 => ⟨S16000x1x1, .i1⟩
  | 11 => ⟨S1x1x1, .i32⟩
  | 12 => ⟨S16000x1x1, .i32⟩
  | 13 => ⟨S16000x1x1, .i1⟩
  | 14 => ⟨S16000x1x1, .i1⟩
  | 15 => ⟨S_, .i1⟩
  | 16 => ⟨S16000x1, .i1⟩
  | 17 => ⟨S16000x1, .f32⟩
  | 18 => ⟨S_, .f32⟩
  | 19 => ⟨S16000x1, .f32⟩
  | 20 => ⟨S16000x1, .f32⟩
  | 21 => ⟨S_, .f32⟩
  | 22 => ⟨S_, .f32⟩
  | 23 => ⟨S_, .f32⟩
  | 24 => ⟨S_, .f32⟩
  | 25 => ⟨S_, .f32⟩
  | _ => ⟨S16800x64x7x7, .f32⟩

abbrev hbmTy (i : Nat) : BufTy := match i / 128 with
  | 0 => hbmTy0_0 i
  | 1 => hbmTy0_1 i
  | _ => ⟨S16800x64x7x7, .f32⟩

abbrev bufTy : (tb : Table) → Fin (tcTables nBuf tb) → BufTy
  | .hbm, ⟨i, _⟩ => hbmTy i
  | _, _ => ⟨S16800x64x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_c : Ref sig .tc := ⟨.hbm, 11, rfl⟩
abbrev main_call0_v2 : Ref sig .tc := ⟨.hbm, 12, rfl⟩
abbrev main_call0_v3 : Ref sig .tc := ⟨.hbm, 13, rfl⟩
abbrev main_call0_c_0 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_c_1 : Ref sig .tc := ⟨.hbm, 18, rfl⟩
abbrev main_call0_v7 : Ref sig .tc := ⟨.hbm, 19, rfl⟩
abbrev main_call0_v8 : Ref sig .tc := ⟨.hbm, 20, rfl⟩
abbrev main_call0_c_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_5 : Ref sig .tc := ⟨.hbm, 50, rfl⟩
abbrev main_v19 : Ref sig .tc := ⟨.hbm, 51, rfl⟩
abbrev main_v20 : Ref sig .tc := ⟨.hbm, 52, rfl⟩
abbrev main_cst_6 : Ref sig .tc := ⟨.hbm, 53, rfl⟩
abbrev main_v21 : Ref sig .tc := ⟨.hbm, 54, rfl⟩
abbrev main_v22 : Ref sig .tc := ⟨.hbm, 55, rfl⟩
abbrev main_cst_7 : Ref sig .tc := ⟨.hbm, 56, rfl⟩
abbrev main_v23 : Ref sig .tc := ⟨.hbm, 57, rfl⟩
abbrev main_v24 : Ref sig .tc := ⟨.hbm, 58, rfl⟩
abbrev main_cst_8 : Ref sig .tc := ⟨.hbm, 59, rfl⟩
abbrev main_v25 : Ref sig .tc := ⟨.hbm, 60, rfl⟩
abbrev main_v26 : Ref sig .tc := ⟨.hbm, 61, rfl⟩
abbrev main_cst_9 : Ref sig .tc := ⟨.hbm, 62, rfl⟩
abbrev main_v27 : Ref sig .tc := ⟨.hbm, 63, rfl⟩
abbrev main_v28 : Ref sig .tc := ⟨.hbm, 64, rfl⟩
abbrev main_cst_10 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_11 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_12 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_13 : Ref sig .tc := ⟨.hbm, 88, rfl⟩
abbrev main_v49 : Ref sig .tc := ⟨.hbm, 89, rfl⟩
abbrev main_cst_14 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_15 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_16 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_17 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v67 : Ref sig .tc := ⟨.hbm, 125, rfl⟩
abbrev main_v68 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_cst : Ref sig .tc := ⟨.hbm, 146, rfl⟩
abbrev main_call3_v14 : Ref sig .tc := ⟨.hbm, 147, rfl⟩
abbrev main_v69 : Ref sig .tc := ⟨.hbm, 148, rfl⟩
abbrev main_cst_18 : Ref sig .tc := ⟨.hbm, 149, rfl⟩
abbrev main_v70 : Ref sig .tc := ⟨.hbm, 150, rfl⟩
abbrev main_cst_19 : Ref sig .tc := ⟨.hbm, 151, rfl⟩
abbrev main_v71 : Ref sig .tc := ⟨.hbm, 152, rfl⟩
abbrev main_v72 : Ref sig .tc := ⟨.hbm, 153, rfl⟩

abbrev nD : Nat := 1
abbrev τ : Topo := Topo.v7x

variable {F : FTy → Type} [FloatOps F]

class Facts₀ : Prop where
  shapeCasts_S16800x64x7x7_S16800x64x49 : S16800x64x7x7.ShapeCasts S16800x64x49
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S16800x64_S16800x1x64_0_2 : S16800x64.BroadcastsInDim S16800x1x64 (![0, 2] : Fin 2 → Fin S16800x1x64.rank)
  bcast_S16800x64_S16800x64x1_0_1 : S16800x64.BroadcastsInDim S16800x64x1 (![0, 1] : Fin 2 → Fin S16800x64x1.rank)
  bcast_S16800x1x64_S16800x64x64_0_1_2 : S16800x1x64.BroadcastsInDim S16800x64x64 (![0, 1, 2] : Fin 3 → Fin S16800x64x64.rank)
  bcast_S16800x64x1_S16800x64x64_0_1_2 : S16800x64x1.BroadcastsInDim S16800x64x64 (![0, 1, 2] : Fin 3 → Fin S16800x64x64.rank)
  bcast_S_S16800x64x64 : S_.BroadcastsInDim S16800x64x64 (![] : Fin 0 → Fin S16800x64x64.rank)
  bcast_S1x1_S1x1x1_1_2 : S1x1.BroadcastsInDim S1x1x1 (![1, 2] : Fin 2 → Fin S1x1x1.rank)
  bcast_S1x1x1_S16800x64x64_0_1_2 : S1x1x1.BroadcastsInDim S16800x64x64 (![0, 1, 2] : Fin 3 → Fin S16800x64x64.rank)
  reducesTo_S16800x64x64_S16800x64_d2 : S16800x64x64.ReducesTo [2] S16800x64
  h_S_ : 0 < S_.numel
  bcast_S_S16800x64x1 : S_.BroadcastsInDim S16800x64x1 (![] : Fin 0 → Fin S16800x64x1.rank)
  reducesTo_S16800x64x64_S16800x64_d1 : S16800x64x64.ReducesTo [1] S16800x64
  bcast_S_S16800x1x64 : S_.BroadcastsInDim S16800x1x64 (![] : Fin 0 → Fin S16800x1x64.rank)
  reducesTo_S16800x64x64_S16800_d1_2 : S16800x64x64.ReducesTo [1, 2] S16800
  bcast_S16800_S16800x1x1_0 : S16800.BroadcastsInDim S16800x1x1 (![0] : Fin 1 → Fin S16800x1x1.rank)
  bcast_S_S16800x1x1 : S_.BroadcastsInDim S16800x1x1 (![] : Fin 0 → Fin S16800x1x1.rank)
  bcast_S16800x1x1_S16800x64x64_0_1_2 : S16800x1x1.BroadcastsInDim S16800x64x64 (![0, 1, 2] : Fin 3 → Fin S16800x64x64.rank)
  bcast_S_S2080 : S_.BroadcastsInDim S2080 (![] : Fin 0 → Fin S2080.rank)
  bcast_S2080_S2080x1_0 : S2080.BroadcastsInDim S2080x1 (![0] : Fin 1 → Fin S2080x1.rank)
  concatenates_S2080x1_S2080x1_S2080x2_d1 : Shape.Concatenates [S2080x1, S2080x1] S2080x2 1
  slices_S16800x2080_S800x2080_0_0 : S16800x2080.Slices ![0, 0] S800x2080
  shapeCasts_S800x2080_S10x80x2080 : S800x2080.ShapeCasts S10x80x2080
  reducesTo_S10x80x2080_S10x2080_d1 : S10x80x2080.ReducesTo [1] S10x2080
  bcast_S_S10x2080 : S_.BroadcastsInDim S10x2080 (![] : Fin 0 → Fin S10x2080.rank)
  slices_S16800x2080_S16000x2080_800_0 : S16800x2080.Slices ![800, 0] S16000x2080
  reducesTo_S16000x2080_S16000_d1 : S16000x2080.ReducesTo [1] S16000
  bcast_S16000_S16000x1_0 : S16000.BroadcastsInDim S16000x1 (![0] : Fin 1 → Fin S16000x1.rank)
  reducesTo_S10x2080_S10_d1 : S10x2080.ReducesTo [1] S10
  bcast_S10_S1x10_1 : S10.BroadcastsInDim S1x10 (![1] : Fin 1 → Fin S1x10.rank)
  bcast_S16000x1_S16000x10_0_1 : S16000x1.BroadcastsInDim S16000x10 (![0, 1] : Fin 2 → Fin S16000x10.rank)
  bcast_S1x10_S16000x10_0_1 : S1x10.BroadcastsInDim S16000x10 (![0, 1] : Fin 2 → Fin S16000x10.rank)
  bcast_S_S16000x10 : S_.BroadcastsInDim S16000x10 (![] : Fin 0 → Fin S16000x10.rank)
  reducesTo_S16000x10_S16000_d1 : S16000x10.ReducesTo [1] S16000
  bcast_S_S16000 : S_.BroadcastsInDim S16000 (![] : Fin 0 → Fin S16000.rank)
  bcast_S_S16000x1 : S_.BroadcastsInDim S16000x1 (![] : Fin 0 → Fin S16000x1.rank)
  shapeCasts_S16000x1_S16000x1x1 : S16000x1.ShapeCasts S16000x1x1
  bcast_S_S16000x1x1 : S_.BroadcastsInDim S16000x1x1 (![] : Fin 0 → Fin S16000x1x1.rank)
  bcast_S1_S1x1x1_2 : S1.BroadcastsInDim S1x1x1 (![2] : Fin 1 → Fin S1x1x1.rank)
  bcast_S1x1x1_S16000x1x1_0_1_2 : S1x1x1.BroadcastsInDim S16000x1x1 (![0, 1, 2] : Fin 3 → Fin S16000x1x1.rank)
  reducesTo_S16000x1x1_S16000x1_d2 : S16000x1x1.ReducesTo [2] S16000x1
  reducesTo_S16000x1_S_d0_1 : S16000x1.ReducesTo [0, 1] S_
  dot_S16800x64x49_S16800x64x49_S16800x64x64_2_2_1_1_0_0_wf : DotDims.WF S16800x64x49 S16800x64x49 S16800x64x64 [2] [2] [1] [1] [0] [0]
  gather_S16800x64x64_S64x2_S16800x64_0_12_n_n_12_1_1680011_wf : GatherDims.WF S16800x64x64 S64x2 S16800x64 [0] [1, 2] [] [1, 2] [] 1 ![16800, 1, 1]
  gather_S16800x64x64_S2080x2_S16800x2080_0_12_n_n_12_1_1680011_wf : GatherDims.WF S16800x64x64 S2080x2 S16800x2080 [0] [1, 2] [] [1, 2] [] 1 ![16800, 1, 1]
  dot_S16000x2080_S10x2080_S16000x10_1_1_0_0_n_n_wf : DotDims.WF S16000x2080 S10x2080 S16000x10 [1] [1] [0] [0] [] []
  gather_S16000x10_S16000x1x1_S16000x1_n_1_0_0_1_2_11_wf : GatherDims.WF S16000x10 S16000x1x1 S16000x1 [] [1] [0] [1] [0] 2 ![1, 1]

variable [Facts₀]

def dot_S16800x64x49_S16800x64x49_S16800x64x64_2_2_1_1_0_0 : DotDims S16800x64x49 S16800x64x49 S16800x64x64 where
  lhsContracting := [2]
  rhsContracting := [2]
  lhsNonContracting := [1]
  rhsNonContracting := [1]
  lhsBatch := [0]
  rhsBatch := [0]
  wf := dot_S16800x64x49_S16800x64x49_S16800x64x64_2_2_1_1_0_0_wf
def gather_S16800x64x64_S64x2_S16800x64_0_12_n_n_12_1_1680011 : GatherDims S16800x64x64 S64x2 S16800x64 where
  offsetDims := [0]
  collapsedSliceDims := [1, 2]
  operandBatchingDims := []
  startIndicesBatchingDims := []
  startIndexMap := [1, 2]
  indexVectorDim := 1
  sliceSizes := ![16800, 1, 1]
  wf := gather_S16800x64x64_S64x2_S16800x64_0_12_n_n_12_1_1680011_wf
def gather_S16800x64x64_S2080x2_S16800x2080_0_12_n_n_12_1_1680011 : GatherDims S16800x64x64 S2080x2 S16800x2080 where
  offsetDims := [0]
  collapsedSliceDims := [1, 2]
  operandBatchingDims := []
  startIndicesBatchingDims := []
  startIndexMap := [1, 2]
  indexVectorDim := 1
  sliceSizes := ![16800, 1, 1]
  wf := gather_S16800x64x64_S2080x2_S16800x2080_0_12_n_n_12_1_1680011_wf
def dot_S16000x2080_S10x2080_S16000x10_1_1_0_0_n_n : DotDims S16000x2080 S10x2080 S16000x10 where
  lhsContracting := [1]
  rhsContracting := [1]
  lhsNonContracting := [0]
  rhsNonContracting := [0]
  lhsBatch := []
  rhsBatch := []
  wf := dot_S16000x2080_S10x2080_S16000x10_1_1_0_0_n_n_wf
def gather_S16000x10_S16000x1x1_S16000x1_n_1_0_0_1_2_11 : GatherDims S16000x10 S16000x1x1 S16000x1 where
  offsetDims := []
  collapsedSliceDims := [1]
  operandBatchingDims := [0]
  startIndicesBatchingDims := [0]
  startIndexMap := [1]
  indexVectorDim := 2
  sliceSizes := ![1, 1]
  wf := gather_S16000x10_S16000x1x1_S16000x1_n_1_0_0_1_2_11_wf

class Facts : Prop extends Facts₀ where

variable [Facts]
-- ==== Proof.Spec.lean ====
/-
  The mathematics both programs compute, written once over plain index functions.

  For one sample `x` (64 channels by 49 positions) and a positive scale `te`:
    gram x i j   = ∑ₖ x i k · x j k                                  (the channel Gram matrix)
    dist x te i j = √(te · max (gram x j j + gram x i i − 2 · gram x i j) 0 + ε)
                                                                      (a smoothed pairwise distance of channels i and j)
    cen x te i j  = dist i j − (row mean of row i) − (column mean of column j) + (mean of all 64·64 entries)
                                                                      (the doubly centred distance matrix).
  The matrix is symmetric in its use downstream, and only its upper triangle `i ≤ j` (2080 entries) is kept:
  a class prototype `sup cls` is the mean over that class's 80 support samples of their centred matrices, and the
  score of query `q` against class `cls` is minus the squared Euclidean distance between the query's triangle
  and the prototype's triangle, expanded as −(‖q‖² + ‖s‖² − 2⟨q, s⟩), each norm and inner product a sum over the
  triangle.  One program sums over the triangle by gathering its 2080 entries, the other by multiplying the full
  64·64 matrix with the 0/1 indicator of `i ≤ j`; both are the sums below.
-/
import Idealize.ShloMosaic.PureOps.Ideal
import Idealize.ShloMosaic.Lib.ValueIdx

noncomputable section

namespace Cert.Spec

open Idealize.ShloMosaic Idealize.ShloMosaic.ValueIdx

-- The literal words both programs carry, read as extended reals: 2, 0, ε (the f32 nearest 1e-5), 64, 4096, 80.
abbrev c2 : EReal := Ideal.ofBits .f32 0x40000000#32
abbrev c0 : EReal := Ideal.ofBits .f32 0x00000000#32
abbrev ceps : EReal := Ideal.ofBits .f32 0x3727C5AC#32
abbrev c64 : EReal := Ideal.ofBits .f32 0x42800000#32
abbrev c4096 : EReal := Ideal.ofBits .f32 0x45800000#32
abbrev c80 : EReal := Ideal.ofBits .f32 0x42A00000#32

/-- The Gram matrix of one sample's 64 channel rows. -/
def gram (x : Fin 64 → Fin 49 → EReal) (i j : Fin 64) : EReal := ∑ k : Fin 49, x i k * x j k

/-- The smoothed distance between channels `i` and `j`: the squared distance `‖xⱼ‖² + ‖xᵢ‖² − 2⟨xᵢ, xⱼ⟩` clipped at
    zero, scaled by `te`, shifted by ε, square-rooted. -/
def dist (x : Fin 64 → Fin 49 → EReal) (te : EReal) (i j : Fin 64) : EReal :=
  Ideal.sqrt (te * max (gram x j j + gram x i i - c2 * gram x i j) c0 + ceps)

/-- The doubly centred distance matrix: minus the row mean, minus the column mean, plus the grand mean. -/
def cen (x : Fin 64 → Fin 49 → EReal) (te : EReal) (i j : Fin 64) : EReal :=
  dist x te i j - Ideal.div (∑ j' : Fin 64, dist x te i j') c64 - Ideal.div (∑ i' : Fin 64, dist x te i' j) c64
    + Ideal.div (∑ i' : Fin 64, ∑ j' : Fin 64, dist x te i' j') c4096

/-- The indicator of the upper triangle, diagonal included. -/
def mask (i j : Fin 64) : EReal := if i ≤ j then 1 else 0

/-- The upper triangle as a set of index pairs: 2080 of them. -/
def triu : Finset (Fin 64 × Fin 64) := Finset.univ.filter fun p => p.1 ≤ p.2

section Episode

-- All 16800 samples, channel-major, the 7·7 positions flattened to 49; and the scale.
variable (Y : (⟨3, ![16800, 64, 49]⟩ : Shape).Idx → EReal) (te : EReal)

/-- Sample `b` as a 64 by 49 matrix. -/
def samp (b : Fin 16800) : Fin 64 → Fin 49 → EReal := fun i k => Y (ix3 b i k)

/-- Sample `b`'s centred distance matrix. -/
def tv (b : Fin 16800) (i j : Fin 64) : EReal := cen (samp Y b) te i j

/-- The support samples come first, 80 per class. -/
def supRow (cls : Fin 10) (l : Fin 80) : Fin 16800 := ⟨80 * cls.val + l.val, by omega⟩
/-- The 16000 query samples follow the 800 support samples. -/
def qRow (q : Fin 16000) : Fin 16800 := ⟨800 + q.val, by omega⟩

/-- Class `cls`'s prototype: the mean of its 80 support samples' matrices. -/
def sup (cls : Fin 10) (i j : Fin 64) : EReal := Ideal.div (∑ l : Fin 80, tv Y te (supRow cls l) i j) c80

/-- Squared norm of a query's triangle. -/
def q2 (q : Fin 16000) : EReal := ∑ p ∈ triu, tv Y te (qRow q) p.1 p.2 * tv Y te (qRow q) p.1 p.2
/-- Squared norm of a prototype's triangle. -/
def s2 (cls : Fin 10) : EReal := ∑ p ∈ triu, sup Y te cls p.1 p.2 * sup Y te cls p.1 p.2
/-- Inner product of a query's and a prototype's triangles. -/
def cross (q : Fin 16000) (cls : Fin 10) : EReal := ∑ p ∈ triu, tv Y te (qRow q) p.1 p.2 * sup Y te cls p.1 p.2

/-- The score: minus the expanded squared distance. -/
def score (q : Fin 16000) (cls : Fin 10) : EReal := -(q2 Y te q + s2 Y te cls - c2 * cross Y te q cls)

/-- The score array, 16000 queries by 10 classes. -/
def scoreArr : (⟨2, ![16000, 10]⟩ : Shape).Idx → EReal := fun idx => score Y te (idx 0) (idx 1)

end Episode

/-- The input feature maps [16800, 64, 7, 7] with the two spatial axes flattened row-major to 49. -/
def flat (X : FVec Ideal ⟨4, ![16800, 64, 7, 7]⟩ .f32) : FVec Ideal ⟨3, ![16800, 64, 49]⟩ .f32 :=
  shapeCast ⟨3, ![16800, 64, 49]⟩ X (by decide)

/-- The whole score as a function of the two float inputs: the scale is the exponential of the one temperature entry. -/
def scoreOf (X : FVec Ideal ⟨4, ![16800, 64, 7, 7]⟩ .f32) (T : FVec Ideal ⟨2, ![1, 1]⟩ .f32) :
    FVec Ideal ⟨2, ![16000, 10]⟩ .f32 :=
  scoreArr (flat X) (Ideal.exp (T (ix2 0 0)))

end Cert.Spec

end
-- ==== Proof.LibSums.lean ====
/-
  General facts about finite sums used on both sides.
  (1) A double sum over an n by n square of a summand that is switched off below the diagonal is the sum over the
      upper triangle.
  (2) A reduction of a rank-3 array over its two inner axes, read at a result index: the set of source indices that
      drop to the result index j is the set of pairs of inner coordinates at the outer coordinate j, so the reduction
      is the double sum over those pairs; stated for the bare sum, for a vector reduction and for a host reduction
      (which adds its initial value).
-/
import Idealize.ShloMosaic.PureOps.Ideal.Laws
import Idealize.ShloMosaic.Lib.ValueIdx

noncomputable section

namespace Cert.LibSums

open Idealize.ShloMosaic Idealize.ShloMosaic.ValueIdx

/-- The double sum of a summand that is zero below the diagonal is the sum over the pairs on or above it. -/
theorem sum_sum_ite_le {M : Type*} [AddCommMonoid M] {n : ℕ} (f : Fin n → Fin n → M) :
    ∑ i : Fin n, ∑ j : Fin n, (if i ≤ j then f i j else 0)
      = ∑ p ∈ (Finset.univ.filter fun p : Fin n × Fin n => p.1 ≤ p.2), f p.1 p.2 := by
  rw [Finset.sum_filter, Fintype.sum_prod_type]

/-- Dropping the two inner coordinates of a rank-3 index leaves its outer coordinate: an index drops to `j` exactly when
    its outer coordinate is `j`'s. -/
theorem drop_12_iff {n a b : ℕ} (h : (⟨3, ![n, a, b]⟩ : Shape).Reduces [1, 2] ⟨1, ![n]⟩)
    (i : (⟨3, ![n, a, b]⟩ : Shape).Idx) (j : (⟨1, ![n]⟩ : Shape).Idx) : h.drop i = j ↔ (i 0).val = (j 0).val := by
  constructor
  · intro e
    have e0 := congrArg (fun v : (⟨1, ![n]⟩ : Shape).Idx => (v 0).val) e
    exact e0
  · intro e
    funext c
    have hc : c = 0 := Subsingleton.elim _ _
    subst hc
    exact Fin.ext e

/-- Over the source indices that the reduction of the two inner axes sends to `j`, a sum is the double sum over the
    inner coordinates at the outer coordinate of `j`: the pair of inner coordinates is a bijection from those indices
    onto all pairs. -/
theorem sum_filter_drop_12 {M : Type*} [AddCommMonoid M] {n a b : ℕ}
    (h : (⟨3, ![n, a, b]⟩ : Shape).Reduces [1, 2] ⟨1, ![n]⟩)
    (x : (⟨3, ![n, a, b]⟩ : Shape).Idx → M) (j : (⟨1, ![n]⟩ : Shape).Idx) :
    ∑ i ∈ Finset.univ.filter (fun i => h.drop i = j), x i = ∑ p : Fin a, ∑ q : Fin b, x (ix3 (j 0) p q) := by
  rw [← Fintype.sum_prod_type' (f := fun (p : Fin a) (q : Fin b) => x (ix3 (j 0) p q))]
  refine Finset.sum_nbij' (fun i => ((i 1, i 2) : Fin a × Fin b)) (fun pq => ix3 (j 0) pq.1 pq.2) ?_ ?_ ?_ ?_ ?_
  · intro i _; exact Finset.mem_univ _
  · intro pq _
    exact Finset.mem_filter.2 ⟨Finset.mem_univ _, (drop_12_iff h _ j).2 rfl⟩
  · intro i hi
    have h0 : (i 0).val = (j 0).val := (drop_12_iff h i j).1 (Finset.mem_filter.1 hi).2
    have hi3 := eq_ix3 i
    rw [hi3]
    congr 1
    exact (Fin.ext h0).symm
  · intro pq _; rfl
  · intro i hi
    have h0 : (i 0).val = (j 0).val := (drop_12_iff h i j).1 (Finset.mem_filter.1 hi).2
    show x i = x (ix3 (j 0) (i 1) (i 2))
    have e : (ix3 (j 0) (i 1) (i 2) : (⟨3, ![n, a, b]⟩ : Shape).Idx) = i := by
      rw [eq_ix3 i]
      congr 1
      exact (Fin.ext h0).symm
    rw [e]

/-- A vector reduction over the two inner axes, at `Ideal`, read at a result index. -/
theorem multiReduction_add_12 {n a b : ℕ} {φ : FTy} (src : FVec Ideal ⟨3, ![n, a, b]⟩ φ) (acc : BitVec φ.bits)
    (h : (⟨3, ![n, a, b]⟩ : Shape).Reduces [1, 2] ⟨1, ![n]⟩) (hφ : FKind.Formats φ) (hacc : acc = FKind.add.neutral φ hφ)
    (j : (⟨1, ![n]⟩ : Shape).Idx) :
    multiReduction .add [1, 2] ⟨1, ![n]⟩ src acc h hφ hacc j = ∑ p : Fin a, ∑ q : Fin b, src (ix3 (j 0) p q) :=
  sum_filter_drop_12 h src j

/-- A host reduction over the two inner axes, at `Ideal`: the initial value plus the double sum. -/
theorem hostReduceAdd_12 {n a b : ℕ} (h' : (⟨3, ![n, a, b]⟩ : Shape).ReducesTo [1, 2] ⟨1, ![n]⟩)
    (h : (⟨3, ![n, a, b]⟩ : Shape).Reduces [1, 2] ⟨1, ![n]⟩) (x : (⟨3, ![n, a, b]⟩ : Shape).Idx → EReal) (init : EReal)
    (j : (⟨1, ![n]⟩ : Shape).Idx) :
    Ideal.hostReduceAdd h' x init j = init + ∑ p : Fin a, ∑ q : Fin b, x (ix3 (j 0) p q) := by
  unfold Ideal.hostReduceAdd
  rw [Shape.ReducesTo.drop_eq_drop h' h, sum_filter_drop_12]

end Cert.LibSums

end
-- ==== Proof.LibLayout.lean ====
/-
  Layout operations on rank-3 arrays read at an index given by coordinates, at any extents: the shape casts that
  put a unit axis in the middle or at the end of a matrix (and two of them after a vector), the broadcasts that
  stretch such unit axes over a full axis again, the sums over the last and over the middle axis as sums over one
  coordinate, a vector's element taken out at a static position, and the two 0/1 matrices a kernel makes by comparing
  the row-index grid of a square with its column-index grid (the identity and the upper triangle).  Every statement
  names both indices by coordinates, so that it applies to a printed operation by unification.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

namespace Cert.LibLayout

open Idealize.ShloMosaic Idealize.ShloMosaic.ValueIdx

variable {α : Type}

/-! ## A unit axis put into a matrix or after a vector -/

/-- An `[n, a]` array cast to `[n, 1, a]` reads, at `(p, u, c)`, the operand at `(p, c)`: the row-major position
    `(p · 1 + u) · a + c` is `p · a + c` because `u = 0`. -/
theorem shapeCast_na_n1a_apply {n a : ℕ} (x : (⟨2, ![n, a]⟩ : Shape).Idx → α)
    (h : (⟨2, ![n, a]⟩ : Shape).ShapeCasts ⟨3, ![n, 1, a]⟩) (p : Fin n) (u : Fin 1) (c : Fin a) :
    shapeCast ⟨3, ![n, 1, a]⟩ x h (ix3 p u c) = x (ix2 p c) :=
  shapeCast_apply x h _ _ (by
    have hu : u.val = 0 := by omega
    rw [Shape.rowMajor_val_three, Shape.rowMajor_val_two]
    show p.val * a + c.val = (p.val * 1 + u.val) * a + c.val
    rw [hu, Nat.mul_one, Nat.add_zero])

/-- An `[n, a]` array cast to `[n, a, 1]` reads, at `(p, c, u)`, the operand at `(p, c)`. -/
theorem shapeCast_na_na1_apply {n a : ℕ} (x : (⟨2, ![n, a]⟩ : Shape).Idx → α)
    (h : (⟨2, ![n, a]⟩ : Shape).ShapeCasts ⟨3, ![n, a, 1]⟩) (p : Fin n) (c : Fin a) (u : Fin 1) :
    shapeCast ⟨3, ![n, a, 1]⟩ x h (ix3 p c u) = x (ix2 p c) :=
  shapeCast_apply x h _ _ (by
    have hu : u.val = 0 := by omega
    rw [Shape.rowMajor_val_three, Shape.rowMajor_val_two]
    show p.val * a + c.val = (p.val * a + c.val) * 1 + u.val
    rw [hu, Nat.mul_one, Nat.add_zero])

/-- An `[n]` array cast to `[n, 1, 1]` reads, at `(p, u, v)`, the operand at `p`. -/
theorem shapeCast_n_n11_apply {n : ℕ} (x : (⟨1, ![n]⟩ : Shape).Idx → α)
    (h : (⟨1, ![n]⟩ : Shape).ShapeCasts ⟨3, ![n, 1, 1]⟩) (p : Fin n) (u v : Fin 1) :
    shapeCast ⟨3, ![n, 1, 1]⟩ x h (ix3 p u v) = x (ix1 p) :=
  shapeCast_apply x h _ _ (by
    have hu : u.val = 0 := by omega
    have hv : v.val = 0 := by omega
    rw [Shape.rowMajor_val_three, Shape.rowMajor_val_one]
    show p.val = (p.val * 1 + u.val) * 1 + v.val
    omega)

/-! ## Unit axes stretched back over a full axis -/

/-- An `[n, 1, b]` array broadcast to `[n, a, b]` reads, at `(p, r, c)`, the operand at `(p, 0, c)`: the one row of
    sample `p` is repeated down the `a` rows. -/
theorem broadcastTo_n1b_nab_apply {n a b : ℕ} (v : (⟨3, ![n, 1, b]⟩ : Shape).Idx → α)
    (h : (⟨3, ![n, 1, b]⟩ : Shape).Broadcasts ⟨3, ![n, a, b]⟩) (p : Fin n) (r : Fin a) (c : Fin b) :
    broadcastTo ⟨3, ![n, a, b]⟩ v h (ix3 p r c) = v (ix3 p (0 : Fin 1) c) := by
  refine broadcastTo_apply v h (ix3 p r c) (ix3 p (0 : Fin 1) c) fun ax => ?_
  match ax with
  | ⟨0, _⟩ =>
    show p.val = if n = 1 then 0 else p.val
    split
    · have := p.isLt; omega
    · rfl
  | ⟨1, _⟩ => rfl
  | ⟨2, _⟩ =>
    show c.val = if b = 1 then 0 else c.val
    split
    · have := c.isLt; omega
    · rfl

/-- An `[n, a, 1]` array broadcast to `[n, a, b]` reads, at `(p, r, c)`, the operand at `(p, r, 0)`: the one column of
    sample `p` is repeated along the `b` columns. -/
theorem broadcastTo_na1_nab_apply {n a b : ℕ} (v : (⟨3, ![n, a, 1]⟩ : Shape).Idx → α)
    (h : (⟨3, ![n, a, 1]⟩ : Shape).Broadcasts ⟨3, ![n, a, b]⟩) (p : Fin n) (r : Fin a) (c : Fin b) :
    broadcastTo ⟨3, ![n, a, b]⟩ v h (ix3 p r c) = v (ix3 p r (0 : Fin 1)) := by
  refine broadcastTo_apply v h (ix3 p r c) (ix3 p r (0 : Fin 1)) fun ax => ?_
  match ax with
  | ⟨0, _⟩ =>
    show p.val = if n = 1 then 0 else p.val
    split
    · have := p.isLt; omega
    · rfl
  | ⟨1, _⟩ =>
    show r.val = if a = 1 then 0 else r.val
    split
    · have := r.isLt; omega
    · rfl
  | ⟨2, _⟩ => rfl

/-- An `[n, 1, 1]` array broadcast to `[n, a, b]` reads, at `(p, r, c)`, the operand at `(p, 0, 0)`: one number per
    sample, repeated over the whole `a` by `b` matrix. -/
theorem broadcastTo_n11_nab_apply {n a b : ℕ} (v : (⟨3, ![n, 1, 1]⟩ : Shape).Idx → α)
    (h : (⟨3, ![n, 1, 1]⟩ : Shape).Broadcasts ⟨3, ![n, a, b]⟩) (p : Fin n) (r : Fin a) (c : Fin b) :
    broadcastTo ⟨3, ![n, a, b]⟩ v h (ix3 p r c) = v (ix3 p (0 : Fin 1) (0 : Fin 1)) := by
  refine broadcastTo_apply v h (ix3 p r c) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- A `[1, a, b]` array broadcast to `[n, a, b]` reads, at `(p, r, c)`, the operand at `(0, r, c)`: one matrix repeated
    for every sample. -/
theorem broadcastTo_1ab_nab_apply {n a b : ℕ} (v : (⟨3, ![1, a, b]⟩ : Shape).Idx → α)
    (h : (⟨3, ![1, a, b]⟩ : Shape).Broadcasts ⟨3, ![n, a, b]⟩) (p : Fin n) (r : Fin a) (c : Fin b) :
    broadcastTo ⟨3, ![n, a, b]⟩ v h (ix3 p r c) = v (ix3 (0 : Fin 1) r c) := by
  refine broadcastTo_apply v h (ix3 p r c) (ix3 (0 : Fin 1) r c) fun ax => ?_
  match ax with
  | ⟨0, _⟩ => rfl
  | ⟨1, _⟩ =>
    show r.val = if a = 1 then 0 else r.val
    split
    · have := r.isLt; omega
    · rfl
  | ⟨2, _⟩ =>
    show c.val = if b = 1 then 0 else c.val
    split
    · have := c.isLt; omega
    · rfl

/-! ## Sums over one axis of a rank-3 array -/

/-- The sum over the LAST axis of an `[n, a, b]` array, read at `(p, r)`: the sum over `c` of the entries `(p, r, c)`. -/
theorem multiReduction_add_last {n a b : ℕ} {φ : FTy} (src : FVec Ideal ⟨3, ![n, a, b]⟩ φ) (acc : BitVec φ.bits)
    (h : (⟨3, ![n, a, b]⟩ : Shape).Reduces [2] ⟨2, ![n, a]⟩) (hφ : FKind.Formats φ) (hacc : acc = FKind.add.neutral φ hφ)
    (p : Fin n) (r : Fin a) :
    multiReduction .add [2] ⟨2, ![n, a]⟩ src acc h hφ hacc (ix2 p r) = ∑ c : Fin b, src (ix3 p r c) := by
  refine (Ideal.multiReduction_add_single src acc h hφ hacc (ix2 p r)).trans ?_
  refine Finset.sum_congr rfl fun c _ => congrArg src (funext fun ax => Fin.ext ?_)
  match ax with
  | ⟨0, _⟩ => rfl
  | ⟨1, _⟩ => rfl
  | ⟨2, _⟩ => rfl

/-- The sum over the MIDDLE axis of an `[n, a, b]` array, read at `(p, c)`: the sum over `r` of the entries `(p, r, c)`. -/
theorem multiReduction_add_middle {n a b : ℕ} {φ : FTy} (src : FVec Ideal ⟨3, ![n, a, b]⟩ φ) (acc : BitVec φ.bits)
    (h : (⟨3, ![n, a, b]⟩ : Shape).Reduces [1] ⟨2, ![n, b]⟩) (hφ : FKind.Formats φ) (hacc : acc = FKind.add.neutral φ hφ)
    (p : Fin n) (c : Fin b) :
    multiReduction .add [1] ⟨2, ![n, b]⟩ src acc h hφ hacc (ix2 p c) = ∑ r : Fin a, src (ix3 p r c) := by
  refine (Ideal.multiReduction_add_single src acc h hφ hacc (ix2 p c)).trans ?_
  refine Finset.sum_congr rfl fun r _ => congrArg src (funext fun ax => Fin.ext ?_)
  match ax with
  | ⟨0, _⟩ => rfl
  | ⟨1, _⟩ => rfl
  | ⟨2, _⟩ => rfl

/-! ## One element taken out of a matrix -/

/-- The one element a `vector.extract` takes out of a one-by-one matrix at the static position `(0, 0)`. -/
theorem extractAt_00 (x : (⟨2, ![1, 1]⟩ : Shape).Idx → α)
    (h : ∀ ax, (![0, 0] : Fin 2 → ℕ) ax < (⟨2, ![1, 1]⟩ : Shape).size ax) :
    extractAt ![0, 0] x h = x (ix2 (0 : Fin 1) (0 : Fin 1)) :=
  congrArg x (funext fun ax => Fin.ext (by
    match ax with
    | ⟨0, _⟩ => rfl
    | ⟨1, _⟩ => rfl))

/-! ## Two index grids compared: the identity matrix and the upper triangle

A kernel makes a 0/1 matrix from the row-index grid and the column-index grid of a square: it compares them entry by
entry (`=` for the identity, signed `≤` for the upper triangle), widens the one-bit answer to 32 bits and converts it
to a float.  The indices are far below 2³¹, so the 32-bit words compare as the numbers they hold. -/

/-- Two small numbers as 32-bit words are equal words exactly when they are equal numbers. -/
theorem cmpi_eq_ofNat (i j : ℕ) (hi : i < 2 ^ 32) (hj : j < 2 ^ 32) :
    IntOp.cmpi .eq (BitVec.ofNat 32 i) (BitVec.ofNat 32 j) = if i = j then 1#1 else 0#1 := by
  by_cases h : i = j
  · rw [if_pos h, h]
    exact StableHlo.Predicate.cmpi_eq_iff.mpr rfl
  · rw [if_neg h]
    refine eq_zero_of_ne_one fun h1 => h ?_
    have e := congrArg BitVec.toNat (StableHlo.Predicate.cmpi_eq_iff.mp h1)
    rw [BitVec.toNat_ofNat, BitVec.toNat_ofNat] at e
    omega

/-- Two numbers below 2³¹ as 32-bit words compare signed as the numbers do. -/
theorem cmpi_sle_ofNat (i j : ℕ) (hi : i < 2 ^ 31) (hj : j < 2 ^ 31) :
    IntOp.cmpi .sle (BitVec.ofNat 32 i) (BitVec.ofNat 32 j) = if i ≤ j then 1#1 else 0#1 := by
  have ei : (BitVec.ofNat 32 i).toNat = i := by rw [BitVec.toNat_ofNat]; omega
  have ej : (BitVec.ofNat 32 j).toNat = j := by rw [BitVec.toNat_ofNat]; omega
  have key := StableHlo.Predicate.sle_iff_toNat (a := BitVec.ofNat 32 i) (b := BitVec.ofNat 32 j)
    (by rw [ei]; exact hi) (by rw [ej]; exact hj)
  rw [ei, ej] at key
  by_cases h : i ≤ j
  · rw [if_pos h]; exact key.mpr h
  · rw [if_neg h]; exact eq_zero_of_ne_one fun h1 => h (key.mp h1)

/-- The bit of a decided proposition, widened to 32 bits and converted, is the float 1 or 0. -/
theorem sitofp_bit (c : Prop) [Decidable c] :
    FloatOps.sitofp (F := Ideal) .f32 ((if c then 1#1 else 0#1 : BitVec 1).setWidth 32) = if c then (1 : EReal) else 0 := by
  by_cases hc : c
  · rw [if_pos hc, if_pos hc]
    have h1 : ((1#1 : BitVec 1).setWidth 32).toInt = 1 := by decide
    show ((((1#1 : BitVec 1).setWidth 32).toInt : ℝ) : EReal) = 1
    rw [h1, Int.cast_one, EReal.coe_one]
  · rw [if_neg hc, if_neg hc]
    have h0 : ((0#1 : BitVec 1).setWidth 32).toInt = 0 := by decide
    show ((((0#1 : BitVec 1).setWidth 32).toInt : ℝ) : EReal) = 0
    rw [h0, Int.cast_zero, EReal.coe_zero]

/-- The identity matrix of size `a` as a kernel forms it, read at `(j, k)`: 1 on the diagonal, 0 off it. -/
theorem eye_apply {a : ℕ} (ha : a ≤ 2 ^ 31) (h0 : (⟨2, ![a, a]⟩ : Shape).Iotas .tc 32 [0])
    (h1 : (⟨2, ![a, a]⟩ : Shape).Iotas .tc 32 [1]) (hw : 1 < 32) (j k : Fin a) :
    (sitofp (F := Ideal) .f32 (extui 32 (cmpi .eq (iota .tc ⟨2, ![a, a]⟩ 32 [0] h0) (iota .tc ⟨2, ![a, a]⟩ 32 [1] h1)) hw)
        : FVec Ideal ⟨2, ![a, a]⟩ .f32) (ix2 j k)
      = if j = k then 1 else 0 := by
  have e0 : iota .tc ⟨2, ![a, a]⟩ 32 [0] h0 (ix2 j k) = BitVec.ofNat 32 j.val := iota_single_apply .tc _ 32 0 h0 _
  have e1 : iota .tc ⟨2, ![a, a]⟩ 32 [1] h1 (ix2 j k) = BitVec.ofNat 32 k.val := iota_single_apply .tc _ 32 1 h1 _
  show FloatOps.sitofp (F := Ideal) .f32
    ((IntOp.cmpi .eq (iota .tc ⟨2, ![a, a]⟩ 32 [0] h0 (ix2 j k)) (iota .tc ⟨2, ![a, a]⟩ 32 [1] h1 (ix2 j k))).setWidth 32) = _
  have hj := j.isLt
  have hk := k.isLt
  rw [e0, e1, cmpi_eq_ofNat _ _ (by omega) (by omega), sitofp_bit]
  exact if_congr Fin.val_inj rfl rfl

/-- The upper triangle's indicator of size `a` as a kernel forms it, read at `(j, k)`: 1 where `j ≤ k`, else 0. -/
theorem triu_apply {a : ℕ} (ha : a ≤ 2 ^ 31) (h0 : (⟨2, ![a, a]⟩ : Shape).Iotas .tc 32 [0])
    (h1 : (⟨2, ![a, a]⟩ : Shape).Iotas .tc 32 [1]) (hw : 1 < 32) (j k : Fin a) :
    (sitofp (F := Ideal) .f32 (extui 32 (cmpi .sle (iota .tc ⟨2, ![a, a]⟩ 32 [0] h0) (iota .tc ⟨2, ![a, a]⟩ 32 [1] h1)) hw)
        : FVec Ideal ⟨2, ![a, a]⟩ .f32) (ix2 j k)
      = if j ≤ k then 1 else 0 := by
  have e0 : iota .tc ⟨2, ![a, a]⟩ 32 [0] h0 (ix2 j k) = BitVec.ofNat 32 j.val := iota_single_apply .tc _ 32 0 h0 _
  have e1 : iota .tc ⟨2, ![a, a]⟩ 32 [1] h1 (ix2 j k) = BitVec.ofNat 32 k.val := iota_single_apply .tc _ 32 1 h1 _
  show FloatOps.sitofp (F := Ideal) .f32
    ((IntOp.cmpi .sle (iota .tc ⟨2, ![a, a]⟩ 32 [0] h0 (ix2 j k)) (iota .tc ⟨2, ![a, a]⟩ 32 [1] h1 (ix2 j k))).setWidth 32) = _
  have hj := j.isLt
  have hk := k.isLt
  rw [e0, e1, cmpi_sle_ofNat _ _ (by omega) (by omega), sitofp_bit]
  exact if_congr Fin.le_def.symm rfl rfl

/-- A row summed against the identity's row is its diagonal entry: every other product is a product with zero. -/
theorem sum_mul_eye {a : ℕ} (f : Fin a → EReal) (j : Fin a) :
    ∑ k : Fin a, f k * (if j = k then 1 else 0) = f j := by
  rw [Finset.sum_eq_single j]
  · rw [if_pos rfl, mul_one]
  · intro k _ hk
    rw [if_neg fun h => hk h.symm, mul_zero]
  · intro h
    exact absurd (Finset.mem_univ j) h

end Cert.LibLayout
-- ==== Proof.KCore100.lean ====
/-
  The arithmetic both kernels share, at the ideal values, for a block of 100 samples: from the loaded temperature and
  sample block to the masked centred distance matrix.  The block product of the samples with themselves over the 49
  positions is the Gram matrix; its diagonal is taken by multiplying each Gram row with the identity's row and summing
  (every product but the diagonal one is a product with zero); the pairwise squared distances are clipped at zero,
  scaled by the exponential of the temperature, shifted and square-rooted; the row means, the column means and the
  grand mean (each a sum divided by the literal 64 or 4096) centre the matrix; the last product is with the indicator
  of i ≤ j, made from two index grids by a comparison widened to a float.
-/
import proofs.«426365_j31061203484793_1_alg».proof.Proof.Gen.KernelIdeal.Frame
import proofs.«426365_j31061203484793_1_alg».proof.Proof.Spec
import proofs.«426365_j31061203484793_1_alg».proof.Proof.LibSums
import proofs.«426365_j31061203484793_1_alg».proof.Proof.LibLayout
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx
open Cert.LibLayout

/-- A sample's masked centred matrix from a block of samples and the temperature block. -/
def cmOf100 (x0 : Vec Ideal S100x64x49 .f32) (x1 : Vec Ideal S1x1 .f32) (b : Fin 100) (i j : Fin 64) : EReal :=
  Cert.Spec.cen (fun i k => x0 (ix3 b i k)) (Ideal.exp (x1 (ix2 0 0))) i j * Cert.Spec.mask i j

/-! ## The block product at an index

The product contracts the 49 positions (axis 2 of both operands), keeps the sample axis as a batch axis and puts the
left operand's channel axis before the right operand's: at `(b, i, j)` and position `k` the left operand is read at
`(b, i, k)` and the right one at `(b, j, k)`. -/

theorem lhs100_0 (i : S100x64x64.Idx) (q : dot_S100x64x49_S100x64x49_S100x64x64_2_2_1_1_0_0.contr.Idx) :
    (dot_S100x64x49_S100x64x49_S100x64x64_2_2_1_1_0_0.lhsIdx i q 0).val = (i 0).val := by
  unfold DotDims.lhsIdx
  rw [dif_pos (show (0 : Fin S100x64x49.rank) ∈ dot_S100x64x49_S100x64x49_S100x64x64_2_2_1_1_0_0.lhsBatch by decide)]
  rfl

theorem lhs100_1 (i : S100x64x64.Idx) (q : dot_S100x64x49_S100x64x49_S100x64x64_2_2_1_1_0_0.contr.Idx) :
    (dot_S100x64x49_S100x64x49_S100x64x64_2_2_1_1_0_0.lhsIdx i q 1).val = (i 1).val := by
  unfold DotDims.lhsIdx
  rw [dif_neg (show ¬(1 : Fin S100x64x49.rank) ∈ dot_S100x64x49_S100x64x49_S100x64x64_2_2_1_1_0_0.lhsBatch by decide),
    dif_pos (show (1 : Fin S100x64x49.rank) ∈ dot_S100x64x49_S100x64x49_S100x64x64_2_2_1_1_0_0.lhsNonContracting by decide)]
  rfl

theorem lhs100_2 (i : S100x64x64.Idx) (q : dot_S100x64x49_S100x64x49_S100x64x64_2_2_1_1_0_0.contr.Idx) :
    (dot_S100x64x49_S100x64x49_S100x64x64_2_2_1_1_0_0.lhsIdx i q 2).val = (q ⟨0, by decide⟩).val :=
  dot_S100x64x49_S100x64x49_S100x64x64_2_2_1_1_0_0.lhsIdx_val_of_single rfl i q

theorem rhs100_0 (i : S100x64x64.Idx) (q : dot_S100x64x49_S100x64x49_S100x64x64_2_2_1_1_0_0.contr.Idx) :
    (dot_S100x64x49_S100x64x49_S100x64x64_2_2_1_1_0_0.rhsIdx i q 0).val = (i 0).val := by
  unfold DotDims.rhsIdx
  rw [dif_pos (show (0 : Fin S100x64x49.rank) ∈ dot_S100x64x49_S100x64x49_S100x64x64_2_2_1_1_0_0.rhsBatch by decide)]
  rfl

theorem rhs100_1 (i : S100x64x64.Idx) (q : dot_S100x64x49_S100x64x49_S100x64x64_2_2_1_1_0_0.contr.Idx) :
    (dot_S100x64x49_S100x64x49_S100x64x64_2_2_1_1_0_0.rhsIdx i q 1).val = (i 2).val := by
  unfold DotDims.rhsIdx
  rw [dif_neg (show ¬(1 : Fin S100x64x49.rank) ∈ dot_S100x64x49_S100x64x49_S100x64x64_2_2_1_1_0_0.rhsBatch by decide),
    dif_pos (show (1 : Fin S100x64x49.rank) ∈ dot_S100x64x49_S100x64x49_S100x64x64_2_2_1_1_0_0.rhsNonContracting by decide)]
  rfl

theorem rhs100_2 (i : S100x64x64.Idx) (q : dot_S100x64x49_S100x64x49_S100x64x64_2_2_1_1_0_0.contr.Idx) :
    (dot_S100x64x49_S100x64x49_S100x64x64_2_2_1_1_0_0.rhsIdx i q 2).val = (q ⟨0, by decide⟩).val :=
  dot_S100x64x49_S100x64x49_S100x64x64_2_2_1_1_0_0.rhsIdx_val_of_single rfl i q

/-- The block product of a sample block with itself into the zero splat, at `(b, i, j)`: the Gram entry of channels
    `i` and `j` of sample `b`. -/
theorem gram100_apply (x : FVec Ideal S100x64x49 .f32) (b : Fin 100) (i j : Fin 64) :
    matmul dot_S100x64x49_S100x64x49_S100x64x64_2_2_1_1_0_0 none x x (constant (F := Ideal) S100x64x64 .f32 0x00000000#32) (ix3 b i j)
      = ∑ k : Fin 49, x (ix3 b i k) * x (ix3 b j k) := by
  simp only [matmul]
  rw [Ideal.matmul_constant_zero_apply, ← Equiv.sum_comp (contrEquiv1 dot_S100x64x49_S100x64x49_S100x64x64_2_2_1_1_0_0 49 rfl rfl).symm]
  refine Finset.sum_congr rfl fun k _ => ?_
  have hk := contrEquiv1_symm_val dot_S100x64x49_S100x64x49_S100x64x64_2_2_1_1_0_0 49 rfl rfl k
  have el : dot_S100x64x49_S100x64x49_S100x64x64_2_2_1_1_0_0.lhsIdx (ix3 b i j) ((contrEquiv1 dot_S100x64x49_S100x64x49_S100x64x64_2_2_1_1_0_0 49 rfl rfl).symm k) = ix3 b i k :=
    funext fun a => Fin.ext (by
      match a with
      | ⟨0, _⟩ => exact lhs100_0 _ _
      | ⟨1, _⟩ => exact lhs100_1 _ _
      | ⟨2, _⟩ => exact (lhs100_2 _ _).trans hk)
  have er : dot_S100x64x49_S100x64x49_S100x64x64_2_2_1_1_0_0.rhsIdx (ix3 b i j) ((contrEquiv1 dot_S100x64x49_S100x64x49_S100x64x64_2_2_1_1_0_0 49 rfl rfl).symm k) = ix3 b j k :=
    funext fun a => Fin.ext (by
      match a with
      | ⟨0, _⟩ => exact rhs100_0 _ _
      | ⟨1, _⟩ => exact rhs100_1 _ _
      | ⟨2, _⟩ => exact (rhs100_2 _ _).trans hk)
  rw [el, er]

/-! ## The pieces of the distance array, named -/

/-- The Gram array of a sample block: the block product of the block with itself. -/
def gramV (x : FVec Ideal S100x64x49 .f32) : FVec Ideal S100x64x64 .f32 :=
  matmul dot_S100x64x49_S100x64x49_S100x64x64_2_2_1_1_0_0 none x x (constant S100x64x64 .f32 0x00000000#32)

/-- The 64 by 64 identity as the body forms it from the two index grids. -/
def eyeV : FVec Ideal S64x64 .f32 :=
  sitofp .f32 (extui 32 (cmpi .eq (iota .tc S64x64 32 [0] iota_S64x64_d0_w32) (iota .tc S64x64 32 [1] iota_S64x64_d1_w32)) natLt_1_32)

/-- The upper triangle's indicator as the body forms it from the two index grids. -/
def triuV : FVec Ideal S64x64 .f32 :=
  sitofp .f32 (extui 32 (cmpi .sle (iota .tc S64x64 32 [0] iota_S64x64_d0_w32) (iota .tc S64x64 32 [1] iota_S64x64_d1_w32)) natLt_1_32)

/-- The diagonal of each sample's Gram matrix: each Gram row times the identity's row, summed along the row. -/
def diagV (G : FVec Ideal S100x64x64 .f32) : FVec Ideal S100x64 .f32 :=
  multiReduction .add [2] S100x64
    (mulf G (broadcastTo S100x64x64 (shapeCast S1x64x64 eyeV shapeCasts_S64x64_S1x64x64) broadcasts_S1x64x64_S100x64x64))
    0x00000000#32 reduces_S100x64x64_S100x64 (.inl rfl) rfl

/-- The distance array is the square root of the scaled, clipped and shifted squared distances, the squared distance at
    `(b, i, j)` being the diagonal at `j` (spread down the rows) plus the diagonal at `i` (spread along the columns)
    minus twice the Gram entry. -/
theorem pay2_eq (v0 : Vec Ideal S1x1 .f32) (v3 : Vec Ideal S100x64x49 .f32) :
    k0_pay2 (F := Ideal) v0 v3 = fun idx =>
      Ideal.sqrt (Ideal.exp (extractAt ![0, 0] v0 inpos_S1x1_p0_0)
        * max (broadcastTo S100x64x64 (shapeCast S100x1x64 (diagV (gramV (shapeCast S100x64x49 v3 shapeCasts_S100x64x49_S100x64x49))) shapeCasts_S100x64_S100x1x64)
                broadcasts_S100x1x64_S100x64x64 idx
              + broadcastTo S100x64x64 (shapeCast S100x64x1 (diagV (gramV (shapeCast S100x64x49 v3 shapeCasts_S100x64x49_S100x64x49))) shapeCasts_S100x64_S100x64x1)
                broadcasts_S100x64x1_S100x64x64 idx
              - Cert.Spec.c2 * gramV (shapeCast S100x64x49 v3 shapeCasts_S100x64x49_S100x64x49) idx) Cert.Spec.c0
        + Cert.Spec.ceps) := rfl

/-- The Gram array at an index is the Gram matrix of the sample. -/
theorem gramV_apply (x : FVec Ideal S100x64x49 .f32) (b : Fin 100) (i j : Fin 64) :
    gramV x (ix3 b i j) = Cert.Spec.gram (fun i k => x (ix3 b i k)) i j :=
  gram100_apply x b i j

/-- The diagonal array at `(b, j)` is the Gram array's diagonal entry `(b, j, j)`. -/
theorem diagV_apply (G : FVec Ideal S100x64x64 .f32) (b : Fin 100) (j : Fin 64) :
    diagV G (ix2 b j) = G (ix3 b j j) := by
  unfold diagV
  refine (multiReduction_add_last _ _ _ _ _ b j).trans ?_
  refine Eq.trans (Finset.sum_congr rfl fun k _ => ?_) (sum_mul_eye (fun k => G (ix3 b j k)) j)
  rw [mulf_apply, broadcastTo_1ab_nab_apply, shapeCast_ab_1ab_apply]
  exact congrArg (G (ix3 b j k) * ·) (eye_apply (by decide) _ _ _ j k)

/-- THE DISTANCE ARRAY AT AN INDEX: the smoothed distance of channels `i` and `j` of sample `b`, at the scale the
    exponential of the temperature gives. -/
theorem pay2_apply (v0 : Vec Ideal S1x1 .f32) (v3 : Vec Ideal S100x64x49 .f32) (b : Fin 100) (i j : Fin 64) :
    k0_pay2 (F := Ideal) v0 v3 (ix3 b i j)
      = Cert.Spec.dist (fun i k => v3 (ix3 b i k)) (Ideal.exp (v0 (ix2 0 0))) i j := by
  rw [pay2_eq]
  show Ideal.sqrt (Ideal.exp (extractAt ![0, 0] v0 inpos_S1x1_p0_0)
        * max (broadcastTo S100x64x64 (shapeCast S100x1x64 (diagV (gramV (shapeCast S100x64x49 v3 shapeCasts_S100x64x49_S100x64x49))) shapeCasts_S100x64_S100x1x64)
                broadcasts_S100x1x64_S100x64x64 (ix3 b i j)
              + broadcastTo S100x64x64 (shapeCast S100x64x1 (diagV (gramV (shapeCast S100x64x49 v3 shapeCasts_S100x64x49_S100x64x49))) shapeCasts_S100x64_S100x64x1)
                broadcasts_S100x64x1_S100x64x64 (ix3 b i j)
              - Cert.Spec.c2 * gramV (shapeCast S100x64x49 v3 shapeCasts_S100x64x49_S100x64x49) (ix3 b i j)) Cert.Spec.c0
        + Cert.Spec.ceps) = _
  rw [extractAt_00, broadcastTo_n1b_nab_apply, shapeCast_na_n1a_apply, broadcastTo_na1_nab_apply, shapeCast_na_na1_apply,
    diagV_apply, diagV_apply, gramV_apply, gramV_apply, gramV_apply, shapeCast_self]
  rfl

/-! ## The three means and the centring -/

/-- The row means spread along the columns, at `(b, i, j)`: the sum of row `i` of sample `b` over the literal 64. -/
theorem pay5_apply (v0 : Vec Ideal S1x1 .f32) (v3 : Vec Ideal S100x64x49 .f32) (b : Fin 100) (i j : Fin 64) :
    k0_pay5 (F := Ideal) v0 v3 (ix3 b i j)
      = Ideal.div (∑ j' : Fin 64, k0_pay2 (F := Ideal) v0 v3 (ix3 b i j')) Cert.Spec.c64 := by
  unfold k0_pay5
  refine (broadcastTo_na1_nab_apply _ _ b i j).trans ?_
  refine (divf_apply _ _ _).trans (congrArg₂ Ideal.div ?_ rfl)
  refine (shapeCast_na_na1_apply _ _ b i _).trans ?_
  exact multiReduction_add_last _ _ _ _ _ b i

/-- The column means, at `(b, 0, j)`: the sum of column `j` of sample `b` over the literal 64. -/
theorem pay3_apply (v0 : Vec Ideal S1x1 .f32) (v3 : Vec Ideal S100x64x49 .f32) (b : Fin 100) (u : Fin 1) (j : Fin 64) :
    k0_pay3 (F := Ideal) v0 v3 (ix3 b u j)
      = Ideal.div (∑ i' : Fin 64, k0_pay2 (F := Ideal) v0 v3 (ix3 b i' j)) Cert.Spec.c64 := by
  unfold k0_pay3
  refine (divf_apply _ _ _).trans (congrArg₂ Ideal.div ?_ rfl)
  refine (shapeCast_na_n1a_apply _ _ b u j).trans ?_
  exact multiReduction_add_middle _ _ _ _ _ b j

/-- The grand mean, at `(b, 0, 0)`: the sum of all entries of sample `b` over the literal 4096. -/
theorem pay4_apply (v0 : Vec Ideal S1x1 .f32) (v3 : Vec Ideal S100x64x49 .f32) (b : Fin 100) (u w : Fin 1) :
    k0_pay4 (F := Ideal) v0 v3 (ix3 b u w)
      = Ideal.div (∑ i' : Fin 64, ∑ j' : Fin 64, k0_pay2 (F := Ideal) v0 v3 (ix3 b i' j')) Cert.Spec.c4096 := by
  unfold k0_pay4
  refine (divf_apply _ _ _).trans (congrArg₂ Ideal.div ?_ rfl)
  refine (shapeCast_n_n11_apply _ _ b u w).trans ?_
  exact Cert.LibSums.multiReduction_add_12 _ _ _ _ _ (ix1 b)

/-- The masked centred matrix the body forms from the loaded temperature `v0` and sample block `v3`, at (b, i, j). -/
theorem core100 (v0 : Vec Ideal S1x1 .f32) (v3 : Vec Ideal S100x64x49 .f32) (b : Fin 100) (i j : Fin 64) :
    k0_pay1 (F := Ideal) (iota .tc S64x64 32 [0] iota_S64x64_d0_w32) (iota .tc S64x64 32 [1] iota_S64x64_d1_w32)
        (k0_pay2 v0 v3) (k0_pay3 v0 v3) (k0_pay4 v0 v3) (k0_pay5 v0 v3) (ix3 b i j)
      = cmOf100 v3 v0 b i j := by
  unfold k0_pay1
  show (k0_pay2 (F := Ideal) v0 v3 (ix3 b i j) - k0_pay5 (F := Ideal) v0 v3 (ix3 b i j)
        - broadcastTo S100x64x64 (k0_pay3 (F := Ideal) v0 v3) broadcasts_S100x1x64_S100x64x64 (ix3 b i j)
        + broadcastTo S100x64x64 (k0_pay4 (F := Ideal) v0 v3) broadcasts_S100x1x1_S100x64x64 (ix3 b i j))
      * broadcastTo S100x64x64 (shapeCast S1x64x64 triuV shapeCasts_S64x64_S1x64x64) broadcasts_S1x64x64_S100x64x64 (ix3 b i j)
      = _
  rw [broadcastTo_n1b_nab_apply, broadcastTo_n11_nab_apply, broadcastTo_1ab_nab_apply, shapeCast_ab_1ab_apply,
    pay5_apply, pay3_apply, pay4_apply]
  have hm : triuV (ix2 i j) = Cert.Spec.mask i j := triu_apply (by decide) _ _ _ i j
  rw [hm]
  simp only [pay2_apply]
  rfl

end Cert.KernelIdeal.Val

end
-- ==== Proof.KCore400.lean ====
/-
  The arithmetic both kernels share, at the ideal values, for a block of 400 samples: from the loaded temperature and
  sample block to the masked centred distance matrix.  The block product of the samples with themselves over the 49
  positions is the Gram matrix; its diagonal is taken by multiplying each Gram row with the identity's row and summing
  (every product but the diagonal one is a product with zero); the pairwise squared distances are clipped at zero,
  scaled by the exponential of the temperature, shifted and square-rooted; the row means, the column means and the
  grand mean (each a sum divided by the literal 64 or 4096) centre the matrix; the last product is with the indicator
  of i ≤ j, made from two index grids by a comparison widened to a float.
-/
import proofs.«426365_j31061203484793_1_alg».proof.Proof.Gen.KernelIdeal.Frame
import proofs.«426365_j31061203484793_1_alg».proof.Proof.Spec
import proofs.«426365_j31061203484793_1_alg».proof.Proof.LibSums
import proofs.«426365_j31061203484793_1_alg».proof.Proof.LibLayout
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

/-- A sample's masked centred matrix from a block of samples and the temperature block. -/
def cmOf400 (x0 : Vec Ideal S400x64x49 .f32) (x1 : Vec Ideal S1x1 .f32) (b : Fin 400) (i j : Fin 64) : EReal :=
  Cert.Spec.cen (fun i k => x0 (ix3 b i k)) (Ideal.exp (x1 (ix2 0 0))) i j * Cert.Spec.mask i j

/-! ## Reads that hold by definition -/

/-- A square root at an index is the square root of the element. -/
private theorem sqrt_apply400 {s : Shape} {φ : FTy} (x : FVec Ideal s φ) (i : s.Idx) :
    Idealize.ShloMosaic.sqrt x i = Ideal.sqrt (x i) := rfl

/-! ## The two index grids and what is made of them

The comparison of the row-index grid with the column-index grid, widened and converted to a float, is a 0/1 matrix;
given a leading unit axis and repeated for every sample of the block it is read at (b, i, j) as the matrix at (i, j). -/

/-- With the equality test the grids make the identity matrix. -/
private theorem eye400_apply (b : Fin 400) (i j : Fin 64) :
    broadcastTo S400x64x64 (shapeCast S1x64x64 (sitofp (F := Ideal) .f32 (extui 32
        (cmpi .eq (iota .tc S64x64 32 [0] iota_S64x64_d0_w32) (iota .tc S64x64 32 [1] iota_S64x64_d1_w32)) natLt_1_32))
        shapeCasts_S64x64_S1x64x64) broadcasts_S1x64x64_S400x64x64 (ix3 b i j)
      = if i = j then (1 : EReal) else 0 := by
  rw [Cert.LibLayout.broadcastTo_1ab_nab_apply, shapeCast_ab_1ab_apply]
  exact Cert.LibLayout.eye_apply (by norm_num) iota_S64x64_d0_w32 iota_S64x64_d1_w32 natLt_1_32 i j

/-- With the test i ≤ j they make the indicator of the upper triangle. -/
private theorem triu400_apply (b : Fin 400) (i j : Fin 64) :
    broadcastTo S400x64x64 (shapeCast S1x64x64 (sitofp (F := Ideal) .f32 (extui 32
        (cmpi .sle (iota .tc S64x64 32 [0] iota_S64x64_d0_w32) (iota .tc S64x64 32 [1] iota_S64x64_d1_w32)) natLt_1_32))
        shapeCasts_S64x64_S1x64x64) broadcasts_S1x64x64_S400x64x64 (ix3 b i j)
      = Cert.Spec.mask i j := by
  rw [Cert.LibLayout.broadcastTo_1ab_nab_apply, shapeCast_ab_1ab_apply]
  exact Cert.LibLayout.triu_apply (by norm_num) iota_S64x64_d0_w32 iota_S64x64_d1_w32 natLt_1_32 i j

/-! ## The three sums of a block of matrices, each starting from the zero word -/

/-- Along the last axis: the sum of row i of sample b. -/
private theorem sum_last400 (src : FVec Ideal S400x64x64 .f32) (hφ : FKind.Formats .f32)
    (hacc : (0x00000000#32 : BitVec 32) = 0x00000000#32) (b : Fin 400) (i : Fin 64) :
    multiReduction .add [2] S400x64 src 0x00000000#32 reduces_S400x64x64_S400x64 hφ hacc (ix2 b i)
      = ∑ j : Fin 64, src (ix3 b i j) :=
  Cert.LibLayout.multiReduction_add_last src 0x00000000#32 reduces_S400x64x64_S400x64 hφ hacc b i

/-- Along the middle axis: the sum of column j of sample b. -/
private theorem sum_middle400 (src : FVec Ideal S400x64x64 .f32) (hφ : FKind.Formats .f32)
    (hacc : (0x00000000#32 : BitVec 32) = 0x00000000#32) (b : Fin 400) (j : Fin 64) :
    multiReduction .add [1] S400x64 src 0x00000000#32 reduces_S400x64x64_S400x64_2 hφ hacc (ix2 b j)
      = ∑ i : Fin 64, src (ix3 b i j) :=
  Cert.LibLayout.multiReduction_add_middle src 0x00000000#32 reduces_S400x64x64_S400x64_2 hφ hacc b j

/-- Along both: the sum of all of sample b's matrix. -/
private theorem sum_both400 (src : FVec Ideal S400x64x64 .f32) (hφ : FKind.Formats .f32)
    (hacc : (0x00000000#32 : BitVec 32) = 0x00000000#32) (b : Fin 400) :
    multiReduction .add [1, 2] S400 src 0x00000000#32 reduces_S400x64x64_S400 hφ hacc (ix1 b)
      = ∑ p : Fin 64, ∑ q : Fin 64, src (ix3 b p q) :=
  Cert.LibSums.multiReduction_add_12 src 0x00000000#32 reduces_S400x64x64_S400 hφ hacc (ix1 b)

/-- Each row of a matrix times the identity's row, summed, is the diagonal entry: every other product is with zero. -/
private theorem diag400_apply (G : FVec Ideal S400x64x64 .f32) (hφ : FKind.Formats .f32)
    (hacc : (0x00000000#32 : BitVec 32) = 0x00000000#32) (b : Fin 400) (i : Fin 64) :
    multiReduction .add [2] S400x64 (mulf G (broadcastTo S400x64x64 (shapeCast S1x64x64 (sitofp (F := Ideal) .f32 (extui 32
        (cmpi .eq (iota .tc S64x64 32 [0] iota_S64x64_d0_w32) (iota .tc S64x64 32 [1] iota_S64x64_d1_w32)) natLt_1_32))
        shapeCasts_S64x64_S1x64x64) broadcasts_S1x64x64_S400x64x64)) 0x00000000#32 reduces_S400x64x64_S400x64 hφ hacc (ix2 b i)
      = G (ix3 b i i) := by
  rw [sum_last400]
  refine (Finset.sum_congr rfl fun c _ => ?_).trans (Cert.LibLayout.sum_mul_eye (fun c => G (ix3 b i c)) i)
  rw [mulf_apply, eye400_apply]

/-! ## The block product: the Gram matrix

The product contracts the last axis of both operands (the 49 positions), keeps the sample axis as a batch axis and
the two channel axes free: at (b, i, j) and contraction position k the left operand is read at (b, i, k), the right at
(b, j, k).  One lemma per operand axis, then the sum over the contraction index re-indexed over the 49 positions. -/

private theorem lhs400_0 (i : S400x64x64.Idx) (q : dot_S400x64x49_S400x64x49_S400x64x64_2_2_1_1_0_0.contr.Idx) :
    (dot_S400x64x49_S400x64x49_S400x64x64_2_2_1_1_0_0.lhsIdx i q 0).val = (i 0).val := by
  unfold DotDims.lhsIdx
  rw [dif_pos (show (0 : Fin S400x64x49.rank) ∈ dot_S400x64x49_S400x64x49_S400x64x64_2_2_1_1_0_0.lhsBatch by decide)]
  rfl

private theorem lhs400_1 (i : S400x64x64.Idx) (q : dot_S400x64x49_S400x64x49_S400x64x64_2_2_1_1_0_0.contr.Idx) :
    (dot_S400x64x49_S400x64x49_S400x64x64_2_2_1_1_0_0.lhsIdx i q 1).val = (i 1).val := by
  unfold DotDims.lhsIdx
  rw [dif_neg (show ¬(1 : Fin S400x64x49.rank) ∈ dot_S400x64x49_S400x64x49_S400x64x64_2_2_1_1_0_0.lhsBatch by decide),
    dif_pos (show (1 : Fin S400x64x49.rank) ∈ dot_S400x64x49_S400x64x49_S400x64x64_2_2_1_1_0_0.lhsNonContracting by decide)]
  rfl

private theorem lhs400_2 (i : S400x64x64.Idx) (q : dot_S400x64x49_S400x64x49_S400x64x64_2_2_1_1_0_0.contr.Idx) :
    (dot_S400x64x49_S400x64x49_S400x64x64_2_2_1_1_0_0.lhsIdx i q 2).val = (q ⟨0, by decide⟩).val :=
  dot_S400x64x49_S400x64x49_S400x64x64_2_2_1_1_0_0.lhsIdx_val_of_single rfl i q

private theorem rhs400_0 (i : S400x64x64.Idx) (q : dot_S400x64x49_S400x64x49_S400x64x64_2_2_1_1_0_0.contr.Idx) :
    (dot_S400x64x49_S400x64x49_S400x64x64_2_2_1_1_0_0.rhsIdx i q 0).val = (i 0).val := by
  unfold DotDims.rhsIdx
  rw [dif_pos (show (0 : Fin S400x64x49.rank) ∈ dot_S400x64x49_S400x64x49_S400x64x64_2_2_1_1_0_0.rhsBatch by decide)]
  rfl

private theorem rhs400_1 (i : S400x64x64.Idx) (q : dot_S400x64x49_S400x64x49_S400x64x64_2_2_1_1_0_0.contr.Idx) :
    (dot_S400x64x49_S400x64x49_S400x64x64_2_2_1_1_0_0.rhsIdx i q 1).val = (i 2).val := by
  unfold DotDims.rhsIdx
  rw [dif_neg (show ¬(1 : Fin S400x64x49.rank) ∈ dot_S400x64x49_S400x64x49_S400x64x64_2_2_1_1_0_0.rhsBatch by decide),
    dif_pos (show (1 : Fin S400x64x49.rank) ∈ dot_S400x64x49_S400x64x49_S400x64x64_2_2_1_1_0_0.rhsNonContracting by decide)]
  rfl

private theorem rhs400_2 (i : S400x64x64.Idx) (q : dot_S400x64x49_S400x64x49_S400x64x64_2_2_1_1_0_0.contr.Idx) :
    (dot_S400x64x49_S400x64x49_S400x64x64_2_2_1_1_0_0.rhsIdx i q 2).val = (q ⟨0, by decide⟩).val :=
  dot_S400x64x49_S400x64x49_S400x64x64_2_2_1_1_0_0.rhsIdx_val_of_single rfl i q

/-- The block product of the samples with themselves, into the zero splat, at (b, i, j): sample b's Gram matrix. -/
private theorem gram400_apply (v3 : Vec Ideal S400x64x49 .f32) (b : Fin 400) (i j : Fin 64) :
    matmul dot_S400x64x49_S400x64x49_S400x64x64_2_2_1_1_0_0 none
        (shapeCast S400x64x49 v3 shapeCasts_S400x64x49_S400x64x49 : FVec Ideal S400x64x49 .f32)
        (shapeCast S400x64x49 v3 shapeCasts_S400x64x49_S400x64x49 : FVec Ideal S400x64x49 .f32)
        (constant (F := Ideal) S400x64x64 .f32 0x00000000#32) (ix3 b i j)
      = Cert.Spec.gram (fun i k => v3 (ix3 b i k)) i j := by
  rw [shapeCast_self]
  simp only [matmul]
  rw [Ideal.matmul_constant_zero_apply,
    ← Equiv.sum_comp (contrEquiv1 dot_S400x64x49_S400x64x49_S400x64x64_2_2_1_1_0_0 49 rfl rfl).symm]
  unfold Cert.Spec.gram
  refine Finset.sum_congr rfl fun k _ => ?_
  have hk := contrEquiv1_symm_val dot_S400x64x49_S400x64x49_S400x64x64_2_2_1_1_0_0 49 rfl rfl k
  have el : dot_S400x64x49_S400x64x49_S400x64x64_2_2_1_1_0_0.lhsIdx (ix3 b i j)
      ((contrEquiv1 dot_S400x64x49_S400x64x49_S400x64x64_2_2_1_1_0_0 49 rfl rfl).symm k) = ix3 b i k :=
    funext fun a => Fin.ext (by
      match a with
      | ⟨0, _⟩ => exact lhs400_0 _ _
      | ⟨1, _⟩ => exact lhs400_1 _ _
      | ⟨2, _⟩ => exact (lhs400_2 _ _).trans hk)
  have er : dot_S400x64x49_S400x64x49_S400x64x64_2_2_1_1_0_0.rhsIdx (ix3 b i j)
      ((contrEquiv1 dot_S400x64x49_S400x64x49_S400x64x64_2_2_1_1_0_0 49 rfl rfl).symm k) = ix3 b j k :=
    funext fun a => Fin.ext (by
      match a with
      | ⟨0, _⟩ => exact rhs400_0 _ _
      | ⟨1, _⟩ => exact rhs400_1 _ _
      | ⟨2, _⟩ => exact (rhs400_2 _ _).trans hk)
  rw [el, er]

/-! ## The distance array, the three means, the centring -/

/-- The square-rooted array at (b, i, j) is sample b's smoothed distance of channels i and j, at the scale that is
    the exponential of the temperature. -/
private theorem pay1_apply400 (v0 : Vec Ideal S1x1 .f32) (v3 : Vec Ideal S400x64x49 .f32) (b : Fin 400) (i j : Fin 64) :
    k1_pay1 v0 v3 (ix3 b i j) = Cert.Spec.dist (fun i k => v3 (ix3 b i k)) (Ideal.exp (v0 (ix2 0 0))) i j := by
  unfold k1_pay1
  dsimp only
  simp only [sqrt_apply400, addf_apply, mulf_apply, subf_apply, maximumf_apply, broadcast_apply]
  rw [Cert.LibLayout.broadcastTo_n1b_nab_apply, Cert.LibLayout.shapeCast_na_n1a_apply,
    Cert.LibLayout.broadcastTo_na1_nab_apply, Cert.LibLayout.shapeCast_na_na1_apply,
    diag400_apply, diag400_apply]
  simp only [gram400_apply, Cert.LibLayout.extractAt_00]
  rfl

/-- The row means, repeated along each row: at (b, i, j) the mean of row i of sample b's distance matrix. -/
private theorem pay4_apply400 (v0 : Vec Ideal S1x1 .f32) (v3 : Vec Ideal S400x64x49 .f32) (b : Fin 400) (i j : Fin 64) :
    k1_pay4 v0 v3 (ix3 b i j) = Ideal.div (∑ j' : Fin 64, k1_pay1 v0 v3 (ix3 b i j')) Cert.Spec.c64 := by
  unfold k1_pay4
  dsimp only
  rw [Cert.LibLayout.broadcastTo_na1_nab_apply]
  simp only [divf_apply, broadcast_apply]
  rw [Cert.LibLayout.shapeCast_na_na1_apply]
  exact congrArg (fun s => Ideal.div s Cert.Spec.c64) (sum_last400 (k1_pay1 v0 v3) _ _ b i)

/-- The column means: at (b, ·, j) the mean of column j of sample b's distance matrix. -/
private theorem pay2_apply400 (v0 : Vec Ideal S1x1 .f32) (v3 : Vec Ideal S400x64x49 .f32) (b : Fin 400) (u : Fin 1) (j : Fin 64) :
    k1_pay2 v0 v3 (ix3 b u j) = Ideal.div (∑ i' : Fin 64, k1_pay1 v0 v3 (ix3 b i' j)) Cert.Spec.c64 := by
  unfold k1_pay2
  dsimp only
  simp only [divf_apply, broadcast_apply]
  rw [Cert.LibLayout.shapeCast_na_n1a_apply]
  exact congrArg (fun s => Ideal.div s Cert.Spec.c64) (sum_middle400 (k1_pay1 v0 v3) _ _ b j)

/-- The grand mean: at (b, ·, ·) the mean of all 4096 entries of sample b's distance matrix. -/
private theorem pay3_apply400 (v0 : Vec Ideal S1x1 .f32) (v3 : Vec Ideal S400x64x49 .f32) (b : Fin 400) (u u' : Fin 1) :
    k1_pay3 v0 v3 (ix3 b u u') = Ideal.div (∑ p : Fin 64, ∑ q : Fin 64, k1_pay1 v0 v3 (ix3 b p q)) Cert.Spec.c4096 := by
  unfold k1_pay3
  dsimp only
  simp only [divf_apply, broadcast_apply]
  rw [Cert.LibLayout.shapeCast_n_n11_apply]
  exact congrArg (fun s => Ideal.div s Cert.Spec.c4096) (sum_both400 (k1_pay1 v0 v3) _ _ b)

/-- The centring and the mask over any four arrays: entry minus row term minus column term plus sample term, times the
    indicator of i ≤ j. -/
private theorem pay5_apply400 (v29 : FVec Ideal S400x64x64 .f32) (v37 : FVec Ideal S400x1x64 .f32)
    (v41 : FVec Ideal S400x1x1 .f32) (v42 : FVec Ideal S400x64x64 .f32) (b : Fin 400) (i j : Fin 64) :
    k1_pay5 (F := Ideal) (iota .tc S64x64 32 [0] iota_S64x64_d0_w32) (iota .tc S64x64 32 [1] iota_S64x64_d1_w32)
        v29 v37 v41 v42 (ix3 b i j)
      = (v29 (ix3 b i j) - v42 (ix3 b i j) - v37 (ix3 b (0 : Fin 1) j) + v41 (ix3 b (0 : Fin 1) (0 : Fin 1)))
          * Cert.Spec.mask i j := by
  unfold k1_pay5
  dsimp only
  simp only [mulf_apply, addf_apply, subf_apply]
  rw [Cert.LibLayout.broadcastTo_n1b_nab_apply, Cert.LibLayout.broadcastTo_n11_nab_apply, triu400_apply]

/-- The masked centred matrix the body forms from the loaded temperature `v0` and sample block `v3`, at (b, i, j). -/
theorem core400 (v0 : Vec Ideal S1x1 .f32) (v3 : Vec Ideal S400x64x49 .f32) (b : Fin 400) (i j : Fin 64) :
    k1_pay5 (F := Ideal) (iota .tc S64x64 32 [0] iota_S64x64_d0_w32) (iota .tc S64x64 32 [1] iota_S64x64_d1_w32)
        (k1_pay1 v0 v3) (k1_pay2 v0 v3) (k1_pay3 v0 v3) (k1_pay4 v0 v3) (ix3 b i j)
      = cmOf400 v3 v0 b i j := by
  rw [pay5_apply400, pay4_apply400, pay2_apply400, pay3_apply400]
  simp only [pay1_apply400]
  rfl

end Cert.KernelIdeal.Val

end
-- ==== Proof.KBlocks.lean ====
/-
  What one grid point of each kernel leaves in its output block, read at an index, at the ideal values.
  The first kernel stores the masked centred matrices of its 100 samples.  The second kernel's block of 400 queries
  holds, for query b and class cls, zero minus ( (the sum of the squared masked matrix over all 64·64 entries, plus the
  class's squared norm it was handed) minus twice the sum of the masked matrix times the class's prototype matrix it
  was handed ): the ten class columns are computed one by one from the ten slices of the prototype array and laid side
  by side.

  The steps, each over variables of the literal vector types:
  • a vector of length a cast to a column [a, 1] reads the vector; a column [a, 1] broadcast to [a, b] reads the column
    at its row; one matrix [1, a, b] broadcast to [n, a, b] reads the matrix; a rank-3 array cut along its leading axis
    from o reads the source o places further along;
  • one class column: the masked matrices times one [1, 64, 64] slab spread over the 400 samples, summed over the two
    inner axes, is the double sum of the entrywise products;
  • ten columns of width one laid side by side: column cls of the result is the cls-th operand;
  • the last payload at (b, cls) from what its ten operands are at an index.
-/
import proofs.«426365_j31061203484793_1_alg».proof.Proof.KCore100
import proofs.«426365_j31061203484793_1_alg».proof.Proof.KCore400
import proofs.«426365_j31061203484793_1_alg».proof.Proof.Gen.KernelIdeal.Frame
import proofs.«426365_j31061203484793_1_alg».proof.Proof.Spec
import proofs.«426365_j31061203484793_1_alg».proof.Proof.LibSums
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

/-! ## The whole-buffer rectangles sit at zero offsets -/

private theorem zero2 : (![0, 0] : Fin 2 → Nat) = fun _ => 0 :=
  funext fun a => match a with | ⟨0, _⟩ => rfl | ⟨1, _⟩ => rfl

private theorem zero3 : (![0, 0, 0] : Fin 3 → Nat) = fun _ => 0 :=
  funext fun a => match a with | ⟨0, _⟩ => rfl | ⟨1, _⟩ => rfl | ⟨2, _⟩ => rfl

/-- The pooling kernel's output block at (b, i, j). -/
theorem pool_block (x0 : Vec Ideal S100x64x49 .f32) (x1 : Vec Ideal S1x1 .f32) (b : Fin 100) (i j : Fin 64) :
    out0_2 (F := Ideal) x0 x1 (ix3 b i j) = cmOf100 x0 x1 b i j := by
  unfold out0_2
  rw [View.canon_unit_zero zero3]
  simp only [View.ld_unit_zero (S := S1x1) zero2, View.ld_unit_zero (S := S100x64x49) zero3]
  exact core100 x1 x0 b i j

/-! ## Layout operations read at coordinates -/

section Layout
variable {α : Type}

/-- An `[a]` vector cast to a column `[a, 1]` reads, at `(p, u)`, the vector at `p`. -/
private theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One matrix `[1, a, b]` broadcast to `[n, a, b]` reads, at `(p, i, j)`, the matrix at `(i, j)`. -/
private theorem broadcastTo_1ab_nab_apply {n a b : ℕ} (v : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A rank-3 array cut along its leading axis from `o` reads, at `(u, i, j)`, the source at `(k, i, j)` with
`k = o + u`. -/
private theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (u : Fin m) (i : Fin n1) (j : Fin n2) (k : Fin n0) (hk : k.val = o + u.val) :
    extractStridedSlice ⟨3, ![m, n1, n2]⟩ ![o, 0, 0] X h (ix3 u i j) = X (ix3 k i j) :=
  extractStridedSlice_apply _ _ _ _ _ (fun ax => by
    match ax with
    | ⟨0, _⟩ => exact hk
    | ⟨1, _⟩ => exact (Nat.zero_add _).symm
    | ⟨2, _⟩ => exact (Nat.zero_add _).symm)

end Layout

/-! ## One class column -/

/-- The column the kernel forms from the masked matrices `V` and one `[1, 64, 64]` slab `S`: the slab taken as a
    matrix, spread over the 400 samples, multiplied in entrywise, summed over the two inner axes, and stood up as a
    column. -/
private def colOf (V : FVec Ideal S400x64x64 .f32) (S : FVec Ideal S1x64x64 .f32) : FVec Ideal S400x1 .f32 :=
  shapeCast S400x1
    (multiReduction .add [1, 2] S400
      (mulf V (broadcastTo S400x64x64 (shapeCast S1x64x64 (shapeCast S64x64 S shapeCasts_S1x64x64_S64x64)
        shapeCasts_S64x64_S1x64x64) broadcasts_S1x64x64_S400x64x64))
      0x00000000#32 reduces_S400x64x64_S400 (.inl rfl) rfl)
    shapeCasts_S400_S400x1

/-- It is, at row `b`, the double sum of the entrywise products of sample `b`'s matrix with the slab. -/
private theorem colOf_apply (V : FVec Ideal S400x64x64 .f32) (S : FVec Ideal S1x64x64 .f32) (b : Fin 400) (u : Fin 1) :
    colOf V S (ix2 b u) = ∑ i : Fin 64, ∑ j : Fin 64, V (ix3 b i j) * S (ix3 (0 : Fin 1) i j) := by
  unfold colOf
  refine (shapeCast_a_a1_apply _ shapeCasts_S400_S400x1 b u).trans ?_
  refine (Cert.LibSums.multiReduction_add_12 _ 0x00000000#32 reduces_S400x64x64_S400 (Or.inl rfl) rfl (ix1 b)).trans ?_
  refine Finset.sum_congr rfl fun i _ => Finset.sum_congr rfl fun j _ => ?_
  refine congrArg (fun t => V (ix3 b i j) * t) ?_
  exact (broadcastTo_1ab_nab_apply _ broadcasts_S1x64x64_S400x64x64 b i j).trans
    ((shapeCast_ab_1ab_apply _ shapeCasts_S64x64_S1x64x64 (0 : Fin 1) i j).trans
      (shapeCast_1ab_ab_apply _ shapeCasts_S1x64x64_S64x64 i j))

/-- With the slab cut out of a `[10, 64, 64]` array at leading offset `o`, and the masked matrices known entrywise. -/
private theorem colOf_slice_apply (o : ℕ) (V : FVec Ideal S400x64x64 .f32) (W : FVec Ideal S10x64x64 .f32)
    (hs : S10x64x64.Slices ![o, 0, 0] S1x64x64) (M : Fin 400 → Fin 64 → Fin 64 → EReal)
    (hV : ∀ b i j, V (ix3 b i j) = M b i j) (m : Fin 10) (hm : m.val = o) (b : Fin 400) (u : Fin 1) :
    colOf V (extractStridedSlice S1x64x64 ![o, 0, 0] W hs) (ix2 b u)
      = ∑ i : Fin 64, ∑ j : Fin 64, M b i j * W (ix3 m i j) := by
  rw [colOf_apply]
  refine Finset.sum_congr rfl fun i _ => Finset.sum_congr rfl fun j _ => ?_
  rw [hV b i j, slice3_axis0_apply o W hs (0 : Fin 1) i j m (by rw [hm]; rfl)]

/-! ## Ten columns of width one laid side by side -/

/-- Piece `k` of a concatenation along the second axis whose first `k` pieces have width one each, read at
    column `k`: the piece's own column 0. -/
private theorem concat_col_piece (xs : List ((s : Shape) × (s.Idx → Ideal .f32)))
    (h : Shape.Concatenates (xs.map (·.1)) S400x10 1) (b : Fin 400) (k : ℕ) (hk10 : k < 10) (hk : k < xs.length)
    (c : FVec Ideal S400x1 .f32) (hxk : xs[k] = ⟨S400x1, c⟩)
    (hpre : (((xs.take k).map (·.1)).map fun s =>
      if h : s.rank = S400x10.rank then s.size ((1 : Fin S400x10.rank).cast h.symm) else 0).sum = k) :
    concatenate S400x10 1 xs h (ix2 b (⟨k, hk10⟩ : Fin 10)) = c (ix2 b (0 : Fin 1)) :=
  concatenate_apply_piece (t := S400x10) 1 xs h (ix2 b (⟨k, hk10⟩ : Fin 10)) k hk S400x1 c hxk rfl k hpre (ix2 b (0 : Fin 1))
    (fun ax hax => match ax, hax with
      | ⟨0, _⟩, _ => rfl
      | ⟨1, _⟩, hax => absurd rfl hax)
    rfl

/-- Ten columns, each known at its column 0: the concatenation at `(b, cls)` is the `cls`-th of them at row `b`. -/
private theorem concat10_apply (T : Fin 400 → Fin 10 → EReal)
    (c0 c1 c2 c3 c4 c5 c6 c7 c8 c9 : FVec Ideal S400x1 .f32)
    (h : Shape.Concatenates [S400x1, S400x1, S400x1, S400x1, S400x1, S400x1, S400x1, S400x1, S400x1, S400x1] S400x10 1)
    (h0 : ∀ b, c0 (ix2 b (0 : Fin 1)) = T b 0)
    (h1 : ∀ b, c1 (ix2 b (0 : Fin 1)) = T b 1)
    (h2 : ∀ b, c2 (ix2 b (0 : Fin 1)) = T b 2)
    (h3 : ∀ b, c3 (ix2 b (0 : Fin 1)) = T b 3)
    (h4 : ∀ b, c4 (ix2 b (0 : Fin 1)) = T b 4)
    (h5 : ∀ b, c5 (ix2 b (0 : Fin 1)) = T b 5)
    (h6 : ∀ b, c6 (ix2 b (0 : Fin 1)) = T b 6)
    (h7 : ∀ b, c7 (ix2 b (0 : Fin 1)) = T b 7)
    (h8 : ∀ b, c8 (ix2 b (0 : Fin 1)) = T b 8)
    (h9 : ∀ b, c9 (ix2 b (0 : Fin 1)) = T b 9)
    (b : Fin 400) (cls : Fin 10) :
    concatenate S400x10 1 [⟨S400x1, c0⟩, ⟨S400x1, c1⟩, ⟨S400x1, c2⟩, ⟨S400x1, c3⟩, ⟨S400x1, c4⟩, ⟨S400x1, c5⟩, ⟨S400x1, c6⟩, ⟨S400x1, c7⟩, ⟨S400x1, c8⟩, ⟨S400x1, c9⟩] h (ix2 b cls) = T b cls := by
  have P := fun (k : ℕ) (hk10 : k < 10) hk (c : FVec Ideal S400x1 .f32) hxk hpre =>
    concat_col_piece [⟨S400x1, c0⟩, ⟨S400x1, c1⟩, ⟨S400x1, c2⟩, ⟨S400x1, c3⟩, ⟨S400x1, c4⟩, ⟨S400x1, c5⟩, ⟨S400x1, c6⟩, ⟨S400x1, c7⟩, ⟨S400x1, c8⟩, ⟨S400x1, c9⟩] h b k hk10 hk c hxk hpre
  match cls with
  | ⟨0, hc⟩ => exact (P 0 hc hc c0 rfl rfl).trans (h0 b)
  | ⟨1, hc⟩ => exact (P 1 hc hc c1 rfl rfl).trans (h1 b)
  | ⟨2, hc⟩ => exact (P 2 hc hc c2 rfl rfl).trans (h2 b)
  | ⟨3, hc⟩ => exact (P 3 hc hc c3 rfl rfl).trans (h3 b)
  | ⟨4, hc⟩ => exact (P 4 hc hc c4 rfl rfl).trans (h4 b)
  | ⟨5, hc⟩ => exact (P 5 hc hc c5 rfl rfl).trans (h5 b)
  | ⟨6, hc⟩ => exact (P 6 hc hc c6 rfl rfl).trans (h6 b)
  | ⟨7, hc⟩ => exact (P 7 hc hc c7 rfl rfl).trans (h7 b)
  | ⟨8, hc⟩ => exact (P 8 hc hc c8 rfl rfl).trans (h8 b)
  | ⟨9, hc⟩ => exact (P 9 hc hc c9 rfl rfl).trans (h9 b)

/-! ## The scoring kernel's payloads at an index -/

/-- The prototype array passes through a cast to its own shape. -/
private theorem pay7_eq (v56 : Vec Ideal S10x64x64 .f32) : k1_pay7 (F := Ideal) v56 = v56 :=
  shapeCast_self v56 _

/-- The query's squared norm: the sum over the full square of the squared masked matrix. -/
private theorem pay6_apply (v6 v7 : IVec S64x64 32) (v29 : FVec Ideal S400x64x64 .f32) (v37 : FVec Ideal S400x1x64 .f32)
    (v41 : FVec Ideal S400x1x1 .f32) (v42 : FVec Ideal S400x64x64 .f32)
    (M : Fin 400 → Fin 64 → Fin 64 → EReal)
    (hM : ∀ b i j, k1_pay5 (F := Ideal) v6 v7 v29 v37 v41 v42 (ix3 b i j) = M b i j) (b : Fin 400) :
    k1_pay6 (F := Ideal) v6 v7 v29 v37 v41 v42 (ix1 b) = ∑ i : Fin 64, ∑ j : Fin 64, M b i j * M b i j := by
  refine (Cert.LibSums.multiReduction_add_12
    (mulf (k1_pay5 (F := Ideal) v6 v7 v29 v37 v41 v42) (k1_pay5 (F := Ideal) v6 v7 v29 v37 v41 v42))
    0x00000000#32 reduces_S400x64x64_S400 (Or.inl rfl) rfl (ix1 b)).trans ?_
  refine Finset.sum_congr rfl fun i _ => Finset.sum_congr rfl fun j _ => ?_
  show k1_pay5 (F := Ideal) v6 v7 v29 v37 v41 v42 (ix3 b i j) * k1_pay5 (F := Ideal) v6 v7 v29 v37 v41 v42 (ix3 b i j) = _
  rw [hM b i j]

/-- Class 0's column, from the masked matrices known entrywise. -/
private theorem pay8_apply (v6 v7 : IVec S64x64 32) (v29 : FVec Ideal S400x64x64 .f32) (v37 : FVec Ideal S400x1x64 .f32)
    (v41 : FVec Ideal S400x1x1 .f32) (v42 : FVec Ideal S400x64x64 .f32)
    (v56 : Vec Ideal S10x64x64 .f32) (M : Fin 400 → Fin 64 → Fin 64 → EReal)
    (hM : ∀ b i j, k1_pay5 (F := Ideal) v6 v7 v29 v37 v41 v42 (ix3 b i j) = M b i j) (b : Fin 400) (u : Fin 1) :
    k1_pay8 (F := Ideal) v6 v7 v29 v37 v41 v42 v56 (ix2 b u)
      = ∑ i : Fin 64, ∑ j : Fin 64, M b i j * v56 (ix3 (0 : Fin 10) i j) := by
  show colOf (k1_pay5 v6 v7 v29 v37 v41 v42)
    (extractStridedSlice S1x64x64 ![0, 0, 0] (k1_pay7 v56) slices_S10x64x64_o0_0_0_S1x64x64) (ix2 b u) = _
  rw [pay7_eq v56]
  exact colOf_slice_apply 0 _ v56 _ M hM 0 rfl b u

/-- Class 1's column, from the masked matrices known entrywise. -/
private theorem pay9_apply (v6 v7 : IVec S64x64 32) (v29 : FVec Ideal S400x64x64 .f32) (v37 : FVec Ideal S400x1x64 .f32)
    (v41 : FVec Ideal S400x1x1 .f32) (v42 : FVec Ideal S400x64x64 .f32)
    (v56 : Vec Ideal S10x64x64 .f32) (M : Fin 400 → Fin 64 → Fin 64 → EReal)
    (hM : ∀ b i j, k1_pay5 (F := Ideal) v6 v7 v29 v37 v41 v42 (ix3 b i j) = M b i j) (b : Fin 400) (u : Fin 1) :
    k1_pay9 (F := Ideal) v6 v7 v29 v37 v41 v42 v56 (ix2 b u)
      = ∑ i : Fin 64, ∑ j : Fin 64, M b i j * v56 (ix3 (1 : Fin 10) i j) := by
  show colOf (k1_pay5 v6 v7 v29 v37 v41 v42)
    (extractStridedSlice S1x64x64 ![1, 0, 0] (k1_pay7 v56) slices_S10x64x64_o1_0_0_S1x64x64) (ix2 b u) = _
  rw [pay7_eq v56]
  exact colOf_slice_apply 1 _ v56 _ M hM 1 rfl b u

/-- Class 2's column, from the masked matrices known entrywise. -/
private theorem pay10_apply (v6 v7 : IVec S64x64 32) (v29 : FVec Ideal S400x64x64 .f32) (v37 : FVec Ideal S400x1x64 .f32)
    (v41 : FVec Ideal S400x1x1 .f32) (v42 : FVec Ideal S400x64x64 .f32)
    (v56 : Vec Ideal S10x64x64 .f32) (M : Fin 400 → Fin 64 → Fin 64 → EReal)
    (hM : ∀ b i j, k1_pay5 (F := Ideal) v6 v7 v29 v37 v41 v42 (ix3 b i j) = M b i j) (b : Fin 400) (u : Fin 1) :
    k1_pay10 (F := Ideal) v6 v7 v29 v37 v41 v42 v56 (ix2 b u)
      = ∑ i : Fin 64, ∑ j : Fin 64, M b i j * v56 (ix3 (2 : Fin 10) i j) := by
  show colOf (k1_pay5 v6 v7 v29 v37 v41 v42)
    (extractStridedSlice S1x64x64 ![2, 0, 0] (k1_pay7 v56) slices_S10x64x64_o2_0_0_S1x64x64) (ix2 b u) = _
  rw [pay7_eq v56]
  exact colOf_slice_apply 2 _ v56 _ M hM 2 rfl b u

/-- Class 3's column, from the masked matrices known entrywise. -/
private theorem pay11_apply (v6 v7 : IVec S64x64 32) (v29 : FVec Ideal S400x64x64 .f32) (v37 : FVec Ideal S400x1x64 .f32)
    (v41 : FVec Ideal S400x1x1 .f32) (v42 : FVec Ideal S400x64x64 .f32)
    (v56 : Vec Ideal S10x64x64 .f32) (M : Fin 400 → Fin 64 → Fin 64 → EReal)
    (hM : ∀ b i j, k1_pay5 (F := Ideal) v6 v7 v29 v37 v41 v42 (ix3 b i j) = M b i j) (b : Fin 400) (u : Fin 1) :
    k1_pay11 (F := Ideal) v6 v7 v29 v37 v41 v42 v56 (ix2 b u)
      = ∑ i : Fin 64, ∑ j : Fin 64, M b i j * v56 (ix3 (3 : Fin 10) i j) := by
  show colOf (k1_pay5 v6 v7 v29 v37 v41 v42)
    (extractStridedSlice S1x64x64 ![3, 0, 0] (k1_pay7 v56) slices_S10x64x64_o3_0_0_S1x64x64) (ix2 b u) = _
  rw [pay7_eq v56]
  exact colOf_slice_apply 3 _ v56 _ M hM 3 rfl b u

/-- Class 4's column, from the masked matrices known entrywise. -/
private theorem pay12_apply (v6 v7 : IVec S64x64 32) (v29 : FVec Ideal S400x64x64 .f32) (v37 : FVec Ideal S400x1x64 .f32)
    (v41 : FVec Ideal S400x1x1 .f32) (v42 : FVec Ideal S400x64x64 .f32)
    (v56 : Vec Ideal S10x64x64 .f32) (M : Fin 400 → Fin 64 → Fin 64 → EReal)
    (hM : ∀ b i j, k1_pay5 (F := Ideal) v6 v7 v29 v37 v41 v42 (ix3 b i j) = M b i j) (b : Fin 400) (u : Fin 1) :
    k1_pay12 (F := Ideal) v6 v7 v29 v37 v41 v42 v56 (ix2 b u)
      = ∑ i : Fin 64, ∑ j : Fin 64, M b i j * v56 (ix3 (4 : Fin 10) i j) := by
  show colOf (k1_pay5 v6 v7 v29 v37 v41 v42)
    (extractStridedSlice S1x64x64 ![4, 0, 0] (k1_pay7 v56) slices_S10x64x64_o4_0_0_S1x64x64) (ix2 b u) = _
  rw [pay7_eq v56]
  exact colOf_slice_apply 4 _ v56 _ M hM 4 rfl b u

/-- Class 5's slab, cut from the prototype array. -/
private theorem pay13_apply (v56 : Vec Ideal S10x64x64 .f32) (u : Fin 1) (i j : Fin 64) :
    k1_pay13 (F := Ideal) v56 (ix3 u i j) = v56 (ix3 (5 : Fin 10) i j) := by
  show extractStridedSlice S1x64x64 ![5, 0, 0] (k1_pay7 v56) slices_S10x64x64_o5_0_0_S1x64x64 (ix3 u i j) = _
  rw [pay7_eq v56]
  exact slice3_axis0_apply 5 v56 _ u i j 5 (by have := u.isLt; show 5 = 5 + u.val; omega)

/-- The last payload written out over its ten operands: zero minus ((the query norm's column spread over the ten
    classes, plus the row of class norms spread over the 400 queries) minus twice the ten class columns side by
    side); classes 0 to 4 arrive as columns, class 5 as its slab, classes 6 to 9 are cut from the prototype array
    here. -/
private theorem pay14_eq (v53 : FVec Ideal S400x64x64 .f32) (v55 : FVec Ideal S400 .f32) (v57 : FVec Ideal S10x64x64 .f32)
    (v64 v71 v78 v85 v92 : FVec Ideal S400x1 .f32) (v93 : FVec Ideal S1x64x64 .f32) (v129 : Vec Ideal S1x10 .f32) :
    k1_pay14 (F := Ideal) v53 v55 v57 v64 v71 v78 v85 v92 v93 v129
      = subf (broadcast S400x10 (Scalar.ofBits (F := Ideal) .f32 0x00000000#32))
          (subf
            (addf (broadcastTo S400x10 (shapeCast S400x1 v55 shapeCasts_S400_S400x1) broadcasts_S400x1_S400x10)
              (broadcastTo S400x10 (shapeCast S1x10 v129 shapeCasts_S1x10_S1x10) broadcasts_S1x10_S400x10))
            (mulf (broadcast S400x10 (Scalar.ofBits (F := Ideal) .f32 0x40000000#32))
              (concatenate S400x10 1
                [⟨S400x1, v64⟩, ⟨S400x1, v71⟩, ⟨S400x1, v78⟩, ⟨S400x1, v85⟩, ⟨S400x1, v92⟩,
                  ⟨S400x1, colOf v53 v93⟩,
                  ⟨S400x1, colOf v53 (extractStridedSlice S1x64x64 ![6, 0, 0] v57 slices_S10x64x64_o6_0_0_S1x64x64)⟩,
                  ⟨S400x1, colOf v53 (extractStridedSlice S1x64x64 ![7, 0, 0] v57 slices_S10x64x64_o7_0_0_S1x64x64)⟩,
                  ⟨S400x1, colOf v53 (extractStridedSlice S1x64x64 ![8, 0, 0] v57 slices_S10x64x64_o8_0_0_S1x64x64)⟩,
                  ⟨S400x1, colOf v53 (extractStridedSlice S1x64x64 ![9, 0, 0] v57 slices_S10x64x64_o9_0_0_S1x64x64)⟩]
                concatenates_S400x1_S400x1_S400x1_S400x1_S400x1_S400x1_S400x1_S400x1_S400x1_S400x1_S400x10_d1))) :=
  rfl

/-- The last payload at (b, cls), from what its operands are at an index: the masked matrices `M`, the query norms,
    the prototype array `W`, its first five class columns and class 5's slab. -/
private theorem pay14_apply (v53 : FVec Ideal S400x64x64 .f32) (v55 : FVec Ideal S400 .f32) (v57 : FVec Ideal S10x64x64 .f32)
    (v64 v71 v78 v85 v92 : FVec Ideal S400x1 .f32) (v93 : FVec Ideal S1x64x64 .f32) (v129 : Vec Ideal S1x10 .f32)
    (M : Fin 400 → Fin 64 → Fin 64 → EReal) (W : FVec Ideal S10x64x64 .f32)
    (h53 : ∀ b i j, v53 (ix3 b i j) = M b i j)
    (h55 : ∀ b, v55 (ix1 b) = ∑ i : Fin 64, ∑ j : Fin 64, M b i j * M b i j)
    (h57 : v57 = W)
    (h64 : ∀ b, v64 (ix2 b (0 : Fin 1)) = ∑ i : Fin 64, ∑ j : Fin 64, M b i j * W (ix3 (0 : Fin 10) i j))
    (h71 : ∀ b, v71 (ix2 b (0 : Fin 1)) = ∑ i : Fin 64, ∑ j : Fin 64, M b i j * W (ix3 (1 : Fin 10) i j))
    (h78 : ∀ b, v78 (ix2 b (0 : Fin 1)) = ∑ i : Fin 64, ∑ j : Fin 64, M b i j * W (ix3 (2 : Fin 10) i j))
    (h85 : ∀ b, v85 (ix2 b (0 : Fin 1)) = ∑ i : Fin 64, ∑ j : Fin 64, M b i j * W (ix3 (3 : Fin 10) i j))
    (h92 : ∀ b, v92 (ix2 b (0 : Fin 1)) = ∑ i : Fin 64, ∑ j : Fin 64, M b i j * W (ix3 (4 : Fin 10) i j))
    (h93 : ∀ u i j, v93 (ix3 u i j) = W (ix3 (5 : Fin 10) i j))
    (b : Fin 400) (cls : Fin 10) :
    k1_pay14 (F := Ideal) v53 v55 v57 v64 v71 v78 v85 v92 v93 v129 (ix2 b cls)
      = Cert.Spec.c0 - ((∑ i : Fin 64, ∑ j : Fin 64, M b i j * M b i j) + v129 (ix2 0 cls)
          - Cert.Spec.c2 * ∑ i : Fin 64, ∑ j : Fin 64, M b i j * W (ix3 cls i j)) := by
  subst h57
  have h99 : ∀ b, colOf v53 v93 (ix2 b (0 : Fin 1))
      = ∑ i : Fin 64, ∑ j : Fin 64, M b i j * v57 (ix3 (5 : Fin 10) i j) := fun b =>
    (colOf_apply v53 v93 b 0).trans
      (Finset.sum_congr rfl fun i _ => Finset.sum_congr rfl fun j _ => by rw [h53 b i j, h93 0 i j])
  have h106 : ∀ b, colOf v53 (extractStridedSlice S1x64x64 ![6, 0, 0] v57 slices_S10x64x64_o6_0_0_S1x64x64) (ix2 b (0 : Fin 1))
      = ∑ i : Fin 64, ∑ j : Fin 64, M b i j * v57 (ix3 (6 : Fin 10) i j) := fun b =>
    colOf_slice_apply 6 v53 v57 slices_S10x64x64_o6_0_0_S1x64x64 M h53 6 rfl b 0
  have h113 : ∀ b, colOf v53 (extractStridedSlice S1x64x64 ![7, 0, 0] v57 slices_S10x64x64_o7_0_0_S1x64x64) (ix2 b (0 : Fin 1))
      = ∑ i : Fin 64, ∑ j : Fin 64, M b i j * v57 (ix3 (7 : Fin 10) i j) := fun b =>
    colOf_slice_apply 7 v53 v57 slices_S10x64x64_o7_0_0_S1x64x64 M h53 7 rfl b 0
  have h120 : ∀ b, colOf v53 (extractStridedSlice S1x64x64 ![8, 0, 0] v57 slices_S10x64x64_o8_0_0_S1x64x64) (ix2 b (0 : Fin 1))
      = ∑ i : Fin 64, ∑ j : Fin 64, M b i j * v57 (ix3 (8 : Fin 10) i j) := fun b =>
    colOf_slice_apply 8 v53 v57 slices_S10x64x64_o8_0_0_S1x64x64 M h53 8 rfl b 0
  have h127 : ∀ b, colOf v53 (extractStridedSlice S1x64x64 ![9, 0, 0] v57 slices_S10x64x64_o9_0_0_S1x64x64) (ix2 b (0 : Fin 1))
      = ∑ i : Fin 64, ∑ j : Fin 64, M b i j * v57 (ix3 (9 : Fin 10) i j) := fun b =>
    colOf_slice_apply 9 v53 v57 slices_S10x64x64_o9_0_0_S1x64x64 M h53 9 rfl b 0
  have hcat := concat10_apply (fun b cls => ∑ i : Fin 64, ∑ j : Fin 64, M b i j * v57 (ix3 cls i j))
    _ _ _ _ _ _ _ _ _ _
    concatenates_S400x1_S400x1_S400x1_S400x1_S400x1_S400x1_S400x1_S400x1_S400x1_S400x1_S400x10_d1
    h64 h71 h78 h85 h92 h99 h106 h113 h120 h127 b cls
  rw [pay14_eq, subf_apply, subf_apply, addf_apply, mulf_apply, broadcast_apply, broadcast_apply,
    broadcastTo_a1_ab_apply, shapeCast_a_a1_apply, broadcastTo_1b_ab_apply, shapeCast_self, h55 b, hcat]
  rfl

/-- The scoring kernel's output block at (b, cls). -/
theorem score_block (x0 : Vec Ideal S400x64x49 .f32) (x1 : Vec Ideal S1x1 .f32) (x2 : Vec Ideal S10x64x64 .f32)
    (x3 : Vec Ideal S1x10 .f32) (b : Fin 400) (cls : Fin 10) :
    out1_4 (F := Ideal) x0 x1 x2 x3 (ix2 b cls)
      = Cert.Spec.c0 - ((∑ i : Fin 64, ∑ j : Fin 64, cmOf400 x0 x1 b i j * cmOf400 x0 x1 b i j) + x3 (ix2 0 cls)
          - Cert.Spec.c2 * ∑ i : Fin 64, ∑ j : Fin 64, cmOf400 x0 x1 b i j * x2 (ix3 cls i j)) := by
  unfold out1_4
  rw [View.canon_unit_zero zero2]
  simp only [View.ld_unit_zero (S := S1x1) zero2, View.ld_unit_zero (S := S400x64x49) zero3,
    View.ld_unit_zero (S := S10x64x64) zero3, View.ld_unit_zero (S := S1x10) zero2]
  refine pay14_apply _ _ _ _ _ _ _ _ _ _ (cmOf400 x0 x1) x2 ?_ ?_ ?_ ?_ ?_ ?_ ?_ ?_ ?_ b cls
  · exact core400 x1 x0
  · exact fun b => pay6_apply _ _ _ _ _ _ _ (core400 x1 x0) b
  · exact pay7_eq x2
  · exact fun b => pay8_apply _ _ _ _ _ _ x2 _ (core400 x1 x0) b 0
  · exact fun b => pay9_apply _ _ _ _ _ _ x2 _ (core400 x1 x0) b 0
  · exact fun b => pay10_apply _ _ _ _ _ _ x2 _ (core400 x1 x0) b 0
  · exact fun b => pay11_apply _ _ _ _ _ _ x2 _ (core400 x1 x0) b 0
  · exact fun b => pay12_apply _ _ _ _ _ _ x2 _ (core400 x1 x0) b 0
  · exact fun u i j => pay13_apply x2 u i j

end Cert.KernelIdeal.Val

end
-- ==== Proof.KSupport.lean ====
/-
  The kernel program up to the second region's entry.  The host flattens the feature maps and cuts them into the 800
  support samples and the 16000 query samples; the pooling region writes, block by block of 100 samples, each support
  sample's masked centred matrix; the host then averages each class's 80 matrices (a sum from the zero word, divided
  by 80) and sums each class's squared entries.  Below the diagonal every masked matrix is zero, so the average is
  zero there: the prototype handed on is the specification's prototype times the indicator of i ≤ j, and the squared
  norm handed on is the specification's sum over the triangle.

  The order below.  (1) The two stretches of host operations read as terms of what they start from: the support rows
  and the query rows are slices of the flattened feature maps; the class means and their squared norms are terms of
  the pooled array.  (2) The pooling region: grid point t reads rows 100·t … 100·t + 99 of the support rows and the
  whole temperature array, and writes rows 100·t … 100·t + 99 of the pooled array; the eight blocks cover its 800
  rows, so the pooled array holds at (r, i, j) the centred matrix of sample r at (i, j) times the indicator of i ≤ j.
  (3) The class mean at (cls, i, j): row 80·cls + l of the pooled array is support sample l of class cls; on and above
  the diagonal the indicator is one and the mean is the specification's; below it every summand is a product with
  zero, the sum is zero and zero divided by 80 is zero.  (4) The squared norm: the double sum over the 64·64 square of
  a summand that vanishes below the diagonal is the sum over the triangle.
-/
import proofs.«426365_j31061203484793_1_alg».proof.Proof.KBlocks
import proofs.«426365_j31061203484793_1_alg».proof.Proof.Gen.KernelIdeal.Frame
import proofs.«426365_j31061203484793_1_alg».proof.Proof.Spec
import proofs.«426365_j31061203484793_1_alg».proof.Proof.LibSums
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

/-- The flattened feature maps and the scale, from the launch memory. -/
abbrev Yk (m : (ℓ : Loc nD τ sig) → Buf (Elt Ideal) ℓ) (c : Dev nD) : FVec Ideal ⟨3, ![16800, 64, 49]⟩ .f32 :=
  Cert.Spec.flat (m ((c.tc : Thread nD τ).loc main_arg0))
abbrev tek (m : (ℓ : Loc nD τ sig) → Buf (Elt Ideal) ℓ) (c : Dev nD) : EReal :=
  Ideal.exp ((m ((c.tc : Thread nD τ).loc main_arg1) : FVec Ideal S1x1 .f32) (ix2 0 0))

/-! ## Coordinates of a rank-3 index below their literal extents -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- A rank-3 index is the index of its three coordinates, each taken as a number below its extent. -/
theorem eq_ix3_mk {n0 n1 n2 : Nat} (j : (⟨3, ![n0, n1, n2]⟩ : Shape).Idx) :
    j = ix3 (⟨(j 0).val, idx3_lt0 j⟩ : Fin n0) (⟨(j 1).val, idx3_lt1 j⟩ : Fin n1) (⟨(j 2).val, idx3_lt2 j⟩ : Fin n2) := by
  funext a; match a with | ⟨0, _⟩ => rfl | ⟨1, _⟩ => rfl | ⟨2, _⟩ => rfl

/-! ## The literal 80 -/

/-- The word 0x42A00000 is the real number 80. -/
theorem c80_eq : Ideal.ofBits .f32 0x42A00000#32 = ((80 : ℝ) : EReal) := by
  simp [Ideal.ofBits, Ideal.ieee, -EReal.coe_mul]; norm_num

/-- It is not zero. -/
theorem c80_ne_zero : Cert.Spec.c80 ≠ 0 := by
  show Ideal.ofBits .f32 0x42A00000#32 ≠ 0
  rw [c80_eq]
  exact_mod_cast (by norm_num : (80 : ℝ) ≠ 0)

/-! ## The host stretch before the pooling region: the support rows and the query rows are slices of the flattened maps -/

theorem host0_v1 (X : Valuation τ sig (Elt Ideal)) :
    (StableHlo.after (hostOps0 (F := Ideal)) X (Proc.devRef .tc main_v1) : FVec Ideal S800x64x49 .f32)
      = extractStridedSlice S800x64x49 ![0, 0, 0] (Cert.Spec.flat (X (Proc.devRef .tc main_arg0)))
          slices_S16800x64x49_S800x64x49_0_0_0 := by
  after_results
  rfl

theorem host0_v2 (X : Valuation τ sig (Elt Ideal)) :
    (StableHlo.after (hostOps0 (F := Ideal)) X (Proc.devRef .tc main_v2) : FVec Ideal S16000x64x49 .f32)
      = extractStridedSlice S16000x64x49 ![800, 0, 0] (Cert.Spec.flat (X (Proc.devRef .tc main_arg0)))
          slices_S16800x64x49_S16000x64x49_800_0_0 := by
  after_results
  rfl

/-- The first stretch does not write the temperature. -/
theorem host0_arg1 (X : Valuation τ sig (Elt Ideal)) :
    StableHlo.after (hostOps0 (F := Ideal)) X (Proc.devRef .tc main_arg1) = X (Proc.devRef .tc main_arg1) := by
  after_results

/-! ## The host stretch between the regions: the class means and their squared norms as terms of the pooled array -/

/-- The class means the host forms from the pooled array: rows regrouped as 10 classes of 80, summed over the 80 from the
    zero word, divided by the literal 80. -/
def protoOf (x3 : FVec Ideal S800x64x64 .f32) : FVec Ideal S10x64x64 .f32 :=
  Host.divf (F := Ideal)
    (Host.reduceAdd (F := Ideal) (shapeCast S10x80x64x64 x3 shapeCasts_S800x64x64_S10x80x64x64)
      (constant (F := Ideal) S_ .f32 0x00000000#32) reducesTo_S10x80x64x64_S10x64x64_d1 h_S_)
    (broadcastInDim S10x64x64 ![] bcast_S_S10x64x64 (constant (F := Ideal) S_ .f32 0x42A00000#32))

/-- Their squared norms: the squares summed over both matrix axes from the zero word, laid out as one row. -/
def normOf (x3 : FVec Ideal S800x64x64 .f32) : FVec Ideal S1x10 .f32 :=
  broadcastInDim S1x10 ![1] bcast_S10_S1x10_1
    (Host.reduceAdd (F := Ideal) (mulf (protoOf x3) (protoOf x3))
      (constant (F := Ideal) S_ .f32 0x00000000#32) reducesTo_S10x64x64_S10_d1_2 h_S_)

theorem host1_v7 (X : Valuation τ sig (Elt Ideal)) :
    (StableHlo.after (hostOps1 (F := Ideal)) X (Proc.devRef .tc main_v7) : FVec Ideal S10x64x64 .f32)
      = protoOf (X (Proc.devRef .tc main_v3)) := by
  after_results
  rfl

theorem host1_v10 (X : Valuation τ sig (Elt Ideal)) :
    (StableHlo.after (hostOps1 (F := Ideal)) X (Proc.devRef .tc main_v10) : FVec Ideal S1x10 .f32)
      = normOf (X (Proc.devRef .tc main_v3)) := by
  after_results
  rfl

/-- The second stretch writes neither the query rows nor the temperature. -/
theorem host1_v2 (X : Valuation τ sig (Elt Ideal)) :
    StableHlo.after (hostOps1 (F := Ideal)) X (Proc.devRef .tc main_v2) = X (Proc.devRef .tc main_v2) := by
  after_results
theorem host1_arg1 (X : Valuation τ sig (Elt Ideal)) :
    StableHlo.after (hostOps1 (F := Ideal)) X (Proc.devRef .tc main_arg1) = X (Proc.devRef .tc main_arg1) := by
  after_results

/-! ## The pooling region: from its blocks to the pooled array -/

/-- The windows' block indices over the grid: the two sample windows move one block of 100 rows per point, the
    temperature window stays. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

section Blocks
variable (V : (c : Dev nD) → (b : Ref sig .tc) → Buf (Elt Ideal) ((c : Thread nD τ).loc b))

/-- The sample window's block at point t is rows 100·t … 100·t + 99 of the support rows. -/
theorem sample_block_apply (c : Dev nD) (t : Fin cfg0.N) (x : S100x64x49.Idx) (k : S800x64x49.Idx)
    (hk0 : (k 0).val = 100 * t.val + (x 0).val) (hk1 : (k 1).val = (x 1).val) (hk2 : (k 2).val = (x 2).val) :
    (iblk0 (F := Ideal) V c 0 t : Vec Ideal S100x64x49 .f32) x = (V c main_v1 : S800x64x49.Idx → Elt Ideal .f32) k := by
  obtain ⟨e0, e1, e2, -⟩ := index_facts t
  unfold iblk0
  rw [View.read_apply]
  show (V c main_v1 : S800x64x49.Idx → Elt Ideal .f32) _ = V c main_v1 k
  congr 1
  funext a
  apply Fin.ext
  match a with
  | ⟨0, _⟩ => show win0_0.index t (0 : Fin 3) * 100 + 1 * (x 0).val = (k 0).val; rw [e0, hk0]; omega
  | ⟨1, _⟩ => show win0_0.index t (1 : Fin 3) * 64 + 1 * (x 1).val = (k 1).val; rw [e1, hk1]; omega
  | ⟨2, _⟩ => show win0_0.index t (2 : Fin 3) * 49 + 1 * (x 2).val = (k 2).val; rw [e2, hk2]; omega

/-- The temperature window's block at every point is the whole temperature array. -/
theorem temp_block_apply (c : Dev nD) (t : Fin cfg0.N) (x : S1x1.Idx) :
    (iblk0 (F := Ideal) V c 1 t : Vec Ideal S1x1 .f32) x = (V c main_arg1 : S1x1.Idx → Elt Ideal .f32) x := by
  obtain ⟨-, -, -, e3, e4, -⟩ := index_facts t
  unfold iblk0
  rw [View.read_apply]
  show (V c main_arg1 : S1x1.Idx → Elt Ideal .f32) _ = V c main_arg1 x
  congr 1
  funext a
  apply Fin.ext
  match a with
  | ⟨0, _⟩ => show win0_1.index t (0 : Fin 2) * 1 + 1 * (x 0).val = (x 0).val; rw [e3]; omega
  | ⟨1, _⟩ => show win0_1.index t (1 : Fin 2) * 1 + 1 * (x 1).val = (x 1).val; rw [e4]; omega

end Blocks

variable (m : (ℓ : Loc nD τ sig) → Buf (Elt Ideal) ℓ) (ρ : Dev nD → PrngReg)

/-- The support rows the pooling region finds: rows 0 … 799 of the flattened maps. -/
theorem support_rows (c : Dev nD) (r : Fin 800) (hr : r.val < 16800) (i : Fin 64) (k : Fin 49) :
    (V1 m ρ c main_v1 : FVec Ideal S800x64x49 .f32) (ix3 r i k) = Yk m c (ix3 (⟨r.val, hr⟩ : Fin 16800) i k) := by
  show (StableHlo.after (hostOps0 (F := Ideal)) (W0 m ρ c) (Proc.devRef .tc main_v1) : FVec Ideal S800x64x49 .f32) (ix3 r i k) = _
  rw [host0_v1]
  refine extractStridedSlice_apply _ _ _ _ _ fun a => ?_
  match a with
  | ⟨0, _⟩ => show r.val = 0 + r.val; omega
  | ⟨1, _⟩ => show i.val = 0 + i.val; omega
  | ⟨2, _⟩ => show k.val = 0 + k.val; omega

/-- The temperature the pooling region finds is the launch's. -/
theorem temp_entry (c : Dev nD) : V1 m ρ c main_arg1 = m ((c.tc : Thread nD τ).loc main_arg1) := by
  show StableHlo.after (hostOps0 (F := Ideal)) (W0 m ρ c) (Proc.devRef .tc main_arg1) = _
  rw [host0_arg1]

/-- The pooled array: at (r, i, j) the centred matrix of support sample r at (i, j), times the indicator of i ≤ j. -/
def poolAt (c : Dev nD) (r : Fin 800) (i j : Fin 64) : EReal :=
  Cert.Spec.tv (Yk m c) (tek m c) (⟨r.val, lt_trans r.isLt (by norm_num)⟩ : Fin 16800) i j * Cert.Spec.mask i j
def poolArr (c : Dev nD) : FVec Ideal S800x64x64 .f32 := fun idx =>
  poolAt m c (⟨(idx 0).val, idx3_lt0 idx⟩ : Fin 800) (⟨(idx 1).val, idx3_lt1 idx⟩ : Fin 64) (⟨(idx 2).val, idx3_lt2 idx⟩ : Fin 64)

/-- One entry of a point's output block is the pooled array's entry at its place: the block's samples are rows
    100·t … 100·t + 99 of the flattened maps, its temperature the launch's. -/
theorem pool_entry (c : Dev nD) (x0 : Vec Ideal S100x64x49 .f32) (x1 : Vec Ideal S1x1 .f32) (tv : Nat) (htv : tv < 8)
    (h0 : ∀ (b : Fin 100) (hb : 100 * tv + b.val < 16800) (i : Fin 64) (k : Fin 49),
      x0 (ix3 b i k) = Yk m c (ix3 (⟨100 * tv + b.val, hb⟩ : Fin 16800) i k))
    (h1 : x1 (ix2 0 0) = (m ((c.tc : Thread nD τ).loc main_arg1) : FVec Ideal S1x1 .f32) (ix2 0 0))
    (y : S100x64x64.Idx) (idx : S800x64x64.Idx) (e0 : (idx 0).val = 100 * tv + (y 0).val)
    (e1 : (idx 1).val = (y 1).val) (e2 : (idx 2).val = (y 2).val) :
    out0_2 (F := Ideal) x0 x1 y = poolArr m c idx := by
  have hy0 := idx3_lt0 y
  have hb : 100 * tv + (y 0).val < 16800 := by omega
  refine ((congrArg (out0_2 (F := Ideal) x0 x1) (eq_ix3_mk y)).trans (pool_block x0 x1 _ _ _)).trans ?_
  have r0 : (⟨(idx 0).val, lt_trans (idx3_lt0 idx) (by norm_num)⟩ : Fin 16800) = ⟨100 * tv + (y 0).val, hb⟩ := Fin.ext e0
  have r1 : (⟨(idx 1).val, idx3_lt1 idx⟩ : Fin 64) = ⟨(y 1).val, idx3_lt1 y⟩ := Fin.ext e1
  have r2 : (⟨(idx 2).val, idx3_lt2 idx⟩ : Fin 64) = ⟨(y 2).val, idx3_lt2 y⟩ := Fin.ext e2
  have hs : (fun (i : Fin 64) (k : Fin 49) => x0 (ix3 (⟨(y 0).val, hy0⟩ : Fin 100) i k))
      = Cert.Spec.samp (Yk m c) (⟨100 * tv + (y 0).val, hb⟩ : Fin 16800) :=
    funext fun i => funext fun k => h0 ⟨(y 0).val, hy0⟩ hb i k
  unfold cmOf100 poolArr poolAt Cert.Spec.tv
  rw [hs, h1]
  show _ = Cert.Spec.cen (Cert.Spec.samp (Yk m c) (⟨(idx 0).val, lt_trans (idx3_lt0 idx) (by norm_num)⟩ : Fin 16800)) (tek m c)
      (⟨(idx 1).val, idx3_lt1 idx⟩ : Fin 64) (⟨(idx 2).val, idx3_lt2 idx⟩ : Fin 64)
    * Cert.Spec.mask (⟨(idx 1).val, idx3_lt1 idx⟩ : Fin 64) (⟨(idx 2).val, idx3_lt2 idx⟩ : Fin 64)
  rw [r0, r1, r2]

/-- What point t writes back is block t of the pooled array. -/
theorem flushed_pool (c : Dev nD) (t : Fin cfg0.N) :
    (dat0 (V1 m ρ) c).flushed 2 t = ((cfg0.win 2).blk t).view.read (Elt Ideal) (poolArr m c) := by
  show (cfg0.win 2).cut (grid0.coords t) ((dat0 (V1 m ρ) c).after 2 t) = _
  rw [after0_2]
  have hN : cfg0.N = 8 := N_0
  have ht : t.val < 8 := by have := t.isLt; omega
  obtain ⟨-, -, -, -, -, e5, e6, e7⟩ := index_facts t
  funext y
  show out0_2 (F := Ideal) (iblk0 (V1 m ρ) c 0 t) (iblk0 (V1 m ρ) c 1 t) y = poolArr m c (((cfg0.win 2).blk t).view.emb y)
  refine pool_entry m c (iblk0 (V1 m ρ) c 0 t) (iblk0 (V1 m ρ) c 1 t) t.val ht (fun b hb i k => ?_) ?_ y _ ?_ ?_ ?_
  · have hr : 100 * t.val + b.val < 800 := by have := b.isLt; omega
    refine (sample_block_apply (V1 m ρ) c t (ix3 b i k) (ix3 (⟨100 * t.val + b.val, hr⟩ : Fin 800) i k) rfl rfl rfl).trans ?_
    exact support_rows m ρ c ⟨100 * t.val + b.val, hr⟩ hb i k
  · exact (temp_block_apply (V1 m ρ) c t (ix2 0 0)).trans (congrFun (temp_entry m ρ c) (ix2 0 0))
  · show win0_2.index t (0 : Fin 3) * 100 + 1 * (y 0).val = 100 * t.val + (y 0).val; rw [e5]; omega
  · show win0_2.index t (1 : Fin 3) * 64 + 1 * (y 1).val = (y 1).val; rw [e6]; omega
  · show win0_2.index t (2 : Fin 3) * 64 + 1 * (y 2).val = (y 2).val; rw [e7]; omega

/-- An index of the pooled array is in point t's block iff each coordinate is in the block's range on its axis. -/
theorem mem_pool_blk (t : Fin cfg0.N) (i : S800x64x64.Idx) :
    i ∈ ((cfg0.win 2).blk t).view.set ↔ ∀ a : Fin 3, win0_2.index t a * S100x64x64.size a ≤ (i a).val
      ∧ (i a).val < win0_2.index t a * S100x64x64.size a + S100x64x64.size a := by
  show i ∈ ((View.whole main_v3).slice (win0_2.rect t)).set ↔ _
  rw [View.set_slice_whole, Rect.mem_set_unit]
  exact Iff.rfl

/-- Row r of the pooled array is in the block of point r / 100. -/
theorem pool_cover (i : S800x64x64.Idx) : ∃ t : Fin cfg0.N, (cfg0.win 2).flush t = true ∧ i ∈ ((cfg0.win 2).blk t).view.set := by
  have hN : cfg0.N = 8 := N_0
  have hi0 := idx3_lt0 i
  have hi1 := idx3_lt1 i
  have hi2 := idx3_lt2 i
  have hq : (i 0).val / 100 < cfg0.N := by omega
  obtain ⟨-, -, -, -, -, e5, e6, e7⟩ := index_facts ⟨(i 0).val / 100, hq⟩
  have e5' : win0_2.index ⟨(i 0).val / 100, hq⟩ (0 : Fin 3) = (i 0).val / 100 := e5
  refine ⟨⟨(i 0).val / 100, hq⟩, flush0_2 _, ?_⟩
  rw [mem_pool_blk]
  intro a
  match a with
  | ⟨0, _⟩ =>
    show win0_2.index ⟨(i 0).val / 100, hq⟩ (0 : Fin 3) * 100 ≤ (i 0).val
      ∧ (i 0).val < win0_2.index ⟨(i 0).val / 100, hq⟩ (0 : Fin 3) * 100 + 100
    rw [e5']; omega
  | ⟨1, _⟩ =>
    show win0_2.index ⟨(i 0).val / 100, hq⟩ (1 : Fin 3) * 64 ≤ (i 1).val
      ∧ (i 1).val < win0_2.index ⟨(i 0).val / 100, hq⟩ (1 : Fin 3) * 64 + 64
    rw [e6]; omega
  | ⟨2, _⟩ =>
    show win0_2.index ⟨(i 0).val / 100, hq⟩ (2 : Fin 3) * 64 ≤ (i 2).val
      ∧ (i 2).val < win0_2.index ⟨(i 0).val / 100, hq⟩ (2 : Fin 3) * 64 + 64
    rw [e7]; omega

/-- The pooled array after the region. -/
theorem pool_array (c : Dev nD) :
    (W2 m ρ c (Proc.devRef .tc main_v3) : FVec Ideal S800x64x64 .f32) = poolArr m c :=
  (W2_arr m ρ c 2).trans
    ((dat0 (V1 m ρ) c).arrAt_eq_of_cover 2 (poolArr m c) (fun t _ => flushed_pool m ρ c t) pool_cover)

/-! ## The class means and their squared norms, from a pooled array whose entries are masked centred matrices -/

section Means
variable (x3 : FVec Ideal S800x64x64 .f32) (Y : (⟨3, ![16800, 64, 49]⟩ : Shape).Idx → EReal) (te : EReal)

/-- Row 80·cls + l of the 800 rows is entry (cls, l) of the rows regrouped as 10 classes of 80. -/
theorem regroup_apply (h : S10x80x64x64.Reduces [1] S10x64x64) (cls : Fin 10) (l : Fin 80) (i j : Fin 64)
    (hr : 80 * cls.val + l.val < 800) :
    shapeCast S10x80x64x64 x3 shapeCasts_S800x64x64_S10x80x64x64 (h.lift (ix3 cls i j) l)
      = x3 (ix3 (⟨80 * cls.val + l.val, hr⟩ : Fin 800) i j) := by
  refine shapeCast_apply x3 _ _ _ ?_
  rw [Shape.rowMajor_val_three, Shape.rowMajor_val_four]
  show ((80 * cls.val + l.val) * 64 + i.val) * 64 + j.val = ((cls.val * 80 + l.val) * 64 + i.val) * 64 + j.val
  omega

/-- The class mean at (cls, i, j) is the zero word plus the 80 rows of the class, divided by the literal 80. -/
theorem protoOf_apply (cls : Fin 10) (i j : Fin 64) :
    protoOf x3 (ix3 cls i j)
      = Ideal.div (Cert.Spec.c0 + ∑ l : Fin 80, x3 (ix3 (⟨80 * cls.val + l.val, by have := cls.isLt; have := l.isLt; omega⟩ : Fin 800) i j))
          Cert.Spec.c80 := by
  have hred : S10x80x64x64.Reduces [1] S10x64x64 := by decide
  unfold protoOf
  refine (hostDivf_apply _ _ _).trans ?_
  rw [broadcastInDim_scalar_apply, hostReduceAdd_apply]
  refine congrArg (fun z => Ideal.div z Cert.Spec.c80) ?_
  refine (Ideal.hostReduceAdd_single reducesTo_S10x80x64x64_S10x64x64_d1 hred _ _ (ix3 cls i j)).trans ?_
  refine congrArg (fun z => Cert.Spec.c0 + z) ?_
  exact Finset.sum_congr rfl fun l _ => regroup_apply x3 hred cls l i j _

variable (hx : ∀ (r : Fin 800) (hr : r.val < 16800) (i j : Fin 64),
  x3 (ix3 r i j) = Cert.Spec.tv Y te (⟨r.val, hr⟩ : Fin 16800) i j * Cert.Spec.mask i j)
include hx

/-- The class mean is the specification's prototype times the indicator of i ≤ j. -/
theorem protoOf_eq (cls : Fin 10) (i j : Fin 64) :
    protoOf x3 (ix3 cls i j) = Cert.Spec.sup Y te cls i j * Cert.Spec.mask i j := by
  rw [protoOf_apply]
  have hsum : ∑ l : Fin 80, x3 (ix3 (⟨80 * cls.val + l.val, by have := cls.isLt; have := l.isLt; omega⟩ : Fin 800) i j)
      = ∑ l : Fin 80, Cert.Spec.tv Y te (Cert.Spec.supRow cls l) i j * Cert.Spec.mask i j :=
    Finset.sum_congr rfl fun l _ => hx _ _ i j
  rw [hsum]
  show Ideal.div (Ideal.ofBits .f32 0x00000000#32 + _) _ = _
  rw [Ideal.ofBits_zero_f32, zero_add]
  unfold Cert.Spec.mask
  split_ifs with hij
  · simp only [mul_one]
    rfl
  · simp only [mul_zero, Finset.sum_const_zero]
    exact Ideal.zero_div c80_ne_zero

/-- The squared norm handed on is the specification's sum over the triangle. -/
theorem normOf_eq (cls : Fin 10) : normOf x3 (ix2 0 cls) = Cert.Spec.s2 Y te cls := by
  have hred : S10x64x64.Reduces [1, 2] S10 := by decide
  unfold normOf
  refine (broadcastInDim_apply _ _ _ (ix2 0 cls) (ix1 cls) fun a => ?_).trans ?_
  · match a with
    | ⟨0, _⟩ => rfl
  rw [hostReduceAdd_apply]
  refine (Cert.LibSums.hostReduceAdd_12 reducesTo_S10x64x64_S10_d1_2 hred _ _ (ix1 cls)).trans ?_
  show Ideal.ofBits .f32 0x00000000#32 + _ = _
  rw [Ideal.ofBits_zero_f32, zero_add]
  have hterm : ∀ p q : Fin 64, mulf (protoOf x3) (protoOf x3) (ix3 cls p q)
      = if p ≤ q then Cert.Spec.sup Y te cls p q * Cert.Spec.sup Y te cls p q else 0 := by
    intro p q
    rw [mulf_apply, protoOf_eq x3 Y te hx cls p q]
    unfold Cert.Spec.mask
    split_ifs with hpq
    · simp only [mul_one]
    · simp only [mul_zero]
  show ∑ p : Fin 64, ∑ q : Fin 64, mulf (protoOf x3) (protoOf x3) (ix3 cls p q) = _
  rw [Finset.sum_congr rfl fun p _ => Finset.sum_congr rfl fun q _ => hterm p q]
  rw [Cert.LibSums.sum_sum_ite_le]
  rfl

end Means

/-- The pooled array after the region, entry by entry. -/
theorem pool_rows (c : Dev nD) (r : Fin 800) (hr : r.val < 16800) (i j : Fin 64) :
    (W2 m ρ c (Proc.devRef .tc main_v3) : FVec Ideal S800x64x64 .f32) (ix3 r i j)
      = Cert.Spec.tv (Yk m c) (tek m c) (⟨r.val, hr⟩ : Fin 16800) i j * Cert.Spec.mask i j :=
  (congrFun (pool_array m ρ c) (ix3 r i j)).trans rfl

/-- At the second region's entry: the query samples, the temperature, the masked prototypes, the prototypes' squared norms. -/
theorem entry1_v2 (c : Dev nD) (q : Fin 16000) (i : Fin 64) (k : Fin 49) :
    (V3 m ρ c main_v2 : FVec Ideal S16000x64x49 .f32) (ix3 q i k) = Yk m c (ix3 (Cert.Spec.qRow q) i k) := by
  refine (congrFun ((host1_v2 (W2 m ρ c)).trans ((W2_of_ne m ρ c main_v2 (by decide)).trans (host0_v2 (W0 m ρ c))))
    (ix3 q i k)).trans ?_
  refine extractStridedSlice_apply _ _ _ _ _ fun a => ?_
  match a with
  | ⟨0, _⟩ => show 800 + q.val = 800 + q.val; rfl
  | ⟨1, _⟩ => show i.val = 0 + i.val; omega
  | ⟨2, _⟩ => show k.val = 0 + k.val; omega
theorem entry1_arg1 (c : Dev nD) : V3 m ρ c main_arg1 = m ((c.tc : Thread nD τ).loc main_arg1) := by
  exact (host1_arg1 (W2 m ρ c)).trans ((W2_arr m ρ c 1).trans
    ((((dat0 (V1 m ρ) c).arrAt_in 1 rfl _).trans (A_eq0 (V1 m ρ) c 1)).trans (temp_entry m ρ c)))
theorem entry1_v7 (c : Dev nD) (cls : Fin 10) (i j : Fin 64) :
    (V3 m ρ c main_v7 : FVec Ideal S10x64x64 .f32) (ix3 cls i j) = Cert.Spec.sup (Yk m c) (tek m c) cls i j * Cert.Spec.mask i j := by
  refine (congrFun (host1_v7 (W2 m ρ c)) (ix3 cls i j)).trans ?_
  exact protoOf_eq _ (Yk m c) (tek m c) (pool_rows m ρ c) cls i j
theorem entry1_v10 (c : Dev nD) (cls : Fin 10) :
    (V3 m ρ c main_v10 : FVec Ideal S1x10 .f32) (ix2 0 cls) = Cert.Spec.s2 (Yk m c) (tek m c) cls := by
  refine (congrFun (host1_v10 (W2 m ρ c)) (ix2 0 cls)).trans ?_
  exact normOf_eq _ (Yk m c) (tek m c) (pool_rows m ρ c) cls

end Cert.KernelIdeal.Val

end
-- ==== Proof.SpecTail.lean ====
/-
  The loss both programs compute from the score array and the labels, by the same chain of host operations:
  a log-softmax along the 10 classes (subtract the row maximum, exponentiate, sum, take the logarithm, subtract), then
  for each query the entry at its label — a negative label wrapped by adding 10, an out-of-range one answered by the
  fill word — then minus the mean over the 16000 queries.  It is stated once, for any float instance, and never opened:
  the two programs apply it to scores that are proved equal.
-/
import Idealize.ShloMosaic.PureOps.Ideal

noncomputable section

namespace Cert.Spec

open Idealize.ShloMosaic

variable {F : FTy → Type} [FloatOps F]

abbrev T_ : Shape := ⟨0, ![]⟩
abbrev T1 : Shape := ⟨1, ![1]⟩
abbrev T1x1x1 : Shape := ⟨3, ![1, 1, 1]⟩
abbrev T16000 : Shape := ⟨1, ![16000]⟩
abbrev T16000x1 : Shape := ⟨2, ![16000, 1]⟩
abbrev T16000x1x1 : Shape := ⟨3, ![16000, 1, 1]⟩
abbrev T16000x10 : Shape := ⟨2, ![16000, 10]⟩

/-- Row-wise log-softmax of the score array. -/
def logSoftmax (s : FVec F T16000x10 .f32) : FVec F T16000x10 .f32 :=
  let mx : FVec F T16000 .f32 :=
    maximumf (broadcastInDim T16000 ![] (by decide) (constant T_ .f32 0xFF800000#32))
      (Host.reduce FloatOps.maximumf s (constant T_ .f32 0xFF800000#32) (by decide : T16000x10.ReducesTo [1] T16000) (by decide))
  let sh : FVec F T16000x10 .f32 :=
    subf s (broadcastInDim T16000x10 ![0, 1] (by decide) (broadcastInDim T16000x1 ![0] (by decide) mx))
  subf sh (broadcastInDim T16000x10 ![0, 1] (by decide)
    (Host.log (broadcastInDim T16000x1 ![0] (by decide)
      (Host.reduceAdd (Host.exp sh) (constant T_ .f32 0x00000000#32) (by decide : T16000x10.ReducesTo [1] T16000) (by decide)))))

/-- The dimension numbers of "the entry of row r at column idx[r]". -/
def pickDims : GatherDims T16000x10 T16000x1x1 T16000x1 where
  offsetDims := []
  collapsedSliceDims := [1]
  operandBatchingDims := [0]
  startIndicesBatchingDims := [0]
  startIndexMap := [1]
  indexVectorDim := 2
  sliceSizes := ![1, 1]

/-- Each row's entry at its label: a negative label first wrapped by adding 10; where the wrapped label is not within
    0 … 9 the fill word stands instead. -/
def pickLabel (lp : FVec F T16000x10 .f32) (l : IVec T16000 32) : FVec F T16000x1 .f32 :=
  let l1 : IVec T16000x1 32 := broadcastInDim T16000x1 ![0] (by decide) l
  let l2 : IVec T16000x1 32 :=
    select (cmpi .slt l1 (broadcastInDim T16000x1 ![] (by decide) (constantI T_ 32 0#32)))
      (addi l1 (broadcastInDim T16000x1 ![] (by decide) (constantI T_ 32 10#32))) l1
  let l3 : IVec T16000x1x1 32 := shapeCast T16000x1x1 l2 (by decide)
  let ok : IVec T16000x1 1 :=
    Host.reduce IntOp.andi
      (andi (cmpi .sge l3 (broadcastInDim T16000x1x1 ![] (by decide) (constantI T_ 32 0#32)))
        (cmpi .sle l3 (broadcastInDim T16000x1x1 ![0, 1, 2] (by decide) (broadcastInDim T1x1x1 ![2] (by decide) (constantI T1 32 9#32)))))
      (constantI T_ 1 1#1) (by decide : T16000x1x1.ReducesTo [2] T16000x1) (by decide)
  select ok (Host.gather pickDims lp l3) (broadcastInDim T16000x1 ![] (by decide) (constant T_ .f32 0x7FC00000#32))

/-- The loss: minus the mean over the queries of the log-probability of each query's label. -/
def tail (s : FVec F T16000x10 .f32) (l : IVec T16000 32) : FVec F T_ .f32 :=
  Host.negf (Host.divf
    (Host.reduceAdd (pickLabel (logSoftmax s) l) (constant T_ .f32 0x00000000#32) (by decide : T16000x1.ReducesTo [0, 1] T_) (by decide))
    (constant T_ .f32 0x467A0000#32))

end Cert.Spec

end
-- ==== Proof.KTail.lean ====
/-
  The loss chain the host runs after the scoring region: a log-softmax of the score array, the pick of each query's
  label entry, minus the mean.  Read over ANY buffer contents it starts from: what it leaves in the loss buffer is the
  shared loss of the score buffer and the label buffer it started from, and it writes neither of those two buffers.
  The reductions and the gather are never opened: both sides apply the same operations to the same values.
-/
import proofs.«426365_j31061203484793_1_alg».proof.Proof.SpecTail
import proofs.«426365_j31061203484793_1_alg».proof.Proof.Gen.KernelIdeal.Frame
import Idealize.ShloMosaic.Lib.ValueIdx
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

attribute [local irreducible] Host.reduce Host.reduceAdd Host.gather in
/-- The loss chain (the log-softmax, the label pick, minus the mean), started from ANY buffer contents `X`: what it
    leaves in the loss buffer is the shared loss of `X`'s score buffer and `X`'s label buffer. -/
theorem tail_read (X : Valuation τ sig (Elt Ideal)) :
    (StableHlo.after (hostOps2_3 (F := Ideal)) (StableHlo.after hostOps2_2 (StableHlo.after hostOps2_1 (StableHlo.after hostOps2 X)))
        (Proc.devRef .tc main_v17) : FVec Ideal S_ .f32)
      = Cert.Spec.tail (F := Ideal) (X (Proc.devRef .tc main_v11)) (X (Proc.devRef .tc main_arg2)) := by
  after_results_simp
  rfl

/-- No operation of the loss chain writes the score buffer. -/
theorem tail_keep_v11 (X : Valuation τ sig (Elt Ideal)) :
    StableHlo.after (hostOps2_3 (F := Ideal)) (StableHlo.after hostOps2_2 (StableHlo.after hostOps2_1 (StableHlo.after hostOps2 X)))
        (Proc.devRef .tc main_v11) = X (Proc.devRef .tc main_v11) := by
  after_results_simp

/-- Nor the label buffer. -/
theorem tail_keep_arg2 (X : Valuation τ sig (Elt Ideal)) :
    StableHlo.after (hostOps2_3 (F := Ideal)) (StableHlo.after hostOps2_2 (StableHlo.after hostOps2_1 (StableHlo.after hostOps2 X)))
        (Proc.devRef .tc main_arg2) = X (Proc.devRef .tc main_arg2) := by
  after_results_simp

end Cert.KernelIdeal.Val

end
-- ==== Proof.KScore.lean ====
/-
  The kernel program's results.  The scoring region writes, block by block of 400 queries, zero minus the expanded
  squared distance between each query's masked centred matrix and each class's masked prototype, the sums running over
  all 64·64 entries; the masked products vanish below the diagonal, so those sums are the specification's sums over the
  triangle and the score array is the specification's.  The host then applies the shared loss to the score and the
  labels; nothing after the region writes the score.
-/
import proofs.«426365_j31061203484793_1_alg».proof.Proof.KSupport
import proofs.«426365_j31061203484793_1_alg».proof.Proof.KBlocks
import proofs.«426365_j31061203484793_1_alg».proof.Proof.KTail
import proofs.«426365_j31061203484793_1_alg».proof.Proof.SpecTail
import proofs.«426365_j31061203484793_1_alg».proof.Proof.Gen.KernelIdeal.Frame
import proofs.«426365_j31061203484793_1_alg».proof.Proof.Spec
import proofs.«426365_j31061203484793_1_alg».proof.Proof.LibSums
import Idealize.ShloMosaic.Lib.IdealHost
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

/-! ## One entry of a scoring block -/

/-- A product of two masked entries: the plain product on or above the diagonal, zero below it. -/
theorem masked_mul (a b : EReal) (i j : Fin 64) :
    (a * Cert.Spec.mask i j) * (b * Cert.Spec.mask i j) = if i ≤ j then a * b else 0 := by
  unfold Cert.Spec.mask
  split_ifs
  · rw [mul_one, mul_one]
  · rw [mul_zero, zero_mul]

/-- One entry of a scoring block, from what the block's four inputs hold: if the block's sample `b` is the episode's
    query `q`, the temperature block exponentiates to the scale, class `cls`'s slice of the prototype array is the masked
    prototype and its squared norm is the triangle's, then the entry is the specification's score of `q` against `cls`.
    The two double sums over the full square have summands that vanish below the diagonal, so they are the sums over the
    triangle; zero minus the expanded squared distance is its negative. -/
theorem point_score (Y : (⟨3, ![16800, 64, 49]⟩ : Shape).Idx → EReal) (te : EReal)
    (x0 : Vec Ideal S400x64x49 .f32) (x1 : Vec Ideal S1x1 .f32) (x2 : Vec Ideal S10x64x64 .f32) (x3 : Vec Ideal S1x10 .f32)
    (q : Fin 16000) (b : Fin 400) (cls : Fin 10)
    (h0 : ∀ (i : Fin 64) (k : Fin 49), x0 (ix3 b i k) = Y (ix3 (Cert.Spec.qRow q) i k))
    (h1 : Ideal.exp (x1 (ix2 0 0)) = te)
    (h2 : ∀ i j : Fin 64, x2 (ix3 cls i j) = Cert.Spec.sup Y te cls i j * Cert.Spec.mask i j)
    (h3 : x3 (ix2 0 cls) = Cert.Spec.s2 Y te cls) :
    out1_4 (F := Ideal) x0 x1 x2 x3 (ix2 b cls) = Cert.Spec.score Y te q cls := by
  have hs : (fun (i : Fin 64) (k : Fin 49) => x0 (ix3 b i k)) = Cert.Spec.samp Y (Cert.Spec.qRow q) := by
    funext i k; exact h0 i k
  have hcm : ∀ i j : Fin 64,
      cmOf400 x0 x1 b i j = Cert.Spec.tv Y te (Cert.Spec.qRow q) i j * Cert.Spec.mask i j := by
    intro i j
    unfold cmOf400 Cert.Spec.tv
    rw [h1, hs]
  have e1 : (∑ i : Fin 64, ∑ j : Fin 64, if i ≤ j then
        Cert.Spec.tv Y te (Cert.Spec.qRow q) i j * Cert.Spec.tv Y te (Cert.Spec.qRow q) i j else 0)
      = Cert.Spec.q2 Y te q :=
    Cert.LibSums.sum_sum_ite_le fun i j => Cert.Spec.tv Y te (Cert.Spec.qRow q) i j * Cert.Spec.tv Y te (Cert.Spec.qRow q) i j
  have e2 : (∑ i : Fin 64, ∑ j : Fin 64, if i ≤ j then
        Cert.Spec.tv Y te (Cert.Spec.qRow q) i j * Cert.Spec.sup Y te cls i j else 0)
      = Cert.Spec.cross Y te q cls :=
    Cert.LibSums.sum_sum_ite_le fun i j => Cert.Spec.tv Y te (Cert.Spec.qRow q) i j * Cert.Spec.sup Y te cls i j
  rw [score_block]
  simp only [hcm, h2, h3, masked_mul]
  rw [e1, e2]
  unfold Cert.Spec.score
  rw [show Cert.Spec.c0 = 0 from Ideal.ofBits_zero_f32, zero_sub]

/-! ## The scoring region: from its 40 blocks to the score array -/

/-- The printed index maps, decided over the grid's 40 points: the query window and the score window are at block
    index `t` along the sample axis and 0 elsewhere; the temperature, prototype and norm windows are whole arrays, at
    block 0 on every axis. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section BlockReads

-- The region's entry contents, as a parameter.
variable (V : (c : Dev nD) → (b : Ref sig .tc) → Buf (Elt Ideal) ((c : Thread nD τ).loc b))

/-- The query window's block at point `t`, at (b, i, k), is row 400·t + b of the query array. -/
theorem blk0_apply (c : Dev nD) (t : Fin cfg1.N) (b : Fin 400) (i : Fin 64) (k : Fin 49)
    (hq : 400 * t.val + b.val < 16000) :
    (iblk1 V c 0 t : Vec Ideal S400x64x49 .f32) (ix3 b i k)
      = (V c main_v2 : S16000x64x49.Idx → Elt Ideal .f32) (ix3 ⟨400 * t.val + b.val, hq⟩ i k) := by
  obtain ⟨e0, e1, e2, -⟩ := idx_facts1 t
  unfold iblk1
  rw [View.read_apply]
  show V c main_v2 _ = V c main_v2 _
  congr 1
  funext a
  apply Fin.ext
  match a with
  | ⟨0, _⟩ => show win1_0.index t (0 : Fin 3) * 400 + 1 * b.val = 400 * t.val + b.val; omega
  | ⟨1, _⟩ => show win1_0.index t (1 : Fin 3) * 64 + 1 * i.val = i.val; omega
  | ⟨2, _⟩ => show win1_0.index t (2 : Fin 3) * 49 + 1 * k.val = k.val; omega

/-- The temperature window's block is the temperature array. -/
theorem blk1_apply (c : Dev nD) (t : Fin cfg1.N) :
    (iblk1 V c 1 t : Vec Ideal S1x1 .f32) (ix2 0 0) = (V c main_arg1 : S1x1.Idx → Elt Ideal .f32) (ix2 0 0) := by
  obtain ⟨-, -, -, e0, e1, -⟩ := idx_facts1 t
  unfold iblk1
  rw [View.read_apply]
  show V c main_arg1 _ = V c main_arg1 _
  congr 1
  funext a
  apply Fin.ext
  match a with
  | ⟨0, _⟩ => show win1_1.index t (0 : Fin 2) * 1 + 1 * 0 = 0; omega
  | ⟨1, _⟩ => show win1_1.index t (1 : Fin 2) * 1 + 1 * 0 = 0; omega

/-- The prototype window's block is the prototype array. -/
theorem blk2_apply (c : Dev nD) (t : Fin cfg1.N) (cls : Fin 10) (i j : Fin 64) :
    (iblk1 V c 2 t : Vec Ideal S10x64x64 .f32) (ix3 cls i j)
      = (V c main_v7 : S10x64x64.Idx → Elt Ideal .f32) (ix3 cls i j) := by
  obtain ⟨-, -, -, -, -, e0, e1, e2, -⟩ := idx_facts1 t
  unfold iblk1
  rw [View.read_apply]
  show V c main_v7 _ = V c main_v7 _
  congr 1
  funext a
  apply Fin.ext
  match a with
  | ⟨0, _⟩ => show win1_2.index t (0 : Fin 3) * 10 + 1 * cls.val = cls.val; omega
  | ⟨1, _⟩ => show win1_2.index t (1 : Fin 3) * 64 + 1 * i.val = i.val; omega
  | ⟨2, _⟩ => show win1_2.index t (2 : Fin 3) * 64 + 1 * j.val = j.val; omega

/-- The norm window's block is the norm array. -/
theorem blk3_apply (c : Dev nD) (t : Fin cfg1.N) (cls : Fin 10) :
    (iblk1 V c 3 t : Vec Ideal S1x10 .f32) (ix2 0 cls) = (V c main_v10 : S1x10.Idx → Elt Ideal .f32) (ix2 0 cls) := by
  obtain ⟨-, -, -, -, -, -, -, -, e0, e1, -⟩ := idx_facts1 t
  unfold iblk1
  rw [View.read_apply]
  show V c main_v10 _ = V c main_v10 _
  congr 1
  funext a
  apply Fin.ext
  match a with
  | ⟨0, _⟩ => show win1_3.index t (0 : Fin 2) * 1 + 1 * 0 = 0; omega
  | ⟨1, _⟩ => show win1_3.index t (1 : Fin 2) * 10 + 1 * cls.val = cls.val; omega

end BlockReads

/-- Entry (b, cls) of the score window's block at point `t` sits at row 400·t + b, column cls of the score array. -/
theorem emb4 (t : Fin cfg1.N) (b : Fin 400) (cls : Fin 10) (hq : 400 * t.val + b.val < 16000) :
    ((cfg1.win 4).blk t).view.emb (ix2 b cls) = (ix2 ⟨400 * t.val + b.val, hq⟩ cls : S16000x10.Idx) := by
  obtain ⟨-, -, -, -, -, -, -, -, -, -, e0, e1⟩ := idx_facts1 t
  funext a
  apply Fin.ext
  match a with
  | ⟨0, _⟩ => show win1_4.index t (0 : Fin 2) * 400 + 1 * b.val = 400 * t.val + b.val; omega
  | ⟨1, _⟩ => show win1_4.index t (1 : Fin 2) * 10 + 1 * cls.val = cls.val; omega

/-- An index of the score array is in point `t`'s block iff each coordinate is in the block's range on its axis. -/
theorem mem_blk4 (t : Fin cfg1.N) (i : S16000x10.Idx) :
    i ∈ ((cfg1.win 4).blk t).view.set
      ↔ ∀ a : Fin 2, win1_4.index t a * S400x10.size a ≤ (i a).val
          ∧ (i a).val < win1_4.index t a * S400x10.size a + S400x10.size a := by
  show i ∈ ((View.whole main_v11).slice (win1_4.rect t)).set ↔ _
  rw [View.set_slice_whole, Rect.mem_set_unit]
  exact Iff.rfl

/-- Every entry of the score array is in some point's block: row r is in the block of point r / 400. -/
theorem cover4 (i : S16000x10.Idx) :
    ∃ t : Fin cfg1.N, (cfg1.win 4).flush t = true ∧ i ∈ ((cfg1.win 4).blk t).view.set := by
  have h0 : (i 0).val < 16000 := (i 0).isLt
  have h1 : (i 1).val < 10 := (i 1).isLt
  have hN : cfg1.N = 40 := N_1
  obtain ⟨t, ht⟩ : ∃ t : Fin cfg1.N, t.val = (i 0).val / 400 := ⟨⟨(i 0).val / 400, by rw [hN]; omega⟩, rfl⟩
  obtain ⟨-, -, -, -, -, -, -, -, -, -, e0, e1⟩ := idx_facts1 t
  refine ⟨t, flush1_4 t, ?_⟩
  rw [mem_blk4]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 10 ≤ (i 1).val ∧ (i 1).val < win1_4.index t (1 : Fin 2) * 10 + 10
    omega

variable (m : (ℓ : Loc nD τ sig) → Buf (Elt Ideal) ℓ) (ρ : Dev nD → PrngReg)

/-- What point `t` writes back to the score array is block `t` of the specification's score array: entry (b, cls) of
    the block is the body's result from the point's four input blocks, those are the query row 400·t + b, the
    temperature, the masked prototypes and their squared norms, and the entry sits at row 400·t + b. -/
theorem flushed4_eq (c : Dev nD) (t : Fin cfg1.N) :
    (dat1 (V3 m ρ) c).flushed 4 t
      = ((cfg1.win 4).blk t).view.read (Elt Ideal)
          (Cert.Spec.scoreOf (m ((c.tc : Thread nD τ).loc main_arg0)) (m ((c.tc : Thread nD τ).loc main_arg1))) := by
  show (cfg1.win 4).cut (grid1.coords t) ((dat1 (V3 m ρ) c).after 4 t) = _
  rw [after1_4]
  funext j
  obtain ⟨b, cls, rfl⟩ : ∃ (b : Fin 400) (cls : Fin 10), j = ix2 b cls :=
    ⟨j 0, j 1, eq_ix2 (n0 := 400) (n1 := 10) j⟩
  have ht : t.val < 40 := t.isLt.trans_eq N_1
  have hq : 400 * t.val + b.val < 16000 := by have := b.isLt; omega
  rw [View.read_apply]
  show out1_4 (iblk1 (V3 m ρ) c 0 t) (iblk1 (V3 m ρ) c 1 t) (iblk1 (V3 m ρ) c 2 t) (iblk1 (V3 m ρ) c 3 t) (ix2 b cls)
      = Cert.Spec.scoreOf (m ((c.tc : Thread nD τ).loc main_arg0)) (m ((c.tc : Thread nD τ).loc main_arg1))
          (((cfg1.win 4).blk t).view.emb (ix2 b cls))
  rw [emb4 t b cls hq]
  refine (point_score (Yk m c) (tek m c) (iblk1 (V3 m ρ) c 0 t) (iblk1 (V3 m ρ) c 1 t) (iblk1 (V3 m ρ) c 2 t)
    (iblk1 (V3 m ρ) c 3 t) ⟨400 * t.val + b.val, hq⟩ b cls ?_ ?_ ?_ ?_).trans ?_
  · intro i k
    rw [blk0_apply (V3 m ρ) c t b i k hq]
    exact entry1_v2 m ρ c ⟨400 * t.val + b.val, hq⟩ i k
  · rw [blk1_apply (V3 m ρ) c t, entry1_arg1 m ρ c]
  · intro i j
    rw [blk2_apply (V3 m ρ) c t cls i j]
    exact entry1_v7 m ρ c cls i j
  · rw [blk3_apply (V3 m ρ) c t cls]
    exact entry1_v10 m ρ c cls
  · rfl

/-- The score array when the scoring region ends is the specification's: its 40 blocks tile it. -/
theorem score_arr (c : Dev nD) :
    (W4 m ρ c (Proc.devRef .tc main_v11) : FVec Ideal S16000x10 .f32)
      = Cert.Spec.scoreOf (m ((c.tc : Thread nD τ).loc main_arg0)) (m ((c.tc : Thread nD τ).loc main_arg1)) :=
  (W4_arr m ρ c 4).trans
    ((dat1 (V3 m ρ) c).arrAt_eq_of_cover 4 _ (fun t _ => flushed4_eq m ρ c t) fun i => cover4 i)

/-! ## The loss chain leaves the labels alone -/

/-- No operation of the loss chain (the log-softmax, the label pick, the mean) writes the label buffer: started from any
    buffer contents `X`, the chain ends with the label buffer as `X` has it. -/
theorem loss_chain_keeps_labels (X : Valuation τ sig (Elt Ideal)) :
    StableHlo.after (hostOps2_3 (F := Ideal)) (StableHlo.after hostOps2_2 (StableHlo.after hostOps2_1 (StableHlo.after hostOps2 X)))
        (Proc.devRef .tc main_arg2) = X (Proc.devRef .tc main_arg2) := by
  after_results_simp

/-! ## The results -/

/-- The label buffer when the scoring region ends is the launch's: the loss chain after it does not write it, and at
    the end of the run the label buffer is the launch's. -/
theorem labels_at_exit (c : Dev nD) :
    W4 m ρ c (Proc.devRef .tc main_arg2) = m ((c.tc : Thread nD τ).loc main_arg2) := by
  rw [← loss_chain_keeps_labels (W4 m ρ c)]
  exact W8_main_arg2 m ρ c

/-- The score the kernel program leaves is the specification's. -/
theorem score_eq (c : Dev nD) :
    (W8 m ρ c (Proc.devRef .tc main_v11) : FVec Ideal S16000x10 .f32)
      = Cert.Spec.scoreOf (m ((c.tc : Thread nD τ).loc main_arg0)) (m ((c.tc : Thread nD τ).loc main_arg1)) := by
  dsimp only [W8, W7, W6, W5]
  rw [tail_keep_v11]
  exact score_arr m ρ c

/-- The loss it leaves is the shared loss of that score and the labels. -/
theorem loss_eq (c : Dev nD) :
    (W8 m ρ c (Proc.devRef .tc main_v17) : FVec Ideal S_ .f32)
      = Cert.Spec.tail (F := Ideal) (W8 m ρ c (Proc.devRef .tc main_v11)) (m ((c.tc : Thread nD τ).loc main_arg2)) := by
  dsimp only [W8, W7, W6, W5]
  rw [tail_read, tail_keep_v11, labels_at_exit]

end Cert.KernelIdeal.Val

end
-- ==== Proof.RefOps.lean ====
/- The reference program's @main as four consecutive lists of its host operations: up to the centred distance matrices,
   the gather of their upper triangles, the score, and the log-softmax loss; the called functions' operations stand at
   their call sites over each call's buffer record. The module that imports this one checks the table against the printed program. -/
import proofs.«426365_j31061203484793_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- 71 operations. -/
abbrev opsA : List (HloOp τ sig (Elt F)) :=
  [ StableHlo.nullary main_c (fun i => lit0 (S2080.rowMajor i)),
    StableHlo.nullary main_c_0 (constantI S2080 1 0#1),
    StableHlo.nullary main_c_1 (fun i => lit1 (S2080.rowMajor i)),
    StableHlo.nullary main_c_2 (constantI S2080 1 0#1),
    StableHlo.reshape main_arg0 main_v0 rfl shapeCasts_S16800x64x7x7_S16800x64x49,
    StableHlo.binary main_v0 main_v0 main_v1 ((fun l r => Host.dotGeneral dot_S16800x64x49_S16800x64x49_S16800x64x64_2_2_1_1_0_0 none l r) : (⟨S16800x64x49, .f32⟩ : BufTy).Contents (Elt F) → (⟨S16800x64x49, .f32⟩ : BufTy).Contents (Elt F) → (⟨S16800x64x64, .f32⟩ : BufTy).Contents (Elt F)),
    StableHlo.TRef.nullary main_call0.v0 (iotaInDim S64 32 0),
    StableHlo.TRef.nullary main_call0.v1 (iotaInDim S64 32 0),
    StableHlo.TRef.nullary main_call0.c (constantI S_ 32 0#32),
    StableHlo.TRef.unary main_call0.c main_call0.v2 (broadcastInDim S64 ![] bcast_S_S64),
    StableHlo.TRef.binary main_call0.v0 main_call0.v2 main_call0.v3 (cmpi .slt),
    StableHlo.TRef.nullary main_call0.c_0 (constantI S_ 32 64#32),
    StableHlo.TRef.unary main_call0.c_0 main_call0.v4 (broadcastInDim S64 ![] bcast_S_S64),
    StableHlo.TRef.binary main_call0.v0 main_call0.v4 main_call0.v5 addi,
    StableHlo.TRef.ternary main_call0.v3 main_call0.v5 main_call0.v0 main_call0.v6 select,
    StableHlo.TRef.nullary main_call0.c_1 (constantI S_ 32 0#32),
    StableHlo.TRef.unary main_call0.c_1 main_call0.v7 (broadcastInDim S64 ![] bcast_S_S64),
    StableHlo.TRef.binary main_call0.v1 main_call0.v7 main_call0.v8 (cmpi .slt),
    StableHlo.TRef.nullary main_call0.c_2 (constantI S_ 32 64#32),
    StableHlo.TRef.unary main_call0.c_2 main_call0.v9 (broadcastInDim S64 ![] bcast_S_S64),
    StableHlo.TRef.binary main_call0.v1 main_call0.v9 main_call0.v10 addi,
    StableHlo.TRef.ternary main_call0.v8 main_call0.v10 main_call0.v1 main_call0.v11 select,
    StableHlo.TRef.unary main_call0.v6 main_call0.v12 (broadcastInDim S64x1 ![0] bcast_S64_S64x1_0),
    StableHlo.TRef.unary main_call0.v11 main_call0.v13 (broadcastInDim S64x1 ![0] bcast_S64_S64x1_0),
    StableHlo.TRef.binary main_call0.v12 main_call0.v13 main_call0.v14 (fun a b => concatenate S64x2 1 [⟨S64x1, a⟩, ⟨S64x1, b⟩] concatenates_S64x1_S64x1_S64x2_d1),
    StableHlo.TRef.binary ((.of main_v1) : StableHlo.TRef sig ⟨S16800x64x64, .f32⟩) main_call0.v14 main_call0.v15 (fun x i => Host.gather gather_S16800x64x64_S64x2_S16800x64_0_12_n_n_12_1_1680011 x i),
    StableHlo.unary main_v2 main_v3 (broadcastInDim S16800x1x64 ![0, 2] bcast_S16800x64_S16800x1x64_0_2 : (⟨S16800x64, .f32⟩ : BufTy).Contents (Elt F) → (⟨S16800x1x64, .f32⟩ : BufTy).Contents (Elt F)),
    StableHlo.unary main_v2 main_v4 (broadcastInDim S16800x64x1 ![0, 1] bcast_S16800x64_S16800x64x1_0_1 : (⟨S16800x64, .f32⟩ : BufTy).Contents (Elt F) → (⟨S16800x64x1, .f32⟩ : BufTy).Contents (Elt F)),
    StableHlo.unary main_v3 main_v5 (broadcastInDim S16800x64x64 ![0, 1, 2] bcast_S16800x1x64_S16800x64x64_0_1_2 : (⟨S16800x1x64, .f32⟩ : BufTy).Contents (Elt F) → (⟨S16800x64x64, .f32⟩ : BufTy).Contents (Elt F)),
    StableHlo.unary main_v4 main_v6 (broadcastInDim S16800x64x64 ![0, 1, 2] bcast_S16800x64x1_S16800x64x64_0_1_2 : (⟨S16800x64x1, .f32⟩ : BufTy).Contents (Elt F) → (⟨S16800x64x64, .f32⟩ : BufTy).Contents (Elt F)),
    StableHlo.binary main_v5 main_v6 main_v7 (addf : (⟨S16800x64x64, .f32⟩ : BufTy).Contents (Elt F) → (⟨S16800x64x64, .f32⟩ : BufTy).Contents (Elt F) → (⟨S16800x64x64, .f32⟩ : BufTy).Contents (Elt F)),
    StableHlo.nullary main_cst (constant S_ .f32 0x40000000#32),
    StableHlo.unary main_cst main_v8 (broadcastInDim S16800x64x64 ![] bcast_S_S16800x64x64 : (⟨S_, .f32⟩ : BufTy).Contents (Elt F) → (⟨S16800x64x64, .f32⟩ : BufTy).Contents (Elt F)),
    StableHlo.binary main_v8 main_v1 main_v9 (mulf : (⟨S16800x64x64, .f32⟩ : BufTy).Contents (Elt F) → (⟨S16800x64x64, .f32⟩ : BufTy).Contents (Elt F) → (⟨S16800x64x64, .f32⟩ : BufTy).Contents (Elt F)),
    StableHlo.binary main_v7 main_v9 main_v10 (subf : (⟨S16800x64x64, .f32⟩ : BufTy).Contents (Elt F) → (⟨S16800x64x64, .f32⟩ : BufTy).Contents (Elt F) → (⟨S16800x64x64, .f32⟩ : BufTy).Contents (Elt F)),
    StableHlo.unary main_arg1 main_v11 (Host.exp : (⟨S1x1, .f32⟩ : BufTy).Contents (Elt F) → (⟨S1x1, .f32⟩ : BufTy).Contents (Elt F)),
    StableHlo.nullary main_cst_3 (constant S_ .f32 0x00000000#32),
    StableHlo.TRef.unary ((.of main_cst_3) : StableHlo.TRef sig ⟨S_, .f32⟩) main_call1.v0 id,
    StableHlo.TRef.unary main_call1.v0 main_call1.v1 (broadcastInDim S16800x64x64 ![] bcast_S_S16800x64x64),
    StableHlo.TRef.binary main_call1.v1 ((.of main_v10) : StableHlo.TRef sig ⟨S16800x64x64, .f32⟩) main_call1.v2 maximumf,
    StableHlo.unary main_v11 main_v13 (broadcastInDim S1x1x1 ![1, 2] bcast_S1x1_S1x1x1_1_2 : (⟨S1x1, .f32⟩ : BufTy).Contents (Elt F) → (⟨S1x1x1, .f32⟩ : BufTy).Contents (Elt F)),
    StableHlo.unary main_v13 main_v14 (broadcastInDim S16800x64x64 ![0, 1, 2] bcast_S1x1x1_S16800x64x64_0_1_2 : (⟨S1x1x1, .f32⟩ : BufTy).Contents (Elt F) → (⟨S16800x64x64, .f32⟩ : BufTy).Contents (Elt F)),
    StableHlo.binary main_v14 main_v12 main_v15 (mulf : (⟨S16800x64x64, .f32⟩ : BufTy).Contents (Elt F) → (⟨S16800x64x64, .f32⟩ : BufTy).Contents (Elt F) → (⟨S16800x64x64, .f32⟩ : BufTy).Contents (Elt F)),
    StableHlo.nullary main_cst_4 (constant S_ .f32 0x3727C5AC#32),
    StableHlo.unary main_cst_4 main_v16 (broadcastInDim S16800x64x64 ![] bcast_S_S16800x64x64 : (⟨S_, .f32⟩ : BufTy).Contents (Elt F) → (⟨S16800x64x64, .f32⟩ : BufTy).Contents (Elt F)),
    StableHlo.binary main_v15 main_v16 main_v17 (addf : (⟨S16800x64x64, .f32⟩ : BufTy).Contents (Elt F) → (⟨S16800x64x64, .f32⟩ : BufTy).Contents (Elt F) → (⟨S16800x64x64, .f32⟩ : BufTy).Contents (Elt F)),
    StableHlo.unary main_v17 main_v18 (Host.sqrt : (⟨S16800x64x64, .f32⟩ : BufTy).Contents (Elt F) → (⟨S16800x64x64, .f32⟩ : BufTy).Contents (Elt F)),
    StableHlo.nullary main_cst_5 (constant S_ .f32 0x00000000#32),
    StableHlo.binary main_v18 main_cst_5 main_v19 ((fun x v => Host.reduceAdd x v reducesTo_S16800x64x64_S16800x64_d2 h_S_) : (⟨S16800x64x64, .f32⟩ : BufTy).Contents (Elt F) → (⟨S_, .f32⟩ : BufTy).Contents (Elt F) → (⟨S16800x64, .f32⟩ : BufTy).Contents (Elt F)),
    StableHlo.unary main_v19 main_v20 (broadcastInDim S16800x64x1 ![0, 1] bcast_S16800x64_S16800x64x1_0_1 : (⟨S16800x64, .f32⟩ : BufTy).Contents (Elt F) → (⟨S16800x64x1, .f32⟩ : BufTy).Contents (Elt F)),
    StableHlo.nullary main_cst_6 (constant S_ .f32 0x42800000#32),
    StableHlo.unary main_cst_6 main_v21 (broadcastInDim S16800x64x1 ![] bcast_S_S16800x64x1 : (⟨S_, .f32⟩ : BufTy).Contents (Elt F) → (⟨S16800x64x1, .f32⟩ : BufTy).Contents (Elt F)),
    StableHlo.binary main_v20 main_v21 main_v22 (Host.divf : (⟨S16800x64x1, .f32⟩ : BufTy).Contents (Elt F) → (⟨S16800x64x1, .f32⟩ : BufTy).Contents (Elt F) → (⟨S16800x64x1, .f32⟩ : BufTy).Contents (Elt F)),
    StableHlo.nullary main_cst_7 (constant S_ .f32 0x00000000#32),
    StableHlo.binary main_v18 main_cst_7 main_v23 ((fun x v => Host.reduceAdd x v reducesTo_S16800x64x64_S16800x64_d1 h_S_) : (⟨S16800x64x64, .f32⟩ : BufTy).Contents (Elt F) → (⟨S_, .f32⟩ : BufTy).Contents (Elt F) → (⟨S16800x64, .f32⟩ : BufTy).Contents (Elt F)),
    StableHlo.unary main_v23 main_v24 (broadcastInDim S16800x1x64 ![0, 2] bcast_S16800x64_S16800x1x64_0_2 : (⟨S16800x64, .f32⟩ : BufTy).Contents (Elt F) → (⟨S16800x1x64, .f32⟩ : BufTy).Contents (Elt F)),
    StableHlo.nullary main_cst_8 (constant S_ .f32 0x42800000#32),
    StableHlo.unary main_cst_8 main_v25 (broadcastInDim S16800x1x64 ![] bcast_S_S16800x1x64 : (⟨S_, .f32⟩ : BufTy).Contents (Elt F) → (⟨S16800x1x64, .f32⟩ : BufTy).Contents (Elt F)),
    StableHlo.binary main_v24 main_v25 main_v26 (Host.divf : (⟨S16800x1x64, .f32⟩ : BufTy).Contents (Elt F) → (⟨S16800x1x64, .f32⟩ : BufTy).Contents (Elt F) → (⟨S16800x1x64, .f32⟩ : BufTy).Contents (Elt F)),
    StableHlo.nullary main_cst_9 (constant S_ .f32 0x00000000#32),
    StableHlo.binary main_v18 main_cst_9 main_v27 ((fun x v => Host.reduceAdd x v reducesTo_S16800x64x64_S16800_d1_2 h_S_) : (⟨S16800x64x64, .f32⟩ : BufTy).Contents (Elt F) → (⟨S_, .f32⟩ : BufTy).Contents (Elt F) → (⟨S16800, .f32⟩ : BufTy).Contents (Elt F)),
    StableHlo.unary main_v27 main_v28 (broadcastInDim S16800x1x1 ![0] bcast_S16800_S16800x1x1_0 : (⟨S16800, .f32⟩ : BufTy).Contents (Elt F) → (⟨S16800x1x1, .f32⟩ : BufTy).Contents (Elt F)),
    StableHlo.nullary main_cst_10 (constant S_ .f32 0x45800000#32),
    StableHlo.unary main_cst_10 main_v29 (broadcastInDim S16800x1x1 ![] bcast_S_S16800x1x1 : (⟨S_, .f32⟩ : BufTy).Contents (Elt F) → (⟨S16800x1x1, .f32⟩ : BufTy).Contents (Elt F)),
    StableHlo.binary main_v28 main_v29 main_v30 (Host.divf : (⟨S16800x1x1, .f32⟩ : BufTy).Contents (Elt F) → (⟨S16800x1x1, .f32⟩ : BufTy).Contents (Elt F) → (⟨S16800x1x1, .f32⟩ : BufTy).Contents (Elt F)),
    StableHlo.unary main_v22 main_v31 (broadcastInDim S16800x64x64 ![0, 1, 2] bcast_S16800x64x1_S16800x64x64_0_1_2 : (⟨S16800x64x1, .f32⟩ : BufTy).Contents (Elt F) → (⟨S16800x64x64, .f32⟩ : BufTy).Contents (Elt F)),
    StableHlo.binary main_v18 main_v31 main_v32 (subf : (⟨S16800x64x64, .f32⟩ : BufTy).Contents (Elt F) → (⟨S16800x64x64, .f32⟩ : BufTy).Contents (Elt F) → (⟨S16800x64x64, .f32⟩ : BufTy).Contents (Elt F)),
    StableHlo.unary main_v26 main_v33 (broadcastInDim S16800x64x64 ![0, 1, 2] bcast_S16800x1x64_S16800x64x64_0_1_2 : (⟨S16800x1x64, .f32⟩ : BufTy).Contents (Elt F) → (⟨S16800x64x64, .f32⟩ : BufTy).Contents (Elt F)),
    StableHlo.binary main_v32 main_v33 main_v34 (subf : (⟨S16800x64x64, .f32⟩ : BufTy).Contents (Elt F) → (⟨S16800x64x64, .f32⟩ : BufTy).Contents (Elt F) → (⟨S16800x64x64, .f32⟩ : BufTy).Contents (Elt F)),
    StableHlo.unary main_v30 main_v35 (broadcastInDim S16800x64x64 ![0, 1, 2] bcast_S16800x1x1_S16800x64x64_0_1_2 : (⟨S16800x1x1, .f32⟩ : BufTy).Contents (Elt F) → (⟨S16800x64x64, .f32⟩ : BufTy).Contents (Elt F)),
    StableHlo.binary main_v34 main_v35 main_v36 (addf : (⟨S16800x64x64, .f32⟩ : BufTy).Contents (Elt F) → (⟨S16800x64x64, .f32⟩ : BufTy).Contents (Elt F) → (⟨S16800x64x64, .f32⟩ : BufTy).Contents (Elt F)) ]

theorem opsA_sub : (opsA : List (HloOp τ sig (Elt F))).Forall fun op => op.bufs ⊆ tcRefs τ sig :=
  ⟨nullary_bufs_sub .., nullary_bufs_sub .., nullary_bufs_sub .., nullary_bufs_sub .., reshape_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., unary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., binary_bufs_sub ..⟩

/-- 12 operations. -/
abbrev opsB : List (HloOp τ sig (Elt F)) :=
  [ StableHlo.nullary main_c_11 (constantI S_ 32 64#32),
    StableHlo.unary main_c_11 main_v37 (broadcastInDim S2080 ![] bcast_S_S2080 : (⟨S_, .i32⟩ : BufTy).Contents (Elt F) → (⟨S2080, .i32⟩ : BufTy).Contents (Elt F)),
    StableHlo.binary main_c main_v37 main_v38 (addi : (⟨S2080, .i32⟩ : BufTy).Contents (Elt F) → (⟨S2080, .i32⟩ : BufTy).Contents (Elt F) → (⟨S2080, .i32⟩ : BufTy).Contents (Elt F)),
    StableHlo.ternary main_c_0 main_v38 main_c main_v39 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.nullary main_c_12 (constantI S_ 32 64#32),
    StableHlo.unary main_c_12 main_v40 (broadcastInDim S2080 ![] bcast_S_S2080 : (⟨S_, .i32⟩ : BufTy).Contents (Elt F) → (⟨S2080, .i32⟩ : BufTy).Contents (Elt F)),
    StableHlo.binary main_c_1 main_v40 main_v41 (addi : (⟨S2080, .i32⟩ : BufTy).Contents (Elt F) → (⟨S2080, .i32⟩ : BufTy).Contents (Elt F) → (⟨S2080, .i32⟩ : BufTy).Contents (Elt F)),
    StableHlo.ternary main_c_2 main_v41 main_c_1 main_v42 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v39 main_v43 (broadcastInDim S2080x1 ![0] bcast_S2080_S2080x1_0 : (⟨S2080, .i32⟩ : BufTy).Contents (Elt F) → (⟨S2080x1, .i32⟩ : BufTy).Contents (Elt F)),
    StableHlo.unary main_v42 main_v44 (broadcastInDim S2080x1 ![0] bcast_S2080_S2080x1_0 : (⟨S2080, .i32⟩ : BufTy).Contents (Elt F) → (⟨S2080x1, .i32⟩ : BufTy).Contents (Elt F)),
    StableHlo.binary main_v43 main_v44 main_v45 ((fun a b => concatenate S2080x2 1 [⟨S2080x1, a⟩, ⟨S2080x1, b⟩] concatenates_S2080x1_S2080x1_S2080x2_d1) : (⟨S2080x1, .i32⟩ : BufTy).Contents (Elt F) → (⟨S2080x1, .i32⟩ : BufTy).Contents (Elt F) → (⟨S2080x2, .i32⟩ : BufTy).Contents (Elt F)),
    StableHlo.binary main_v36 main_v45 main_v46 ((fun x i => Host.gather gather_S16800x64x64_S2080x2_S16800x2080_0_12_n_n_12_1_1680011 x i) : (⟨S16800x64x64, .f32⟩ : BufTy).Contents (Elt F) → (⟨S2080x2, .i32⟩ : BufTy).Contents (Elt F) → (⟨S16800x2080, .f32⟩ : BufTy).Contents (Elt F)) ]

theorem opsB_sub : (opsB : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub ..⟩

/-- 25 operations. -/
abbrev opsC : List (HloOp τ sig (Elt F)) :=
  [ StableHlo.unary main_v46 main_v47 ((extractStridedSlice S800x2080 ![0, 0] · slices_S16800x2080_S800x2080_0_0) : (⟨S16800x2080, .f32⟩ : BufTy).Contents (Elt F) → (⟨S800x2080, .f32⟩ : BufTy).Contents (Elt F)),
    StableHlo.reshape main_v47 main_v48 rfl shapeCasts_S800x2080_S10x80x2080,
    StableHlo.nullary main_cst_13 (constant S_ .f32 0x00000000#32),
    StableHlo.binary main_v48 main_cst_13 main_v49 ((fun x v => Host.reduceAdd x v reducesTo_S10x80x2080_S10x2080_d1 h_S_) : (⟨S10x80x2080, .f32⟩ : BufTy).Contents (Elt F) → (⟨S_, .f32⟩ : BufTy).Contents (Elt F) → (⟨S10x2080, .f32⟩ : BufTy).Contents (Elt F)),
    StableHlo.nullary main_cst_14 (constant S_ .f32 0x42A00000#32),
    StableHlo.unary main_cst_14 main_v50 (broadcastInDim S10x2080 ![] bcast_S_S10x2080 : (⟨S_, .f32⟩ : BufTy).Contents (Elt F) → (⟨S10x2080, .f32⟩ : BufTy).Contents (Elt F)),
    StableHlo.binary main_v49 main_v50 main_v51 (Host.divf : (⟨S10x2080, .f32⟩ : BufTy).Contents (Elt F) → (⟨S10x2080, .f32⟩ : BufTy).Contents (Elt F) → (⟨S10x2080, .f32⟩ : BufTy).Contents (Elt F)),
    StableHlo.unary main_v46 main_v52 ((extractStridedSlice S16000x2080 ![800, 0] · slices_S16800x2080_S16000x2080_800_0) : (⟨S16800x2080, .f32⟩ : BufTy).Contents (Elt F) → (⟨S16000x2080, .f32⟩ : BufTy).Contents (Elt F)),
    StableHlo.binary main_v52 main_v52 main_v53 (mulf : (⟨S16000x2080, .f32⟩ : BufTy).Contents (Elt F) → (⟨S16000x2080, .f32⟩ : BufTy).Contents (Elt F) → (⟨S16000x2080, .f32⟩ : BufTy).Contents (Elt F)),
    StableHlo.nullary main_cst_15 (constant S_ .f32 0x00000000#32),
    StableHlo.binary main_v53 main_cst_15 main_v54 ((fun x v => Host.reduceAdd x v reducesTo_S16000x2080_S16000_d1 h_S_) : (⟨S16000x2080, .f32⟩ : BufTy).Contents (Elt F) → (⟨S_, .f32⟩ : BufTy).Contents (Elt F) → (⟨S16000, .f32⟩ : BufTy).Contents (Elt F)),
    StableHlo.unary main_v54 main_v55 (broadcastInDim S16000x1 ![0] bcast_S16000_S16000x1_0 : (⟨S16000, .f32⟩ : BufTy).Contents (Elt F) → (⟨S16000x1, .f32⟩ : BufTy).Contents (Elt F)),
    StableHlo.binary main_v51 main_v51 main_v56 (mulf : (⟨S10x2080, .f32⟩ : BufTy).Contents (Elt F) → (⟨S10x2080, .f32⟩ : BufTy).Contents (Elt F) → (⟨S10x2080, .f32⟩ : BufTy).Contents (Elt F)),
    StableHlo.nullary main_cst_16 (constant S_ .f32 0x00000000#32),
    StableHlo.binary main_v56 main_cst_16 main_v57 ((fun x v => Host.reduceAdd x v reducesTo_S10x2080_S10_d1 h_S_) : (⟨S10x2080, .f32⟩ : BufTy).Contents (Elt F) → (⟨S_, .f32⟩ : BufTy).Contents (Elt F) → (⟨S10, .f32⟩ : BufTy).Contents (Elt F)),
    StableHlo.unary main_v57 main_v58 (broadcastInDim S1x10 ![1] bcast_S10_S1x10_1 : (⟨S10, .f32⟩ : BufTy).Contents (Elt F) → (⟨S1x10, .f32⟩ : BufTy).Contents (Elt F)),
    StableHlo.unary main_v55 main_v59 (broadcastInDim S16000x10 ![0, 1] bcast_S16000x1_S16000x10_0_1 : (⟨S16000x1, .f32⟩ : BufTy).Contents (Elt F) → (⟨S16000x10, .f32⟩ : BufTy).Contents (Elt F)),
    StableHlo.unary main_v58 main_v60 (broadcastInDim S16000x10 ![0, 1] bcast_S1x10_S16000x10_0_1 : (⟨S1x10, .f32⟩ : BufTy).Contents (Elt F) → (⟨S16000x10, .f32⟩ : BufTy).Contents (Elt F)),
    StableHlo.binary main_v59 main_v60 main_v61 (addf : (⟨S16000x10, .f32⟩ : BufTy).Contents (Elt F) → (⟨S16000x10, .f32⟩ : BufTy).Contents (Elt F) → (⟨S16000x10, .f32⟩ : BufTy).Contents (Elt F)),
    StableHlo.binary main_v52 main_v51 main_v62 ((fun l r => Host.dotGeneral dot_S16000x2080_S10x2080_S16000x10_1_1_0_0_n_n none l r) : (⟨S16000x2080, .f32⟩ : BufTy).Contents (Elt F) → (⟨S10x2080, .f32⟩ : BufTy).Contents (Elt F) → (⟨S16000x10, .f32⟩ : BufTy).Contents (Elt F)),
    StableHlo.nullary main_cst_17 (constant S_ .f32 0x40000000#32),
    StableHlo.unary main_cst_17 main_v63 (broadcastInDim S16000x10 ![] bcast_S_S16000x10 : (⟨S_, .f32⟩ : BufTy).Contents (Elt F) → (⟨S16000x10, .f32⟩ : BufTy).Contents (Elt F)),
    StableHlo.binary main_v63 main_v62 main_v64 (mulf : (⟨S16000x10, .f32⟩ : BufTy).Contents (Elt F) → (⟨S16000x10, .f32⟩ : BufTy).Contents (Elt F) → (⟨S16000x10, .f32⟩ : BufTy).Contents (Elt F)),
    StableHlo.binary main_v61 main_v64 main_v65 (subf : (⟨S16000x10, .f32⟩ : BufTy).Contents (Elt F) → (⟨S16000x10, .f32⟩ : BufTy).Contents (Elt F) → (⟨S16000x10, .f32⟩ : BufTy).Contents (Elt F)),
    StableHlo.unary main_v65 main_v66 (Host.negf : (⟨S16000x10, .f32⟩ : BufTy).Contents (Elt F) → (⟨S16000x10, .f32⟩ : BufTy).Contents (Elt F)) ]

theorem opsC_sub : (opsC : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub .., unary_bufs_sub ..⟩

/-- 43 operations. -/
abbrev opsD : List (HloOp τ sig (Elt F)) :=
  [ StableHlo.TRef.nullary main_call2.cst (constant S_ .f32 0xFF800000#32),
    StableHlo.TRef.binary ((.of main_v66) : StableHlo.TRef sig ⟨S16000x10, .f32⟩) main_call2.cst main_call2.v0 (fun x v => Host.reduce FloatOps.maximumf x v reducesTo_S16000x10_S16000_d1 h_S_),
    StableHlo.TRef.nullary main_call2.cst_0 (constant S_ .f32 0xFF800000#32),
    StableHlo.TRef.unary main_call2.cst_0 main_call2.v1 (broadcastInDim S16000 ![] bcast_S_S16000),
    StableHlo.TRef.binary main_call2.v1 main_call2.v0 main_call2.v2 maximumf,
    StableHlo.TRef.unary main_call2.v2 main_call2.v3 (broadcastInDim S16000x1 ![0] bcast_S16000_S16000x1_0),
    StableHlo.TRef.unary main_call2.v3 main_call2.v4 (broadcastInDim S16000x10 ![0, 1] bcast_S16000x1_S16000x10_0_1),
    StableHlo.TRef.binary ((.of main_v66) : StableHlo.TRef sig ⟨S16000x10, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S16000x10_S16000_d1 h_S_),
    StableHlo.TRef.unary main_call2.v7 main_call2.v8 (broadcastInDim S16000x1 ![0] bcast_S16000_S16000x1_0),
    StableHlo.TRef.unary main_call2.v8 main_call2.v9 Host.log,
    StableHlo.TRef.unary main_call2.v9 main_call2.v10 (broadcastInDim S16000x10 ![0, 1] bcast_S16000x1_S16000x10_0_1),
    StableHlo.TRef.binary main_call2.v5 main_call2.v10 main_call2.v11 subf,
    StableHlo.unary main_arg2 main_v68 (broadcastInDim S16000x1 ![0] bcast_S16000_S16000x1_0 : (⟨S16000, .i32⟩ : BufTy).Contents (Elt F) → (⟨S16000x1, .i32⟩ : BufTy).Contents (Elt F)),
    StableHlo.TRef.nullary main_call3.c (constantI S_ 32 0#32),
    StableHlo.TRef.unary main_call3.c main_call3.v0 (broadcastInDim S16000x1 ![] bcast_S_S16000x1),
    StableHlo.TRef.binary ((.of main_v68) : StableHlo.TRef sig ⟨S16000x1, .i32⟩) main_call3.v0 main_call3.v1 (cmpi .slt),
    StableHlo.TRef.nullary main_call3.c_0 (constantI S_ 32 10#32),
    StableHlo.TRef.unary main_call3.c_0 main_call3.v2 (broadcastInDim S16000x1 ![] bcast_S_S16000x1),
    StableHlo.TRef.binary ((.of main_v68) : StableHlo.TRef sig ⟨S16000x1, .i32⟩) main_call3.v2 main_call3.v3 addi,
    StableHlo.TRef.ternary main_call3.v1 main_call3.v3 ((.of main_v68) : StableHlo.TRef sig ⟨S16000x1, .i32⟩) main_call3.v4 select,
    StableHlo.TRef.reshape main_call3.v4 main_call3.v5 rfl shapeCasts_S16000x1_S16000x1x1,
    StableHlo.TRef.nullary main_call3.c_1 (constantI S1 32 9#32),
    StableHlo.TRef.nullary main_call3.c_2 (constantI S_ 32 0#32),
    StableHlo.TRef.unary main_call3.c_2 main_call3.v6 (broadcastInDim S16000x1x1 ![] bcast_S_S16000x1x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S16000x1x1 ![0, 1, 2] bcast_S1x1x1_S16000x1x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S16000x1x1_S16000x1_d2 h_S_),
    StableHlo.TRef.binary ((.of main_v67) : StableHlo.TRef sig ⟨S16000x10, .f32⟩) main_call3.v5 main_call3.v13 (fun x i => Host.gather gather_S16000x10_S16000x1x1_S16000x1_n_1_0_0_1_2_11 x i),
    StableHlo.TRef.nullary main_call3.cst (constant S_ .f32 0x7FC00000#32),
    StableHlo.TRef.unary main_call3.cst main_call3.v14 (broadcastInDim S16000x1 ![] bcast_S_S16000x1),
    StableHlo.TRef.ternary main_call3.v12 main_call3.v13 main_call3.v14 main_call3.v15 select,
    StableHlo.nullary main_cst_18 (constant S_ .f32 0x00000000#32),
    StableHlo.binary main_v69 main_cst_18 main_v70 ((fun x v => Host.reduceAdd x v reducesTo_S16000x1_S_d0_1 h_S_) : (⟨S16000x1, .f32⟩ : BufTy).Contents (Elt F) → (⟨S_, .f32⟩ : BufTy).Contents (Elt F) → (⟨S_, .f32⟩ : BufTy).Contents (Elt F)),
    StableHlo.nullary main_cst_19 (constant S_ .f32 0x467A0000#32),
    StableHlo.binary main_v70 main_cst_19 main_v71 (Host.divf : (⟨S_, .f32⟩ : BufTy).Contents (Elt F) → (⟨S_, .f32⟩ : BufTy).Contents (Elt F) → (⟨S_, .f32⟩ : BufTy).Contents (Elt F)),
    StableHlo.unary main_v71 main_v72 (Host.negf : (⟨S_, .f32⟩ : BufTy).Contents (Elt F) → (⟨S_, .f32⟩ : BufTy).Contents (Elt F)) ]

theorem opsD_sub : (opsD : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩

/-- The whole of @main: 151 operations. -/
abbrev ops : List (HloOp τ sig (Elt F)) := opsA ++ (opsB ++ (opsC ++ opsD))

end Cert.ReferenceIdeal.Ops

end
-- ==== Proof.RefRun.lean ====
/-
  The reference program's run: its @main is the straight line of the listed host operations (the called functions'
  bodies standing at their call sites), so every weakly fair execution terminates and leaves each buffer at the fold of
  those operations over the launch contents.  The fold over the concatenated list is the fold over each stretch in turn,
  which is how the later modules read it: stretch by stretch, each over an arbitrary valuation.
-/
import proofs.«426365_j31061203484793_1_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The fold of a concatenation is the fold of the second list over the fold of the first. -/
theorem after_append {Val : EltTy → Type} (xs ys : List (HloOp τ sig Val)) (V : Valuation τ sig Val) :
    after (xs ++ ys) V = after ys (after xs V) := by
  induction xs generalizing V with
  | nil => rfl
  | cons x xs ih => simp only [List.cons_append, after_cons, ih]

/-- The whole fold, stretch by stretch. -/
theorem after_ops (V : Valuation τ sig (Elt F)) :
    after ops V = after opsD (after opsC (after opsB (after opsA V))) := by
  simp only [ops, after_append]

-- some hundred and fifty binds re-associated: the rewrite under the chain recurses once per statement
set_option maxRecDepth 8192 in
set_option maxHeartbeats 4000000 in
/-- @main is that straight line: the two windows of its statements and the called functions' bodies unfolded, both
    sides are one chain of host steps once sequencing is re-associated. -/
theorem main_eq (c : Dev nD) : main (F := F) c = seq ops := by
  simp only [main, main_part0, main_part1, fn_diagonal.body, fn_clip.body, fn_log_softmax.body, fn_take_along_axis.body,
    ops, opsA, opsB, opsC, opsD, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [ops, List.forall_append, List.forall_append, List.forall_append]
  exact ⟨opsA_sub, opsB_sub, opsC_sub, opsD_sub⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Ops

end
-- ==== Proof.RefBdc.lean ====
/-
  The reference's first stretch read at an index: after it the buffer of the centred matrices holds, for sample b and
  channels i, j, the centred distance matrix of the specification; the two literal index tables and their two
  all-false masks are what the program's constants say; the arguments are untouched.

  The stretch is read in two pieces.  The first piece ends just before the index pairs of the diagonal are put side by
  side: after it the product buffer holds every sample's Gram matrix and the two index columns hold 0, 1, …, 63.  The
  second piece is read over an arbitrary valuation that has those three properties: the gather at the pairs (i, i) is
  the Gram matrix's diagonal, the broadcasts put ‖xⱼ‖² along rows and ‖xᵢ‖² along columns, the clip, scale, shift
  and square root give the smoothed distance, and the three reductions with their divisions are the row mean, the
  column mean and the grand mean of the centring.
-/
import proofs.«426365_j31061203484793_1_alg».proof.Proof.RefRun
import proofs.«426365_j31061203484793_1_alg».proof.Proof.Spec
import proofs.«426365_j31061203484793_1_alg».proof.Proof.LibSums
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-! ## The batched product: every sample's Gram matrix

The product contracts the 49 positions (axis 2 of both operands), keeps the sample axis as a batch axis and the two
channel axes as the rows and columns: at (b, i, j) and contraction position k the left operand is read at (b, i, k), the
right one at (b, j, k). -/

theorem gramL_0 (y : S16800x64x64.Idx) (k : dot_S16800x64x49_S16800x64x49_S16800x64x64_2_2_1_1_0_0.contr.Idx) :
    (dot_S16800x64x49_S16800x64x49_S16800x64x64_2_2_1_1_0_0.lhsIdx y k (0 : Fin S16800x64x49.rank)).val = (y (0 : Fin S16800x64x64.rank)).val := by
  unfold DotDims.lhsIdx
  rw [dif_pos (show (0 : Fin S16800x64x49.rank) ∈ dot_S16800x64x49_S16800x64x49_S16800x64x64_2_2_1_1_0_0.lhsBatch by decide)]
  rfl
theorem gramL_1 (y : S16800x64x64.Idx) (k : dot_S16800x64x49_S16800x64x49_S16800x64x64_2_2_1_1_0_0.contr.Idx) :
    (dot_S16800x64x49_S16800x64x49_S16800x64x64_2_2_1_1_0_0.lhsIdx y k (1 : Fin S16800x64x49.rank)).val = (y (1 : Fin S16800x64x64.rank)).val := by
  unfold DotDims.lhsIdx
  rw [dif_neg (show ¬(1 : Fin S16800x64x49.rank) ∈ dot_S16800x64x49_S16800x64x49_S16800x64x64_2_2_1_1_0_0.lhsBatch by decide),
    dif_pos (show (1 : Fin S16800x64x49.rank) ∈ dot_S16800x64x49_S16800x64x49_S16800x64x64_2_2_1_1_0_0.lhsNonContracting by decide)]
  rfl
theorem gramL_2 (y : S16800x64x64.Idx) (k : dot_S16800x64x49_S16800x64x49_S16800x64x64_2_2_1_1_0_0.contr.Idx) :
    (dot_S16800x64x49_S16800x64x49_S16800x64x64_2_2_1_1_0_0.lhsIdx y k (2 : Fin S16800x64x49.rank)).val = (k ⟨0, by decide⟩).val :=
  DotDims.lhsIdx_val_of_single _ rfl y k
theorem gramR_0 (y : S16800x64x64.Idx) (k : dot_S16800x64x49_S16800x64x49_S16800x64x64_2_2_1_1_0_0.contr.Idx) :
    (dot_S16800x64x49_S16800x64x49_S16800x64x64_2_2_1_1_0_0.rhsIdx y k (0 : Fin S16800x64x49.rank)).val = (y (0 : Fin S16800x64x64.rank)).val := by
  unfold DotDims.rhsIdx
  rw [dif_pos (show (0 : Fin S16800x64x49.rank) ∈ dot_S16800x64x49_S16800x64x49_S16800x64x64_2_2_1_1_0_0.rhsBatch by decide)]
  rfl
theorem gramR_1 (y : S16800x64x64.Idx) (k : dot_S16800x64x49_S16800x64x49_S16800x64x64_2_2_1_1_0_0.contr.Idx) :
    (dot_S16800x64x49_S16800x64x49_S16800x64x64_2_2_1_1_0_0.rhsIdx y k (1 : Fin S16800x64x49.rank)).val = (y (2 : Fin S16800x64x64.rank)).val := by
  unfold DotDims.rhsIdx
  rw [dif_neg (show ¬(1 : Fin S16800x64x49.rank) ∈ dot_S16800x64x49_S16800x64x49_S16800x64x64_2_2_1_1_0_0.rhsBatch by decide),
    dif_pos (show (1 : Fin S16800x64x49.rank) ∈ dot_S16800x64x49_S16800x64x49_S16800x64x64_2_2_1_1_0_0.rhsNonContracting by decide)]
  rfl
theorem gramR_2 (y : S16800x64x64.Idx) (k : dot_S16800x64x49_S16800x64x49_S16800x64x64_2_2_1_1_0_0.contr.Idx) :
    (dot_S16800x64x49_S16800x64x49_S16800x64x64_2_2_1_1_0_0.rhsIdx y k (2 : Fin S16800x64x49.rank)).val = (k ⟨0, by decide⟩).val :=
  DotDims.rhsIdx_val_of_single _ rfl y k

/-- The product of the flattened features with themselves, at (b, i, j): the Gram matrix of sample b. -/
theorem gram_apply (Y : FVec Ideal S16800x64x49 .f32) (b : Fin 16800) (i j : Fin 64) :
    Host.dotGeneral (F := Ideal) dot_S16800x64x49_S16800x64x49_S16800x64x64_2_2_1_1_0_0 none Y Y (ix3 b i j)
      = ∑ k : Fin 49, Y (ix3 b i k) * Y (ix3 b j k) := by
  simp only [Host.dotGeneral]
  rw [Ideal.dotGeneral_apply,
    ← Equiv.sum_comp (contrEquiv1 dot_S16800x64x49_S16800x64x49_S16800x64x64_2_2_1_1_0_0 49 rfl rfl).symm]
  refine Finset.sum_congr rfl fun k _ => ?_
  have hl : dot_S16800x64x49_S16800x64x49_S16800x64x64_2_2_1_1_0_0.lhsIdx (ix3 b i j)
      ((contrEquiv1 dot_S16800x64x49_S16800x64x49_S16800x64x64_2_2_1_1_0_0 49 rfl rfl).symm k) = ix3 b i k := by
    funext a; refine Fin.ext ?_
    match a with
    | ⟨0, _⟩ => exact gramL_0 _ _
    | ⟨1, _⟩ => exact gramL_1 _ _
    | ⟨2, _⟩ => exact (gramL_2 _ _).trans (contrEquiv1_symm_val _ 49 rfl rfl k)
  have hr : dot_S16800x64x49_S16800x64x49_S16800x64x64_2_2_1_1_0_0.rhsIdx (ix3 b i j)
      ((contrEquiv1 dot_S16800x64x49_S16800x64x49_S16800x64x64_2_2_1_1_0_0 49 rfl rfl).symm k) = ix3 b j k := by
    funext a; refine Fin.ext ?_
    match a with
    | ⟨0, _⟩ => exact gramR_0 _ _
    | ⟨1, _⟩ => exact gramR_1 _ _
    | ⟨2, _⟩ => exact (gramR_2 _ _).trans (contrEquiv1_symm_val _ 49 rfl rfl k)
  rw [hl, hr]

/-! ## The gather of the diagonal

The index pairs are (p, p) for p = 0 … 63, each coordinate the word of p: read signed it is p, and the clamp to 63 changes
nothing.  The sample axis is the one offset axis; the two channel axes are collapsed and start-indexed. -/

/-- The words 0 … 63 are not negative … -/
theorem iota_not_neg : ∀ p : Fin 64, IntOp.cmpi .slt (BitVec.ofNat 32 p.val) 0#32 = 0#1 := by decide
/-- … and read signed and clamped to 63 they are themselves. -/
theorem iota_clamp : ∀ p : Fin 64, min (BitVec.ofNat 32 p.val).toInt.toNat 63 = p.val := by decide

/-- On the sample axis the operand index is the result's sample coordinate. -/
theorem diagOp_0 (b : Fin 16800) (i : Fin 64) (idx : IVec S64x2 32) :
    (gather_S16800x64x64_S64x2_S16800x64_0_12_n_n_12_1_1680011.operandIdx (ix2 b i) idx (0 : Fin S16800x64x64.rank)).val = b.val := by
  have hs : gather_S16800x64x64_S64x2_S16800x64_0_12_n_n_12_1_1680011.start (ix2 b i) idx (0 : Fin S16800x64x64.rank) = 0 := by
    unfold GatherDims.start; exact dif_neg (by decide)
  have hb : gather_S16800x64x64_S64x2_S16800x64_0_12_n_n_12_1_1680011.batchCoord (ix2 b i) (0 : Fin S16800x64x64.rank) = 0 :=
    GatherDims.batchCoord_eq_zero _ _ _ (by decide)
  have ho : gather_S16800x64x64_S64x2_S16800x64_0_12_n_n_12_1_1680011.offCoord (ix2 b i) (0 : Fin S16800x64x64.rank) = b.val := by
    unfold GatherDims.offCoord; rw [dif_pos (by decide)]; rfl
  show gather_S16800x64x64_S64x2_S16800x64_0_12_n_n_12_1_1680011.start (ix2 b i) idx 0 + gather_S16800x64x64_S64x2_S16800x64_0_12_n_n_12_1_1680011.batchCoord (ix2 b i) 0 + gather_S16800x64x64_S64x2_S16800x64_0_12_n_n_12_1_1680011.offCoord (ix2 b i) 0 = _
  simp only [hs, hb, ho, Nat.add_zero, Nat.zero_add]

/-- The start-indices index of result index (b, i) for component c of the pair: (i, c). -/
theorem diag_siIdx (b : Fin 16800) (i : Fin 64) (c : Fin gather_S16800x64x64_S64x2_S16800x64_0_12_n_n_12_1_1680011.startIndexMap.length) :
    gather_S16800x64x64_S64x2_S16800x64_0_12_n_n_12_1_1680011.siIdx (ix2 b i) c = ix2 i (⟨c.val, c.isLt⟩ : Fin 2) := by
  funext a; refine Fin.ext ?_
  match a with
  | ⟨0, _⟩ => rfl
  | ⟨1, _⟩ => rfl

/-- On the first channel axis it is the first component of the pair, read signed and clamped. -/
theorem diagOp_1 (b : Fin 16800) (i : Fin 64) (idx : IVec S64x2 32) :
    (gather_S16800x64x64_S64x2_S16800x64_0_12_n_n_12_1_1680011.operandIdx (ix2 b i) idx (1 : Fin S16800x64x64.rank)).val = min (idx (ix2 i (0 : Fin 2))).toInt.toNat 63 := by
  have hs : gather_S16800x64x64_S64x2_S16800x64_0_12_n_n_12_1_1680011.start (ix2 b i) idx (1 : Fin S16800x64x64.rank) = min (idx (ix2 i (0 : Fin 2))).toInt.toNat 63 := by
    unfold GatherDims.start; rw [dif_pos (by decide), diag_siIdx]; rfl
  have hb : gather_S16800x64x64_S64x2_S16800x64_0_12_n_n_12_1_1680011.batchCoord (ix2 b i) (1 : Fin S16800x64x64.rank) = 0 :=
    GatherDims.batchCoord_eq_zero _ _ _ (by decide)
  have ho : gather_S16800x64x64_S64x2_S16800x64_0_12_n_n_12_1_1680011.offCoord (ix2 b i) (1 : Fin S16800x64x64.rank) = 0 :=
    GatherDims.offCoord_eq_zero _ _ _ (by decide)
  show gather_S16800x64x64_S64x2_S16800x64_0_12_n_n_12_1_1680011.start (ix2 b i) idx 1 + gather_S16800x64x64_S64x2_S16800x64_0_12_n_n_12_1_1680011.batchCoord (ix2 b i) 1 + gather_S16800x64x64_S64x2_S16800x64_0_12_n_n_12_1_1680011.offCoord (ix2 b i) 1 = _
  simp only [hs, hb, ho, Nat.add_zero, Nat.zero_add]
/-- On the second channel axis, the second component. -/
theorem diagOp_2 (b : Fin 16800) (i : Fin 64) (idx : IVec S64x2 32) :
    (gather_S16800x64x64_S64x2_S16800x64_0_12_n_n_12_1_1680011.operandIdx (ix2 b i) idx (2 : Fin S16800x64x64.rank)).val = min (idx (ix2 i (1 : Fin 2))).toInt.toNat 63 := by
  have hs : gather_S16800x64x64_S64x2_S16800x64_0_12_n_n_12_1_1680011.start (ix2 b i) idx (2 : Fin S16800x64x64.rank) = min (idx (ix2 i (1 : Fin 2))).toInt.toNat 63 := by
    unfold GatherDims.start; rw [dif_pos (by decide), diag_siIdx]; rfl
  have hb : gather_S16800x64x64_S64x2_S16800x64_0_12_n_n_12_1_1680011.batchCoord (ix2 b i) (2 : Fin S16800x64x64.rank) = 0 :=
    GatherDims.batchCoord_eq_zero _ _ _ (by decide)
  have ho : gather_S16800x64x64_S64x2_S16800x64_0_12_n_n_12_1_1680011.offCoord (ix2 b i) (2 : Fin S16800x64x64.rank) = 0 :=
    GatherDims.offCoord_eq_zero _ _ _ (by decide)
  show gather_S16800x64x64_S64x2_S16800x64_0_12_n_n_12_1_1680011.start (ix2 b i) idx 2 + gather_S16800x64x64_S64x2_S16800x64_0_12_n_n_12_1_1680011.batchCoord (ix2 b i) 2 + gather_S16800x64x64_S64x2_S16800x64_0_12_n_n_12_1_1680011.offCoord (ix2 b i) 2 = _
  simp only [hs, hb, ho, Nat.add_zero, Nat.zero_add]

/-- The gather at index pairs that are (p, p) reads the diagonal. -/
theorem diag_apply (G : FVec Ideal S16800x64x64 .f32) (idx : IVec S64x2 32)
    (h0 : ∀ p : Fin 64, idx (ix2 p (0 : Fin 2)) = BitVec.ofNat 32 p.val)
    (h1 : ∀ p : Fin 64, idx (ix2 p (1 : Fin 2)) = BitVec.ofNat 32 p.val) (b : Fin 16800) (i : Fin 64) :
    Host.gather gather_S16800x64x64_S64x2_S16800x64_0_12_n_n_12_1_1680011 G idx (ix2 b i) = G (ix3 b i i) := by
  unfold Host.gather
  refine congrArg G (funext fun a => Fin.ext ?_)
  match a with
  | ⟨0, _⟩ => exact diagOp_0 b i idx
  | ⟨1, _⟩ => exact (diagOp_1 b i idx).trans (by rw [h0]; exact iota_clamp i)
  | ⟨2, _⟩ => exact (diagOp_2 b i idx).trans (by rw [h1]; exact iota_clamp i)

/-! ## The broadcasts, read at an index

Each puts a smaller array along the axes the larger one adds: a unit axis of the operand is read at 0, the other axes at
the result's coordinate. -/

section Broadcasts
variable {α : Type}

theorem bc_col (h : S16800x64x1.BroadcastsInDim S16800x64x64 ![0, 1, 2]) (x : S16800x64x1.Idx → α)
    (b : Fin 16800) (i j : Fin 64) :
    broadcastInDim S16800x64x64 ![0, 1, 2] h x (ix3 b i j) = x (ix3 b i (0 : Fin 1)) :=
  broadcastInDim_apply _ h x _ _ fun a => by
    match a with
    | ⟨0, _⟩ => rfl
    | ⟨1, _⟩ => rfl
    | ⟨2, _⟩ => rfl
theorem bc_col1 (h : S16800x64.BroadcastsInDim S16800x64x1 ![0, 1]) (v : S16800x64.Idx → α) (b : Fin 16800) (i : Fin 64) :
    broadcastInDim S16800x64x1 ![0, 1] h v (ix3 b i (0 : Fin 1)) = v (ix2 b i) :=
  broadcastInDim_apply _ h v _ _ fun a => by
    match a with
    | ⟨0, _⟩ => rfl
    | ⟨1, _⟩ => rfl
theorem bc_row (h : S16800x1x64.BroadcastsInDim S16800x64x64 ![0, 1, 2]) (x : S16800x1x64.Idx → α)
    (b : Fin 16800) (i j : Fin 64) :
    broadcastInDim S16800x64x64 ![0, 1, 2] h x (ix3 b i j) = x (ix3 b (0 : Fin 1) j) :=
  broadcastInDim_apply _ h x _ _ fun a => by
    match a with
    | ⟨0, _⟩ => rfl
    | ⟨1, _⟩ => rfl
    | ⟨2, _⟩ => rfl
theorem bc_row1 (h : S16800x64.BroadcastsInDim S16800x1x64 ![0, 2]) (v : S16800x64.Idx → α) (b : Fin 16800) (j : Fin 64) :
    broadcastInDim S16800x1x64 ![0, 2] h v (ix3 b (0 : Fin 1) j) = v (ix2 b j) :=
  broadcastInDim_apply _ h v _ _ fun a => by
    match a with
    | ⟨0, _⟩ => rfl
    | ⟨1, _⟩ => rfl
theorem bc_all (h : S16800x1x1.BroadcastsInDim S16800x64x64 ![0, 1, 2]) (x : S16800x1x1.Idx → α)
    (b : Fin 16800) (i j : Fin 64) :
    broadcastInDim S16800x64x64 ![0, 1, 2] h x (ix3 b i j) = x (ix3 b (0 : Fin 1) (0 : Fin 1)) :=
  broadcastInDim_apply _ h x _ _ fun a => by
    match a with
    | ⟨0, _⟩ => rfl
    | ⟨1, _⟩ => rfl
    | ⟨2, _⟩ => rfl
theorem bc_all1 (h : S16800.BroadcastsInDim S16800x1x1 ![0]) (v : S16800.Idx → α) (b : Fin 16800) :
    broadcastInDim S16800x1x1 ![0] h v (ix3 b (0 : Fin 1) (0 : Fin 1)) = v (ix1 b) :=
  broadcastInDim_apply _ h v _ _ fun a => by
    match a with
    | ⟨0, _⟩ => rfl
theorem bc_one (h : S1x1x1.BroadcastsInDim S16800x64x64 ![0, 1, 2]) (x : S1x1x1.Idx → α)
    (b : Fin 16800) (i j : Fin 64) :
    broadcastInDim S16800x64x64 ![0, 1, 2] h x (ix3 b i j) = x (ix3 (0 : Fin 1) (0 : Fin 1) (0 : Fin 1)) :=
  broadcastInDim_apply _ h x _ _ fun a => by
    match a with
    | ⟨0, _⟩ => rfl
    | ⟨1, _⟩ => rfl
    | ⟨2, _⟩ => rfl
theorem bc_one1 (h : S1x1.BroadcastsInDim S1x1x1 ![1, 2]) (t : S1x1.Idx → α) :
    broadcastInDim S1x1x1 ![1, 2] h t (ix3 (0 : Fin 1) (0 : Fin 1) (0 : Fin 1)) = t (ix2 (0 : Fin 1) (0 : Fin 1)) :=
  broadcastInDim_apply _ h t _ _ fun a => by
    match a with
    | ⟨0, _⟩ => rfl
    | ⟨1, _⟩ => rfl
/-- A column of index words: the vector's entry p at (p, 0). -/
theorem bc_idx (h : S64.BroadcastsInDim S64x1 ![0]) (v : S64.Idx → α) (p : Fin 64) :
    broadcastInDim S64x1 ![0] h v (ix2 p (0 : Fin 1)) = v (ix1 p) :=
  broadcastInDim_apply _ h v _ _ fun a => by
    match a with
    | ⟨0, _⟩ => rfl

end Broadcasts

/-! ## The three reductions, read at an index

Each starts from the zero word, so it is the plain sum over the dropped coordinates. -/

theorem sum_axis2 (D : FVec Ideal S16800x64x64 .f32) (b : Fin 16800) (i : Fin 64) :
    Host.reduceAdd (F := Ideal) D (constant (F := Ideal) S_ .f32 0x00000000#32) reducesTo_S16800x64x64_S16800x64_d2 h_S_ (ix2 b i)
      = ∑ k : Fin 64, D (ix3 b i k) := by
  have hred : S16800x64x64.Reduces [2] S16800x64 := by decide
  rw [hostReduceAdd_apply]
  refine (Ideal.hostReduceAdd_single reducesTo_S16800x64x64_S16800x64_d2 hred D _ (ix2 b i)).trans ?_
  rw [show (constant (F := Ideal) S_ .f32 0x00000000#32) (Shape.Idx.first h_S_) = (0 : EReal) from Ideal.ofBits_zero_f32, zero_add]
  refine Finset.sum_congr rfl fun k _ => congrArg D (funext fun a => Fin.ext ?_)
  match a with
  | ⟨0, _⟩ => rfl
  | ⟨1, _⟩ => rfl
  | ⟨2, _⟩ => rfl

theorem sum_axis1 (D : FVec Ideal S16800x64x64 .f32) (b : Fin 16800) (j : Fin 64) :
    Host.reduceAdd (F := Ideal) D (constant (F := Ideal) S_ .f32 0x00000000#32) reducesTo_S16800x64x64_S16800x64_d1 h_S_ (ix2 b j)
      = ∑ k : Fin 64, D (ix3 b k j) := by
  have hred : S16800x64x64.Reduces [1] S16800x64 := by decide
  rw [hostReduceAdd_apply]
  refine (Ideal.hostReduceAdd_single reducesTo_S16800x64x64_S16800x64_d1 hred D _ (ix2 b j)).trans ?_
  rw [show (constant (F := Ideal) S_ .f32 0x00000000#32) (Shape.Idx.first h_S_) = (0 : EReal) from Ideal.ofBits_zero_f32, zero_add]
  refine Finset.sum_congr rfl fun k _ => congrArg D (funext fun a => Fin.ext ?_)
  match a with
  | ⟨0, _⟩ => rfl
  | ⟨1, _⟩ => rfl
  | ⟨2, _⟩ => rfl

theorem sum_axes12 (D : FVec Ideal S16800x64x64 .f32) (b : Fin 16800) :
    Host.reduceAdd (F := Ideal) D (constant (F := Ideal) S_ .f32 0x00000000#32) reducesTo_S16800x64x64_S16800_d1_2 h_S_ (ix1 b)
      = ∑ p : Fin 64, ∑ q : Fin 64, D (ix3 b p q) := by
  have hred : S16800x64x64.Reduces [1, 2] S16800 := by decide
  rw [hostReduceAdd_apply]
  refine (Cert.LibSums.hostReduceAdd_12 reducesTo_S16800x64x64_S16800_d1_2 hred D _ (ix1 b)).trans ?_
  rw [show (constant (F := Ideal) S_ .f32 0x00000000#32) (Shape.Idx.first h_S_) = (0 : EReal) from Ideal.ofBits_zero_f32, zero_add]
    <;> rfl

/-! ## The arrays of the stretch, as functions of what they are computed from -/

/-- A column of the index pairs: the words 0 … 63 (a negative word would have 64 added; none is). -/
def idxCol : IVec S64x1 32 :=
  broadcastInDim S64x1 ![0] bcast_S64_S64x1_0
    (select (cmpi .slt (iotaInDim S64 32 0) (broadcastInDim S64 ![] bcast_S_S64 (constantI S_ 32 0#32)))
      (addi (iotaInDim S64 32 0) (broadcastInDim S64 ![] bcast_S_S64 (constantI S_ 32 64#32)))
      (iotaInDim S64 32 0))

theorem idxCol_apply (p : Fin 64) : idxCol (ix2 p (0 : Fin 1)) = BitVec.ofNat 32 p.val := by
  unfold idxCol
  rw [bc_idx, select_apply]
  show Scalar.select (IntOp.cmpi .slt (BitVec.ofNat 32 p.val) 0#32) _ (BitVec.ofNat 32 p.val) = _
  rw [iota_not_neg, select_zero]

/-- The two columns side by side. -/
def pairArr (u v : IVec S64x1 32) : IVec S64x2 32 :=
  concatenate S64x2 1 [⟨S64x1, u⟩, ⟨S64x1, v⟩] concatenates_S64x1_S64x1_S64x2_d1

theorem pairArr_0 (u v : IVec S64x1 32) (p : Fin 64) : pairArr u v (ix2 p (0 : Fin 2)) = u (ix2 p (0 : Fin 1)) := by
  unfold pairArr
  exact concatenate_pair_apply_left (t := S64x2) (s₁ := S64x1) (s₂ := S64x1) (1 : Fin S64x2.rank) u v
    concatenates_S64x1_S64x1_S64x2_d1 (ix2 p (0 : Fin 2)) rfl (ix2 p (0 : Fin 1)) fun a => by
      match a with
      | ⟨0, _⟩ => rfl
      | ⟨1, _⟩ => rfl
theorem pairArr_1 (u v : IVec S64x1 32) (p : Fin 64) : pairArr u v (ix2 p (1 : Fin 2)) = v (ix2 p (0 : Fin 1)) := by
  unfold pairArr
  exact concatenate_pair_apply_right (t := S64x2) (s₁ := S64x1) (s₂ := S64x1) (1 : Fin S64x2.rank) u v
    concatenates_S64x1_S64x1_S64x2_d1 (ix2 p (1 : Fin 2)) rfl rfl (ix2 p (0 : Fin 1))
    (fun a ha => by
      match a with
      | ⟨0, _⟩ => rfl
      | ⟨1, _⟩ => exact absurd rfl ha)
    rfl

/-- The squared distances ‖xⱼ‖² + ‖xᵢ‖² − 2⟨xᵢ, xⱼ⟩ from the Gram array and its diagonal. -/
def sqArr (G : FVec Ideal S16800x64x64 .f32) (DG : FVec Ideal S16800x64 .f32) : FVec Ideal S16800x64x64 .f32 :=
  subf
    (addf
      (broadcastInDim S16800x64x64 ![0, 1, 2] bcast_S16800x1x64_S16800x64x64_0_1_2
        (broadcastInDim S16800x1x64 ![0, 2] bcast_S16800x64_S16800x1x64_0_2 DG))
      (broadcastInDim S16800x64x64 ![0, 1, 2] bcast_S16800x64x1_S16800x64x64_0_1_2
        (broadcastInDim S16800x64x1 ![0, 1] bcast_S16800x64_S16800x64x1_0_1 DG)))
    (mulf (broadcastInDim S16800x64x64 ![] bcast_S_S16800x64x64 (constant (F := Ideal) S_ .f32 0x40000000#32)) G)

theorem sqArr_apply (G : FVec Ideal S16800x64x64 .f32) (DG : FVec Ideal S16800x64 .f32) (b : Fin 16800) (i j : Fin 64) :
    sqArr G DG (ix3 b i j) = DG (ix2 b j) + DG (ix2 b i) - Cert.Spec.c2 * G (ix3 b i j) := by
  unfold sqArr
  rw [subf_apply, addf_apply, mulf_apply, bc_row, bc_row1, bc_col, bc_col1, broadcastInDim_scalar_apply]
  rfl

/-- The host's square root and exponential at an index are the extended reals'. -/
theorem hostSqrt_apply {s : Shape} (x : FVec Ideal s .f32) (i : s.Idx) : Host.sqrt x i = Ideal.sqrt (x i) := rfl
theorem hostExp_apply {s : Shape} (x : FVec Ideal s .f32) (i : s.Idx) : Host.exp x i = Ideal.exp (x i) := rfl

/-- The smoothed distances: the scale is the exponential of the one temperature entry. -/
def distArr (T : FVec Ideal S1x1 .f32) (SQ : FVec Ideal S16800x64x64 .f32) : FVec Ideal S16800x64x64 .f32 :=
  Host.sqrt
    (addf
      (mulf
        (broadcastInDim S16800x64x64 ![0, 1, 2] bcast_S1x1x1_S16800x64x64_0_1_2
          (broadcastInDim S1x1x1 ![1, 2] bcast_S1x1_S1x1x1_1_2 (Host.exp T)))
        (maximumf (broadcastInDim S16800x64x64 ![] bcast_S_S16800x64x64 (constant (F := Ideal) S_ .f32 0x00000000#32)) SQ))
      (broadcastInDim S16800x64x64 ![] bcast_S_S16800x64x64 (constant (F := Ideal) S_ .f32 0x3727C5AC#32)))

theorem distArr_apply (T : FVec Ideal S1x1 .f32) (SQ : FVec Ideal S16800x64x64 .f32) (b : Fin 16800) (i j : Fin 64) :
    distArr T SQ (ix3 b i j)
      = Ideal.sqrt (Ideal.exp (T (ix2 (0 : Fin 1) (0 : Fin 1))) * max (SQ (ix3 b i j)) Cert.Spec.c0 + Cert.Spec.ceps) := by
  unfold distArr
  rw [hostSqrt_apply, addf_apply, mulf_apply, maximumf_apply, bc_one, bc_one1, hostExp_apply,
    broadcastInDim_scalar_apply, broadcastInDim_scalar_apply, max_comm]
  rfl

/-- The centring: minus the row means, minus the column means, plus the grand mean. -/
def cenArr (D : FVec Ideal S16800x64x64 .f32) : FVec Ideal S16800x64x64 .f32 :=
  addf
    (subf
      (subf D
        (broadcastInDim S16800x64x64 ![0, 1, 2] bcast_S16800x64x1_S16800x64x64_0_1_2
          (Host.divf
            (broadcastInDim S16800x64x1 ![0, 1] bcast_S16800x64_S16800x64x1_0_1
              (Host.reduceAdd (F := Ideal) D (constant (F := Ideal) S_ .f32 0x00000000#32) reducesTo_S16800x64x64_S16800x64_d2 h_S_))
            (broadcastInDim S16800x64x1 ![] bcast_S_S16800x64x1 (constant (F := Ideal) S_ .f32 0x42800000#32)))))
      (broadcastInDim S16800x64x64 ![0, 1, 2] bcast_S16800x1x64_S16800x64x64_0_1_2
        (Host.divf
          (broadcastInDim S16800x1x64 ![0, 2] bcast_S16800x64_S16800x1x64_0_2
            (Host.reduceAdd (F := Ideal) D (constant (F := Ideal) S_ .f32 0x00000000#32) reducesTo_S16800x64x64_S16800x64_d1 h_S_))
          (broadcastInDim S16800x1x64 ![] bcast_S_S16800x1x64 (constant (F := Ideal) S_ .f32 0x42800000#32)))))
    (broadcastInDim S16800x64x64 ![0, 1, 2] bcast_S16800x1x1_S16800x64x64_0_1_2
      (Host.divf
        (broadcastInDim S16800x1x1 ![0] bcast_S16800_S16800x1x1_0
          (Host.reduceAdd (F := Ideal) D (constant (F := Ideal) S_ .f32 0x00000000#32) reducesTo_S16800x64x64_S16800_d1_2 h_S_))
        (broadcastInDim S16800x1x1 ![] bcast_S_S16800x1x1 (constant (F := Ideal) S_ .f32 0x45800000#32))))

theorem cenArr_apply (D : FVec Ideal S16800x64x64 .f32) (b : Fin 16800) (i j : Fin 64) :
    cenArr D (ix3 b i j)
      = D (ix3 b i j) - Ideal.div (∑ j' : Fin 64, D (ix3 b i j')) Cert.Spec.c64
          - Ideal.div (∑ i' : Fin 64, D (ix3 b i' j)) Cert.Spec.c64
          + Ideal.div (∑ i' : Fin 64, ∑ j' : Fin 64, D (ix3 b i' j')) Cert.Spec.c4096 := by
  unfold cenArr
  rw [addf_apply, subf_apply, subf_apply, bc_col, bc_row, bc_all, hostDivf_apply, hostDivf_apply, hostDivf_apply,
    bc_col1, bc_row1, bc_all1, sum_axis2, sum_axis1, sum_axes12,
    broadcastInDim_scalar_apply, broadcastInDim_scalar_apply, broadcastInDim_scalar_apply]
  rfl

/-! ## The run of the stretch, in two pieces -/

/-- The stretch is its first twenty-four operations followed by the rest. -/
theorem after_opsA_split (V : Valuation τ sig (Elt Ideal)) :
    after opsA V = after (opsA.drop 24) (after (opsA.take 24) V) := by
  rw [← StableHlo.after_append, List.take_append_drop]

/-- After the first piece the product buffer holds the product of the flattened features with themselves … -/
theorem first_v1 (V : Valuation τ sig (Elt Ideal)) :
    (after (opsA.take 24) V (Proc.devRef .tc main_v1) : FVec Ideal S16800x64x64 .f32)
      = Host.dotGeneral (F := Ideal) dot_S16800x64x49_S16800x64x49_S16800x64x64_2_2_1_1_0_0 none
          (Cert.Spec.flat (V (Proc.devRef .tc main_arg0))) (Cert.Spec.flat (V (Proc.devRef .tc main_arg0))) := by
  simp only [opsA, List.take_succ_cons, List.take_zero]
  after_results_simp <;> rfl
/-- … the two index columns hold the words 0 … 63 … -/
theorem first_v12 (V : Valuation τ sig (Elt Ideal)) :
    (after (opsA.take 24) V (Proc.devRef .tc main_call0_v12) : IVec S64x1 32) = idxCol := by
  simp only [opsA, List.take_succ_cons, List.take_zero]
  after_results_simp <;> rfl
theorem first_v13 (V : Valuation τ sig (Elt Ideal)) :
    (after (opsA.take 24) V (Proc.devRef .tc main_call0_v13) : IVec S64x1 32) = idxCol := by
  simp only [opsA, List.take_succ_cons, List.take_zero]
  after_results_simp <;> rfl
/-- … and the temperature is untouched. -/
theorem first_arg1 (V : Valuation τ sig (Elt Ideal)) :
    after (opsA.take 24) V (Proc.devRef .tc main_arg1) = V (Proc.devRef .tc main_arg1) := by
  simp only [opsA, List.take_succ_cons, List.take_zero]
  after_results_simp

/-- The second piece, over any valuation: the centred-matrix buffer as a function of the product buffer, the two index
    columns and the temperature. -/
theorem second_v36 (W : Valuation τ sig (Elt Ideal)) :
    (after (opsA.drop 24) W (Proc.devRef .tc main_v36) : FVec Ideal S16800x64x64 .f32)
      = cenArr (distArr (W (Proc.devRef .tc main_arg1))
          (sqArr (W (Proc.devRef .tc main_v1))
            (Host.gather gather_S16800x64x64_S64x2_S16800x64_0_12_n_n_12_1_1680011 (W (Proc.devRef .tc main_v1))
              (pairArr (W (Proc.devRef .tc main_call0_v12)) (W (Proc.devRef .tc main_call0_v13)))))) := by
  simp only [opsA, List.drop_succ_cons, List.drop_zero]
  after_results_simp <;> rfl

/-- After the first stretch the centred-matrix buffer holds the specification's centred matrix of each sample. -/
theorem cenA (V : Valuation τ sig (Elt Ideal)) (b : Fin 16800) (i j : Fin 64) :
    (after opsA V (Proc.devRef .tc main_v36) : FVec Ideal S16800x64x64 .f32) (ix3 b i j)
      = Cert.Spec.tv (Cert.Spec.flat (V (Proc.devRef .tc main_arg0)))
          (Ideal.exp ((V (Proc.devRef .tc main_arg1) : FVec Ideal S1x1 .f32) (ix2 0 0))) b i j := by
  rw [after_opsA_split, second_v36, first_v1, first_v12, first_v13, first_arg1, cenArr_apply]
  -- the smoothed distance of sample b at any pair of channels
  have hD : ∀ p q : Fin 64,
      distArr (V (Proc.devRef .tc main_arg1))
        (sqArr (Host.dotGeneral (F := Ideal) dot_S16800x64x49_S16800x64x49_S16800x64x64_2_2_1_1_0_0 none
            (Cert.Spec.flat (V (Proc.devRef .tc main_arg0))) (Cert.Spec.flat (V (Proc.devRef .tc main_arg0))))
          (Host.gather gather_S16800x64x64_S64x2_S16800x64_0_12_n_n_12_1_1680011
            (Host.dotGeneral (F := Ideal) dot_S16800x64x49_S16800x64x49_S16800x64x64_2_2_1_1_0_0 none
              (Cert.Spec.flat (V (Proc.devRef .tc main_arg0))) (Cert.Spec.flat (V (Proc.devRef .tc main_arg0))))
            (pairArr idxCol idxCol))) (ix3 b p q)
        = Cert.Spec.dist (Cert.Spec.samp (Cert.Spec.flat (V (Proc.devRef .tc main_arg0))) b)
            (Ideal.exp ((V (Proc.devRef .tc main_arg1) : FVec Ideal S1x1 .f32) (ix2 0 0))) p q := by
    intro p q
    rw [distArr_apply, sqArr_apply,
      diag_apply _ _ (fun r => (pairArr_0 _ _ r).trans (idxCol_apply r)) (fun r => (pairArr_1 _ _ r).trans (idxCol_apply r)),
      diag_apply _ _ (fun r => (pairArr_0 _ _ r).trans (idxCol_apply r)) (fun r => (pairArr_1 _ _ r).trans (idxCol_apply r)),
      gram_apply, gram_apply, gram_apply]
    rfl
  simp only [hD]
  rfl

/-- The row-index table, the column-index table and the two all-false masks, as the constants spell them. -/
theorem tabA_c (V : Valuation τ sig (Elt Ideal)) :
    (after opsA V (Proc.devRef .tc main_c) : IVec S2080 32) = fun i => lit0 (S2080.rowMajor i) := by
  after_results_simp <;> rfl
theorem tabA_c_0 (V : Valuation τ sig (Elt Ideal)) :
    (after opsA V (Proc.devRef .tc main_c_0) : IVec S2080 1) = constantI S2080 1 0#1 := by
  after_results_simp <;> rfl
theorem tabA_c_1 (V : Valuation τ sig (Elt Ideal)) :
    (after opsA V (Proc.devRef .tc main_c_1) : IVec S2080 32) = fun i => lit1 (S2080.rowMajor i) := by
  after_results_simp <;> rfl
theorem tabA_c_2 (V : Valuation τ sig (Elt Ideal)) :
    (after opsA V (Proc.devRef .tc main_c_2) : IVec S2080 1) = constantI S2080 1 0#1 := by
  after_results_simp <;> rfl

/-- The first stretch writes no argument. -/
theorem keepA_arg0 (V : Valuation τ sig (Elt Ideal)) : after opsA V (Proc.devRef .tc main_arg0) = V (Proc.devRef .tc main_arg0) := by
  after_results_simp
theorem keepA_arg1 (V : Valuation τ sig (Elt Ideal)) : after opsA V (Proc.devRef .tc main_arg1) = V (Proc.devRef .tc main_arg1) := by
  after_results_simp
theorem keepA_arg2 (V : Valuation τ sig (Elt Ideal)) : after opsA V (Proc.devRef .tc main_arg2) = V (Proc.devRef .tc main_arg2) := by
  after_results_simp

end Cert.ReferenceIdeal.Val

end
-- ==== Proof.RefTriu.lean ====
/-
  The two literal index tables enumerate the upper triangle of a 64 by 64 matrix row by row: entry k of the first is
  the row, of the second the column, with row ≤ column, each pair of the triangle met exactly once.  So a sum over the
  2080 table entries of a function of (row, column) is the sum over the triangle; and the program's gather through
  the two tables (each first passed through a select on an all-false mask, which changes nothing, then laid side by
  side as index pairs) reads the centred matrix of sample b at (row k, column k).
-/
import proofs.«426365_j31061203484793_1_alg».proof.Proof.RefRun
import proofs.«426365_j31061203484793_1_alg».proof.Proof.Spec
import Idealize.ShloMosaic.Lib.ValueLayout
import Idealize.ShloMosaic.Lib.Pipeline.Value
import Idealize.ShloMosaic.Lib.StableHlo.Predicate
import Idealize.ShloMosaic.Lib.Decide
import Mathlib.Algebra.BigOperators.Group.Finset.Defs

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-- Entry k of the row table and of the column table, as channel indices. -/
def tI (k : Fin 2080) : Fin 64 := ⟨(lit0 k).toNat % 64, Nat.mod_lt _ (by decide)⟩
def tJ (k : Fin 2080) : Fin 64 := ⟨(lit1 k).toNat % 64, Nat.mod_lt _ (by decide)⟩

/-! ## The tables list the upper triangle row by row -/

/-- The place of the pair (i, j), i ≤ j, when the triangle is listed row by row: the i rows above row i hold
    64 + 63 + … + (65 − i) = 64·i − i·(i − 1)/2 pairs, and row i starts at its diagonal entry, so j − i of its pairs
    stand before (i, j). -/
private def pos (i j : Nat) : Nat := i * 64 - i * (i - 1) / 2 + (j - i)

/-- Entry k of the tables is a pair (row ≤ column < 64) whose place in the row-by-row list is k: read off the 2080
    literal entries one by one. -/
private theorem tbl_fwd : ∀ k : Fin 2080,
    (lit0 k).toNat ≤ (lit1 k).toNat ∧ (lit1 k).toNat < 64 ∧ pos (lit0 k).toNat (lit1 k).toNat = k.val := by
  decide +kernel

/-- Conversely the pair (i, j), i ≤ j, stands in the tables at its place: read off the 64 · 64 pairs one by one. -/
private theorem tbl_bwd : ∀ i j : Fin 64, i ≤ j →
    pos i.val j.val < 2080 ∧ (lit0t (pos i.val j.val)).toNat = i.val ∧ (lit1t (pos i.val j.val)).toNat = j.val := by
  decide +kernel

/-- The row entry is below 64, so reducing it mod 64 changes nothing. -/
private theorem tI_val (k : Fin 2080) : (tI k).val = (lit0 k).toNat := by
  show (lit0 k).toNat % 64 = (lit0 k).toNat
  exact Nat.mod_eq_of_lt (lt_of_le_of_lt (tbl_fwd k).1 (tbl_fwd k).2.1)

/-- The column entry is below 64, so reducing it mod 64 changes nothing. -/
private theorem tJ_val (k : Fin 2080) : (tJ k).val = (lit1 k).toNat := by
  show (lit1 k).toNat % 64 = (lit1 k).toNat
  exact Nat.mod_eq_of_lt (tbl_fwd k).2.1

/-- The place of a pair as a table index (entry 0 for the pairs below the diagonal, which have no place). -/
private def unpos (p : Fin 64 × Fin 64) : Fin 2080 :=
  if h : pos p.1.val p.2.val < 2080 then ⟨pos p.1.val p.2.val, h⟩ else ⟨0, by decide⟩

private theorem unpos_eq (p : Fin 64 × Fin 64) (k : Fin 2080) (h : pos p.1.val p.2.val = k.val) : unpos p = k := by
  unfold unpos
  rw [dif_pos (by rw [h]; exact k.isLt)]
  exact Fin.ext h

private theorem mem_triu (p : Fin 64 × Fin 64) : p ∈ Cert.Spec.triu ↔ p.1 ≤ p.2 := by
  unfold Cert.Spec.triu
  simp only [Finset.mem_filter, Finset.mem_univ, true_and]

/-- Summing over the table entries is summing over the upper triangle. -/
theorem sum_triu {M : Type*} [AddCommMonoid M] (f : Fin 64 → Fin 64 → M) :
    ∑ k : Fin 2080, f (tI k) (tJ k) = ∑ p ∈ Cert.Spec.triu, f p.1 p.2 := by
  -- k ↦ (row k, column k) and (i, j) ↦ its place are inverse bijections between the 2080 entries and the triangle
  refine Finset.sum_nbij' (fun k => (tI k, tJ k)) unpos ?_ ?_ ?_ ?_ ?_
  · intro k _
    refine (mem_triu _).2 ?_
    show (tI k).val ≤ (tJ k).val
    rw [tI_val, tJ_val]
    exact (tbl_fwd k).1
  · intro p _
    exact Finset.mem_univ _
  · intro k _
    refine unpos_eq _ k ?_
    show pos (tI k).val (tJ k).val = k.val
    rw [tI_val, tJ_val]
    exact (tbl_fwd k).2.2
  · intro p hp
    obtain ⟨h1, h2, h3⟩ := tbl_bwd p.1 p.2 ((mem_triu p).1 hp)
    have e : unpos p = ⟨pos p.1.val p.2.val, h1⟩ := unpos_eq p ⟨pos p.1.val p.2.val, h1⟩ rfl
    show (tI (unpos p), tJ (unpos p)) = p
    rw [e]
    refine Prod.ext (Fin.ext ?_) (Fin.ext ?_)
    · show (lit0t (pos p.1.val p.2.val)).toNat % 64 = p.1.val
      rw [h2]
      exact Nat.mod_eq_of_lt p.1.isLt
    · show (lit1t (pos p.1.val p.2.val)).toNat % 64 = p.2.val
      rw [h3]
      exact Nat.mod_eq_of_lt p.2.isLt
  · intro k _
    rfl

/-! ## The gather through the two tables -/

/-- The gather's dimension numbers: operand [16800, 64, 64], index pairs [2080, 2], result [16800, 2080]; the sample
    axis is kept whole, the two channel axes are collapsed and addressed by the pair. -/
private abbrev gd : GatherDims S16800x64x64 S2080x2 S16800x2080 :=
  gather_S16800x64x64_S2080x2_S16800x2080_0_12_n_n_12_1_1680011

/-- The pair result index (b, k) reads is pair k of the index array: its first component … -/
private theorem siIdx_row (b : Fin 16800) (k : Fin 2080)
    (h : List.idxOf (1 : Fin S16800x64x64.rank) gd.startIndexMap < gd.startIndexMap.length) :
    gd.siIdx (ix2 b k) ⟨List.idxOf (1 : Fin S16800x64x64.rank) gd.startIndexMap, h⟩ = ix2 k (0 : Fin 2) := by
  funext a
  refine Fin.ext ?_
  match a with
  | ⟨0, _⟩ => rfl
  | ⟨1, _⟩ => rfl

/-- … and its second. -/
private theorem siIdx_col (b : Fin 16800) (k : Fin 2080)
    (h : List.idxOf (2 : Fin S16800x64x64.rank) gd.startIndexMap < gd.startIndexMap.length) :
    gd.siIdx (ix2 b k) ⟨List.idxOf (2 : Fin S16800x64x64.rank) gd.startIndexMap, h⟩ = ix2 k (1 : Fin 2) := by
  funext a
  refine Fin.ext ?_
  match a with
  | ⟨0, _⟩ => rfl
  | ⟨1, _⟩ => rfl

/-- On the sample axis the operand index is the result's sample coordinate: no start index, no batching, offset b. -/
private theorem opIdx_0 (idx : IVec S2080x2 32) (b : Fin 16800) (k : Fin 2080) :
    (gd.operandIdx (ix2 b k) idx 0).val = b.val := by
  show gd.start (ix2 b k) idx 0 + gd.batchCoord (ix2 b k) 0 + gd.offCoord (ix2 b k) 0 = b.val
  have hm : (0 : Fin S16800x64x64.rank) ∉ gd.startIndexMap := by decide
  have hk : (0 : Fin S16800x64x64.rank) ∈ gd.sKept := by decide
  have hs : gd.start (ix2 b k) idx 0 = 0 := by
    unfold GatherDims.start
    exact dif_neg hm
  have hb : gd.batchCoord (ix2 b k) 0 = 0 := GatherDims.batchCoord_eq_zero gd (ix2 b k) 0 List.not_mem_nil
  have ho : gd.offCoord (ix2 b k) 0 = b.val := by
    unfold GatherDims.offCoord
    refine (dif_pos hk).trans ?_
    rfl
  simp only [hs, hb, ho, Nat.zero_add]

/-- On the row axis the operand index is the pair's first component, read signed and clamped into 0 … 63. -/
private theorem opIdx_1 (idx : IVec S2080x2 32) (b : Fin 16800) (k : Fin 2080) :
    (gd.operandIdx (ix2 b k) idx 1).val = min (idx (ix2 k (0 : Fin 2))).toInt.toNat 63 := by
  show gd.start (ix2 b k) idx 1 + gd.batchCoord (ix2 b k) 1 + gd.offCoord (ix2 b k) 1 = _
  have hb : gd.batchCoord (ix2 b k) 1 = 0 := GatherDims.batchCoord_eq_zero gd (ix2 b k) 1 List.not_mem_nil
  have ho : gd.offCoord (ix2 b k) 1 = 0 :=
    GatherDims.offCoord_eq_zero gd (ix2 b k) 1 (fun h => ((GatherDims.mem_sKept gd 1).mp h).1 (by decide))
  have hm : (1 : Fin S16800x64x64.rank) ∈ gd.startIndexMap := by decide
  have h63 : S16800x64x64.size 1 - gd.sliceSizes 1 = 63 := by decide
  have hs : gd.start (ix2 b k) idx 1 = min (idx (ix2 k (0 : Fin 2))).toInt.toNat 63 := by
    unfold GatherDims.start
    refine (dif_pos hm).trans ?_
    rw [siIdx_row, h63]
  simp only [hs, hb, ho, Nat.add_zero]

/-- On the column axis the operand index is the pair's second component, read signed and clamped into 0 … 63. -/
private theorem opIdx_2 (idx : IVec S2080x2 32) (b : Fin 16800) (k : Fin 2080) :
    (gd.operandIdx (ix2 b k) idx 2).val = min (idx (ix2 k (1 : Fin 2))).toInt.toNat 63 := by
  show gd.start (ix2 b k) idx 2 + gd.batchCoord (ix2 b k) 2 + gd.offCoord (ix2 b k) 2 = _
  have hb : gd.batchCoord (ix2 b k) 2 = 0 := GatherDims.batchCoord_eq_zero gd (ix2 b k) 2 List.not_mem_nil
  have ho : gd.offCoord (ix2 b k) 2 = 0 :=
    GatherDims.offCoord_eq_zero gd (ix2 b k) 2 (fun h => ((GatherDims.mem_sKept gd 2).mp h).1 (by decide))
  have hm : (2 : Fin S16800x64x64.rank) ∈ gd.startIndexMap := by decide
  have h63 : S16800x64x64.size 2 - gd.sliceSizes 2 = 63 := by decide
  have hs : gd.start (ix2 b k) idx 2 = min (idx (ix2 k (1 : Fin 2))).toInt.toNat 63 := by
    unfold GatherDims.start
    refine (dif_pos hm).trans ?_
    rw [siIdx_col, h63]
  simp only [hs, hb, ho, Nat.add_zero]

/-- THE GATHER AT (b, k): the operand of sample b at the pair k of the index array, each component clamped. -/
private theorem gather_read (x : FVec Ideal S16800x64x64 .f32) (idx : IVec S2080x2 32) (b : Fin 16800) (k : Fin 2080) :
    Host.gather gd x idx (ix2 b k)
      = x (ix3 b (⟨min (idx (ix2 k (0 : Fin 2))).toInt.toNat 63, by omega⟩ : Fin 64)
            (⟨min (idx (ix2 k (1 : Fin 2))).toInt.toNat 63, by omega⟩ : Fin 64)) := by
  show x (gd.operandIdx (ix2 b k) idx) = _
  refine congrArg x (funext fun a => Fin.ext ?_)
  match a with
  | ⟨0, _⟩ => exact opIdx_0 idx b k
  | ⟨1, _⟩ => exact opIdx_1 idx b k
  | ⟨2, _⟩ => exact opIdx_2 idx b k

/-- A word below 64 read signed is itself, and the clamp into 0 … 63 leaves it. -/
private theorem clamp_id (w : BitVec 32) (h : w.toNat < 64) : min w.toInt.toNat 63 = w.toNat := by
  have e : w.toInt = (w.toNat : Int) := BitVec.toInt_eq_toNat_of_lt (by omega)
  rw [e, Int.toNat_natCast]
  omega

/-- The index pairs the program lays side by side, as a function of the two tables and the two masks: each table
    plus 64 where its mask is set, else the table; each result made a column; the two columns concatenated. -/
private def pairs (c : IVec S2080 32) (m : IVec S2080 1) (c1 : IVec S2080 32) (m1 : IVec S2080 1) : IVec S2080x2 32 :=
  concatenate S2080x2 1
    [⟨S2080x1, broadcastInDim S2080x1 ![0] bcast_S2080_S2080x1_0
        (select m (addi c (broadcastInDim S2080 ![] bcast_S_S2080 (constantI S_ 32 64#32))) c)⟩,
     ⟨S2080x1, broadcastInDim S2080x1 ![0] bcast_S2080_S2080x1_0
        (select m1 (addi c1 (broadcastInDim S2080 ![] bcast_S_S2080 (constantI S_ 32 64#32))) c1)⟩]
    concatenates_S2080x1_S2080x1_S2080x2_d1

/-- A column made of a table selected on the all-false mask reads, at row k, the table's entry k. -/
private theorem column_apply (c : IVec S2080 32) (k : Fin 2080) :
    broadcastInDim S2080x1 ![0] bcast_S2080_S2080x1_0
      (select (constantI S2080 1 0#1) (addi c (broadcastInDim S2080 ![] bcast_S_S2080 (constantI S_ 32 64#32))) c)
      (ix2 k (0 : Fin 1)) = c (ix1 k) := by
  refine (broadcastInDim_apply _ _ _ (ix2 k (0 : Fin 1)) (ix1 k) ?_).trans ?_
  · intro a
    match a with
    | ⟨0, _⟩ => rfl
  · exact select_zero _ _

/-- With both masks all false, column 0 of the pairs is the first table … -/
private theorem pairs_row (c c1 : IVec S2080 32) (k : Fin 2080) :
    pairs c (constantI S2080 1 0#1) c1 (constantI S2080 1 0#1) (ix2 k (0 : Fin 2)) = c (ix1 k) := by
  unfold pairs
  refine (concatenate_pair_apply_left (1 : Fin S2080x2.rank) _ _ concatenates_S2080x1_S2080x1_S2080x2_d1
    (ix2 k (0 : Fin 2)) rfl (ix2 k (0 : Fin 1)) ?_).trans (column_apply c k)
  intro a
  match a with
  | ⟨0, _⟩ => rfl
  | ⟨1, _⟩ => rfl

/-- … and column 1 the second. -/
private theorem pairs_col (c c1 : IVec S2080 32) (k : Fin 2080) :
    pairs c (constantI S2080 1 0#1) c1 (constantI S2080 1 0#1) (ix2 k (1 : Fin 2)) = c1 (ix1 k) := by
  unfold pairs
  refine (concatenate_pair_apply_right (1 : Fin S2080x2.rank) _ _ concatenates_S2080x1_S2080x1_S2080x2_d1
    (ix2 k (1 : Fin 2)) rfl rfl (ix2 k (0 : Fin 1)) ?_ rfl).trans (column_apply c1 k)
  intro a ha
  match a, ha with
  | ⟨0, _⟩, _ => rfl
  | ⟨1, _⟩, ha => exact absurd (Fin.ext rfl) ha

/-- The gather through the pairs of two tables whose entries k are the channel indices i and j reads (b, i, j). -/
private theorem gather_tables (x : FVec Ideal S16800x64x64 .f32) (c c1 : IVec S2080 32) (b : Fin 16800) (k : Fin 2080)
    (i j : Fin 64) (hi : (c (ix1 k)).toNat = i.val) (hj : (c1 (ix1 k)).toNat = j.val) :
    Host.gather gd x (pairs c (constantI S2080 1 0#1) c1 (constantI S2080 1 0#1)) (ix2 b k) = x (ix3 b i j) := by
  refine (gather_read x _ b k).trans (congrArg x ?_)
  funext a
  match a with
  | ⟨0, _⟩ => rfl
  | ⟨1, _⟩ =>
    refine Fin.ext ?_
    show min (pairs c (constantI S2080 1 0#1) c1 (constantI S2080 1 0#1) (ix2 k (0 : Fin 2))).toInt.toNat 63 = i.val
    rw [pairs_row, clamp_id _ (by rw [hi]; exact i.isLt), hi]
  | ⟨2, _⟩ =>
    refine Fin.ext ?_
    show min (pairs c (constantI S2080 1 0#1) c1 (constantI S2080 1 0#1) (ix2 k (1 : Fin 2))).toInt.toNat 63 = j.val
    rw [pairs_col, clamp_id _ (by rw [hj]; exact j.isLt), hj]

/-- The second stretch's last buffer as a term over the buffers it reads. -/
private theorem afterB_v46 (W : Valuation τ sig (Elt Ideal)) :
    (after opsB W (Proc.devRef .tc main_v46) : FVec Ideal S16800x2080 .f32)
      = Host.gather gd (W (Proc.devRef .tc main_v36) : FVec Ideal S16800x64x64 .f32)
          (pairs (W (Proc.devRef .tc main_c)) (W (Proc.devRef .tc main_c_0))
            (W (Proc.devRef .tc main_c_1)) (W (Proc.devRef .tc main_c_2))) := by
  dsimp only [opsB]
  after_results
  rfl

/-- A table's buffer at k is the table's entry k (a rank-1 index's row-major position is its coordinate). -/
private theorem table_at (t : Fin 2080 → BitVec 32) (v : IVec S2080 32) (hv : v = fun i => t (S2080.rowMajor i))
    (k : Fin 2080) : v (ix1 k) = t k := by
  rw [hv]
  exact congrArg t (Fin.ext (Shape.rowMajor_val_one (ix1 k)))

/-- After the second stretch the gathered buffer holds, at (b, k), the centred matrix of sample b at the k-th pair of
    the triangle, whatever the first stretch left there, provided the four constant buffers hold the tables. -/
theorem gatherB (W : Valuation τ sig (Elt Ideal))
    (hc : (W (Proc.devRef .tc main_c) : IVec S2080 32) = fun i => lit0 (S2080.rowMajor i))
    (hc0 : (W (Proc.devRef .tc main_c_0) : IVec S2080 1) = constantI S2080 1 0#1)
    (hc1 : (W (Proc.devRef .tc main_c_1) : IVec S2080 32) = fun i => lit1 (S2080.rowMajor i))
    (hc2 : (W (Proc.devRef .tc main_c_2) : IVec S2080 1) = constantI S2080 1 0#1)
    (b : Fin 16800) (k : Fin 2080) :
    (after opsB W (Proc.devRef .tc main_v46) : FVec Ideal S16800x2080 .f32) (ix2 b k)
      = (W (Proc.devRef .tc main_v36) : FVec Ideal S16800x64x64 .f32) (ix3 b (tI k) (tJ k)) := by
  rw [afterB_v46 W, hc0, hc2]
  refine gather_tables _ _ _ b k (tI k) (tJ k) ?_ ?_
  · rw [table_at lit0 _ hc k, tI_val]
  · rw [table_at lit1 _ hc1 k, tJ_val]

/-- The second stretch writes no argument. -/
theorem keepB_arg0 (W : Valuation τ sig (Elt Ideal)) : after opsB W (Proc.devRef .tc main_arg0) = W (Proc.devRef .tc main_arg0) := by
  dsimp only [opsB]
  after_results <;> rfl
theorem keepB_arg1 (W : Valuation τ sig (Elt Ideal)) : after opsB W (Proc.devRef .tc main_arg1) = W (Proc.devRef .tc main_arg1) := by
  dsimp only [opsB]
  after_results <;> rfl
theorem keepB_arg2 (W : Valuation τ sig (Elt Ideal)) : after opsB W (Proc.devRef .tc main_arg2) = W (Proc.devRef .tc main_arg2) := by
  dsimp only [opsB]
  after_results <;> rfl

end Cert.ReferenceIdeal.Val

end
-- ==== Proof.RefScore.lean ====
/-
  The reference's third stretch read at an index.  From the gathered triangles G (16800 samples by 2080 entries) it
  takes the class prototypes (the mean over each class's 80 support rows), the squared norms of the query rows and of
  the prototypes, their inner products, and the score −(‖q‖² + ‖s‖² − 2⟨q, s⟩); each host reduction starts from its
  initial value, the zero word.
-/
import proofs.«426365_j31061203484793_1_alg».proof.Proof.RefRun
import proofs.«426365_j31061203484793_1_alg».proof.Proof.Spec
import proofs.«426365_j31061203484793_1_alg».proof.Proof.LibSums
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-- Query q's gathered row, and class cls's prototype row, from the gathered array. -/
def qRowOf (G : FVec Ideal S16800x2080 .f32) (q : Fin 16000) (k : Fin 2080) : EReal := G (ix2 (Cert.Spec.qRow q) k)
def supRowOf (G : FVec Ideal S16800x2080 .f32) (cls : Fin 10) (k : Fin 2080) : EReal :=
  Ideal.div (Cert.Spec.c0 + ∑ l : Fin 80, G (ix2 (Cert.Spec.supRow cls l) k)) Cert.Spec.c80

/-! ## The stretch's intermediate arrays as functions of the gathered array -/

/-- The query rows: the gathered array from row 800 on. -/
def qArr (G : FVec Ideal S16800x2080 .f32) : FVec Ideal S16000x2080 .f32 :=
  extractStridedSlice S16000x2080 ![800, 0] G slices_S16800x2080_S16000x2080_800_0

/-- The support rows, 80 to a class: rows 0 to 799 regrouped class by class. -/
def supArr (G : FVec Ideal S16800x2080 .f32) : FVec Ideal S10x80x2080 .f32 :=
  shapeCast S10x80x2080 (extractStridedSlice S800x2080 ![0, 0] G slices_S16800x2080_S800x2080_0_0)
    shapeCasts_S800x2080_S10x80x2080

/-- The class prototypes: each class's support rows summed from the zero word and divided by 80. -/
def protoArr (G : FVec Ideal S16800x2080 .f32) : FVec Ideal S10x2080 .f32 :=
  Host.divf
    (Host.reduceAdd (supArr G) (constant (F := Ideal) S_ .f32 0x00000000#32) reducesTo_S10x80x2080_S10x2080_d1 h_S_)
    (broadcastInDim S10x2080 ![] bcast_S_S10x2080 (constant (F := Ideal) S_ .f32 0x42A00000#32))

/-- The score array: minus (query norms, spread along the classes, plus prototype norms, spread along the queries, minus
    twice the inner products). -/
def scoreTerm (G : FVec Ideal S16800x2080 .f32) : FVec Ideal S16000x10 .f32 :=
  Host.negf (subf
    (addf
      (broadcastInDim S16000x10 ![0, 1] bcast_S16000x1_S16000x10_0_1
        (broadcastInDim S16000x1 ![0] bcast_S16000_S16000x1_0
          (Host.reduceAdd (mulf (qArr G) (qArr G)) (constant (F := Ideal) S_ .f32 0x00000000#32)
            reducesTo_S16000x2080_S16000_d1 h_S_)))
      (broadcastInDim S16000x10 ![0, 1] bcast_S1x10_S16000x10_0_1
        (broadcastInDim S1x10 ![1] bcast_S10_S1x10_1
          (Host.reduceAdd (mulf (protoArr G) (protoArr G)) (constant (F := Ideal) S_ .f32 0x00000000#32)
            reducesTo_S10x2080_S10_d1 h_S_))))
    (mulf (broadcastInDim S16000x10 ![] bcast_S_S16000x10 (constant (F := Ideal) S_ .f32 0x40000000#32))
      (Host.dotGeneral dot_S16000x2080_S10x2080_S16000x10_1_1_0_0_n_n none (qArr G) (protoArr G))))

/-! ## Each stage at an index -/

/-- The host's negation at an index negates the element. -/
theorem hostNegf_apply {s : Shape} (x : FVec Ideal s .f32) (i : s.Idx) : Host.negf x i = -(x i) := rfl

/-- Row q of the query rows is row 800 + q of the gathered array. -/
theorem qArr_apply (G : FVec Ideal S16800x2080 .f32) (q : Fin 16000) (k : Fin 2080) :
    qArr G (ix2 q k) = qRowOf G q k :=
  slice2_axis0_apply 800 G slices_S16800x2080_S16000x2080_800_0 q k (Cert.Spec.qRow q) rfl

/-- Support row l of class cls is row 80·cls + l of the gathered array: the regrouping keeps the row-major position,
    and the cut starts at row 0. -/
theorem supArr_apply (G : FVec Ideal S16800x2080 .f32) (cls : Fin 10) (l : Fin 80) (k : Fin 2080) :
    supArr G (ix3 cls l k) = G (ix2 (Cert.Spec.supRow cls l) k) := by
  unfold supArr
  refine (shapeCast_apply _ shapeCasts_S800x2080_S10x80x2080 (ix3 cls l k)
    (ix2 (⟨80 * cls.val + l.val, by omega⟩ : Fin 800) k) ?_).trans ?_
  · rw [Shape.rowMajor_val_two, Shape.rowMajor_val_three]
    show (80 * cls.val + l.val) * 2080 + k.val = (cls.val * 80 + l.val) * 2080 + k.val
    omega
  · exact slice2_axis0_apply 0 G slices_S16800x2080_S800x2080_0_0 _ k (Cert.Spec.supRow cls l) (Nat.zero_add _).symm

/-- A host sum over the middle axis of a [10, 80, 2080] array from the zero word. -/
theorem sumMid_apply (X : FVec Ideal S10x80x2080 .f32) (cls : Fin 10) (k : Fin 2080) :
    Host.reduceAdd X (constant (F := Ideal) S_ .f32 0x00000000#32) reducesTo_S10x80x2080_S10x2080_d1 h_S_ (ix2 cls k)
      = Cert.Spec.c0 + ∑ l : Fin 80, X (ix3 cls l k) := by
  rw [hostReduceAdd_apply]
  refine (Ideal.hostReduceAdd_single reducesTo_S10x80x2080_S10x2080_d1 (by decide) X _ (ix2 cls k)).trans ?_
  refine congrArg (_ + ·) (Finset.sum_congr rfl fun l _ => ?_)
  exact congrArg X (funext fun a => Fin.ext (by match a with | ⟨0, _⟩ => rfl | ⟨1, _⟩ => rfl | ⟨2, _⟩ => rfl))

/-- A host sum along the rows of an [n, 2080] array from the zero word, for the two heights met here. -/
theorem sumRowQ_apply (X : FVec Ideal S16000x2080 .f32) (q : Fin 16000) :
    Host.reduceAdd X (constant (F := Ideal) S_ .f32 0x00000000#32) reducesTo_S16000x2080_S16000_d1 h_S_ (ix1 q)
      = Cert.Spec.c0 + ∑ k : Fin 2080, X (ix2 q k) := by
  rw [hostReduceAdd_apply]
  refine (Ideal.hostReduceAdd_single reducesTo_S16000x2080_S16000_d1 (by decide) X _ (ix1 q)).trans ?_
  refine congrArg (_ + ·) (Finset.sum_congr rfl fun k _ => ?_)
  exact congrArg X (funext fun a => Fin.ext (by match a with | ⟨0, _⟩ => rfl | ⟨1, _⟩ => rfl))

theorem sumRowS_apply (X : FVec Ideal S10x2080 .f32) (cls : Fin 10) :
    Host.reduceAdd X (constant (F := Ideal) S_ .f32 0x00000000#32) reducesTo_S10x2080_S10_d1 h_S_ (ix1 cls)
      = Cert.Spec.c0 + ∑ k : Fin 2080, X (ix2 cls k) := by
  rw [hostReduceAdd_apply]
  refine (Ideal.hostReduceAdd_single reducesTo_S10x2080_S10_d1 (by decide) X _ (ix1 cls)).trans ?_
  refine congrArg (_ + ·) (Finset.sum_congr rfl fun k _ => ?_)
  exact congrArg X (funext fun a => Fin.ext (by match a with | ⟨0, _⟩ => rfl | ⟨1, _⟩ => rfl))

/-- Entry (cls, k) of the prototypes is the mean of class cls's 80 support entries k. -/
theorem protoArr_apply (G : FVec Ideal S16800x2080 .f32) (cls : Fin 10) (k : Fin 2080) :
    protoArr G (ix2 cls k) = supRowOf G cls k := by
  unfold protoArr supRowOf
  rw [hostDivf_apply, sumMid_apply, broadcastInDim_scalar_apply, constant_apply]
  simp only [supArr_apply]

/-- A per-query value spread along the classes ([16000] to [16000, 1] to [16000, 10]) reads the query's value. -/
theorem spreadQ_apply (x : FVec Ideal S16000 .f32) (q : Fin 16000) (cls : Fin 10) :
    broadcastInDim S16000x10 ![0, 1] bcast_S16000x1_S16000x10_0_1
      (broadcastInDim S16000x1 ![0] bcast_S16000_S16000x1_0 x) (ix2 q cls) = x (ix1 q) := by
  refine (broadcastInDim_apply _ bcast_S16000x1_S16000x10_0_1 _ (ix2 q cls) (ix2 q (0 : Fin 1)) ?_).trans ?_
  · intro a
    match a with
    | ⟨0, _⟩ => rfl
    | ⟨1, _⟩ => rfl
  · refine broadcastInDim_apply _ bcast_S16000_S16000x1_0 x (ix2 q (0 : Fin 1)) (ix1 q) ?_
    intro a
    match a with
    | ⟨0, _⟩ => rfl

/-- A per-class value spread along the queries ([10] to [1, 10] to [16000, 10]) reads the class's value. -/
theorem spreadS_apply (x : FVec Ideal S10 .f32) (q : Fin 16000) (cls : Fin 10) :
    broadcastInDim S16000x10 ![0, 1] bcast_S1x10_S16000x10_0_1
      (broadcastInDim S1x10 ![1] bcast_S10_S1x10_1 x) (ix2 q cls) = x (ix1 cls) := by
  refine (broadcastInDim_apply _ bcast_S1x10_S16000x10_0_1 _ (ix2 q cls) (ix2 (0 : Fin 1) cls) ?_).trans ?_
  · intro a
    match a with
    | ⟨0, _⟩ => rfl
    | ⟨1, _⟩ => rfl
  · refine broadcastInDim_apply _ bcast_S10_S1x10_1 x (ix2 (0 : Fin 1) cls) (ix1 cls) ?_
    intro a
    match a with
    | ⟨0, _⟩ => rfl

/-! ## The inner products: the contraction over the one shared axis

The left operand's axis 0 reads the result's coordinate 0 and the right operand's axis 0 the result's coordinate 1 (there
is no batch axis, so the free axes come first); axis 1 of each is the contracted one. -/

theorem lhs_dot_0 (i : S16000x10.Idx) (c : dot_S16000x2080_S10x2080_S16000x10_1_1_0_0_n_n.contr.Idx) :
    (dot_S16000x2080_S10x2080_S16000x10_1_1_0_0_n_n.lhsIdx i c 0).val = (i 0).val := by
  unfold DotDims.lhsIdx
  rw [dif_neg (show ¬(0 : Fin S16000x2080.rank) ∈ dot_S16000x2080_S10x2080_S16000x10_1_1_0_0_n_n.lhsBatch by decide),
    dif_pos (show (0 : Fin S16000x2080.rank) ∈ dot_S16000x2080_S10x2080_S16000x10_1_1_0_0_n_n.lhsNonContracting by decide)]
  rfl
theorem lhs_dot_1 (i : S16000x10.Idx) (c : dot_S16000x2080_S10x2080_S16000x10_1_1_0_0_n_n.contr.Idx) :
    (dot_S16000x2080_S10x2080_S16000x10_1_1_0_0_n_n.lhsIdx i c 1).val = (c ⟨0, by decide⟩).val :=
  dot_S16000x2080_S10x2080_S16000x10_1_1_0_0_n_n.lhsIdx_val_of_single rfl i c
theorem rhs_dot_0 (i : S16000x10.Idx) (c : dot_S16000x2080_S10x2080_S16000x10_1_1_0_0_n_n.contr.Idx) :
    (dot_S16000x2080_S10x2080_S16000x10_1_1_0_0_n_n.rhsIdx i c 0).val = (i 1).val := by
  unfold DotDims.rhsIdx
  rw [dif_neg (show ¬(0 : Fin S10x2080.rank) ∈ dot_S16000x2080_S10x2080_S16000x10_1_1_0_0_n_n.rhsBatch by decide),
    dif_pos (show (0 : Fin S10x2080.rank) ∈ dot_S16000x2080_S10x2080_S16000x10_1_1_0_0_n_n.rhsNonContracting by decide)]
  rfl
theorem rhs_dot_1 (i : S16000x10.Idx) (c : dot_S16000x2080_S10x2080_S16000x10_1_1_0_0_n_n.contr.Idx) :
    (dot_S16000x2080_S10x2080_S16000x10_1_1_0_0_n_n.rhsIdx i c 1).val = (c ⟨0, by decide⟩).val :=
  dot_S16000x2080_S10x2080_S16000x10_1_1_0_0_n_n.rhsIdx_val_of_single rfl i c

/-- The host's product of a [16000, 2080] and a [10, 2080] array over their second axes, at (q, cls): the sum over the
    2080 shared positions of the two rows' products. -/
theorem dot_apply (Q : FVec Ideal S16000x2080 .f32) (P : FVec Ideal S10x2080 .f32) (q : Fin 16000) (cls : Fin 10) :
    Host.dotGeneral dot_S16000x2080_S10x2080_S16000x10_1_1_0_0_n_n none Q P (ix2 q cls)
      = ∑ k : Fin 2080, Q (ix2 q k) * P (ix2 cls k) := by
  simp only [Host.dotGeneral]
  rw [Ideal.dotGeneral_apply,
    ← Equiv.sum_comp (contrEquiv1 dot_S16000x2080_S10x2080_S16000x10_1_1_0_0_n_n 2080 rfl rfl).symm]
  refine Finset.sum_congr rfl fun k _ => ?_
  have hk := contrEquiv1_symm_val dot_S16000x2080_S10x2080_S16000x10_1_1_0_0_n_n 2080 rfl rfl k
  have el : dot_S16000x2080_S10x2080_S16000x10_1_1_0_0_n_n.lhsIdx (ix2 q cls)
      ((contrEquiv1 dot_S16000x2080_S10x2080_S16000x10_1_1_0_0_n_n 2080 rfl rfl).symm k) = ix2 q k :=
    funext fun a => Fin.ext (by
      match a with
      | ⟨0, _⟩ => exact lhs_dot_0 _ _
      | ⟨1, _⟩ => exact (lhs_dot_1 _ _).trans hk)
  have er : dot_S16000x2080_S10x2080_S16000x10_1_1_0_0_n_n.rhsIdx (ix2 q cls)
      ((contrEquiv1 dot_S16000x2080_S10x2080_S16000x10_1_1_0_0_n_n 2080 rfl rfl).symm k) = ix2 cls k :=
    funext fun a => Fin.ext (by
      match a with
      | ⟨0, _⟩ => exact rhs_dot_0 _ _
      | ⟨1, _⟩ => exact (rhs_dot_1 _ _).trans hk)
  rw [el, er]

/-! ## The score at an index -/

/-- The score array at (q, cls), in the gathered rows. -/
theorem scoreTerm_apply (G : FVec Ideal S16800x2080 .f32) (q : Fin 16000) (cls : Fin 10) :
    scoreTerm G (ix2 q cls)
      = -((Cert.Spec.c0 + ∑ k : Fin 2080, qRowOf G q k * qRowOf G q k)
          + (Cert.Spec.c0 + ∑ k : Fin 2080, supRowOf G cls k * supRowOf G cls k)
          - Cert.Spec.c2 * ∑ k : Fin 2080, qRowOf G q k * supRowOf G cls k) := by
  unfold scoreTerm
  rw [hostNegf_apply, subf_apply, addf_apply, mulf_apply, spreadQ_apply, spreadS_apply, sumRowQ_apply, sumRowS_apply,
    dot_apply, broadcastInDim_scalar_apply, constant_apply]
  simp only [mulf_apply, qArr_apply, protoArr_apply]

/-- The third stretch leaves the composed score array in the score buffer. -/
theorem afterC_v66 (W : Valuation τ sig (Elt Ideal)) :
    (after opsC W (Proc.devRef .tc main_v66) : FVec Ideal S16000x10 .f32) = scoreTerm (W (Proc.devRef .tc main_v46)) := by
  after_results_simp
  rfl

/-- After the third stretch the score buffer holds minus the expanded squared distance of the gathered rows. -/
theorem scoreC (W : Valuation τ sig (Elt Ideal)) (q : Fin 16000) (cls : Fin 10) :
    (after opsC W (Proc.devRef .tc main_v66) : FVec Ideal S16000x10 .f32) (ix2 q cls)
      = -((Cert.Spec.c0 + ∑ k : Fin 2080, qRowOf (W (Proc.devRef .tc main_v46)) q k * qRowOf (W (Proc.devRef .tc main_v46)) q k)
          + (Cert.Spec.c0 + ∑ k : Fin 2080, supRowOf (W (Proc.devRef .tc main_v46)) cls k * supRowOf (W (Proc.devRef .tc main_v46)) cls k)
          - Cert.Spec.c2 * ∑ k : Fin 2080, qRowOf (W (Proc.devRef .tc main_v46)) q k * supRowOf (W (Proc.devRef .tc main_v46)) cls k) := by
  rw [afterC_v66]
  exact scoreTerm_apply _ q cls

/-- The third stretch writes no argument. -/
theorem keepC_arg0 (W : Valuation τ sig (Elt Ideal)) : after opsC W (Proc.devRef .tc main_arg0) = W (Proc.devRef .tc main_arg0) := by
  after_results_simp
theorem keepC_arg1 (W : Valuation τ sig (Elt Ideal)) : after opsC W (Proc.devRef .tc main_arg1) = W (Proc.devRef .tc main_arg1) := by
  after_results_simp
theorem keepC_arg2 (W : Valuation τ sig (Elt Ideal)) : after opsC W (Proc.devRef .tc main_arg2) = W (Proc.devRef .tc main_arg2) := by
  after_results_simp

end Cert.ReferenceIdeal.Val

end
-- ==== Proof.RefTail.lean ====
/-
  The reference's last stretch: the loss buffer holds the shared loss function of the score buffer and the labels;
  the score buffer and the arguments are untouched.
-/
import proofs.«426365_j31061203484793_1_alg».proof.Proof.RefRun
import proofs.«426365_j31061203484793_1_alg».proof.Proof.SpecTail
import Idealize.ShloMosaic.Lib.ValueIdx

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

attribute [local irreducible] Host.reduce Host.reduceAdd Host.gather in
/-- After the last stretch the loss buffer holds the loss of the score and the labels it started from: the stretch's
    operations composed are the shared loss term itself, the reductions and the gather kept closed. -/
theorem tailD (W : Valuation τ sig (Elt Ideal)) :
    (after opsD W (Proc.devRef .tc main_v72) : FVec Ideal S_ .f32)
      = Cert.Spec.tail (F := Ideal) (W (Proc.devRef .tc main_v66)) (W (Proc.devRef .tc main_arg2)) := by
  after_results_simp
  rfl

/-- The last stretch writes neither the score nor an argument. -/
theorem keepD_v66 (W : Valuation τ sig (Elt Ideal)) : after opsD W (Proc.devRef .tc main_v66) = W (Proc.devRef .tc main_v66) := by
  after_results_simp
theorem keepD_arg0 (W : Valuation τ sig (Elt Ideal)) : after opsD W (Proc.devRef .tc main_arg0) = W (Proc.devRef .tc main_arg0) := by
  after_results_simp
theorem keepD_arg1 (W : Valuation τ sig (Elt Ideal)) : after opsD W (Proc.devRef .tc main_arg1) = W (Proc.devRef .tc main_arg1) := by
  after_results_simp
theorem keepD_arg2 (W : Valuation τ sig (Elt Ideal)) : after opsD W (Proc.devRef .tc main_arg2) = W (Proc.devRef .tc main_arg2) := by
  after_results_simp

end Cert.ReferenceIdeal.Val

end
-- ==== Proof.RefValue.lean ====
/-
  The reference's results as functions of its arguments: the four stretches composed.  The score buffer ends at the
  specification's score (the sums over the 2080 table entries being the sums over the triangle), the loss buffer at the
  shared loss of that score and the labels, the arguments as launched.
-/
import proofs.«426365_j31061203484793_1_alg».proof.Proof.RefBdc
import proofs.«426365_j31061203484793_1_alg».proof.Proof.RefTriu
import proofs.«426365_j31061203484793_1_alg».proof.Proof.RefScore
import proofs.«426365_j31061203484793_1_alg».proof.Proof.RefTail

noncomputable section

namespace Cert.ReferenceIdeal.Val

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-- The zero word is the extended real zero. -/
theorem c0_eq : Cert.Spec.c0 = 0 := Ideal.ofBits_zero_f32

/-- The score the reference computes is the specification's. -/
theorem score_eq (V : Valuation τ sig (Elt Ideal)) :
    (after ops V (Proc.devRef .tc main_v66) : FVec Ideal S16000x10 .f32)
      = Cert.Spec.scoreOf (V (Proc.devRef .tc main_arg0)) (V (Proc.devRef .tc main_arg1)) := by
  funext idx
  obtain ⟨q, cls, rfl⟩ : ∃ (q : Fin 16000) (cls : Fin 10), idx = ix2 q cls := ⟨idx 0, idx 1, eq_ix2 idx⟩
  rw [after_ops, keepD_v66, scoreC]
  -- the gathered array at (b, k) is sample b's centred matrix at the k-th pair of the triangle
  have hG : ∀ (b : Fin 16800) (k : Fin 2080),
      (after opsB (after opsA V) (Proc.devRef .tc main_v46) : FVec Ideal S16800x2080 .f32) (ix2 b k)
        = Cert.Spec.tv (Cert.Spec.flat (V (Proc.devRef .tc main_arg0)))
            (Ideal.exp ((V (Proc.devRef .tc main_arg1) : FVec Ideal S1x1 .f32) (ix2 0 0))) b (tI k) (tJ k) := fun b k =>
    (gatherB (after opsA V) (tabA_c V) (tabA_c_0 V) (tabA_c_1 V) (tabA_c_2 V) b k).trans (cenA V b (tI k) (tJ k))
  -- so a query's gathered row is its triangle, and a prototype's gathered row the specification's prototype
  have hq : ∀ k : Fin 2080, qRowOf (after opsB (after opsA V) (Proc.devRef .tc main_v46)) q k
      = Cert.Spec.tv (Cert.Spec.flat (V (Proc.devRef .tc main_arg0)))
          (Ideal.exp ((V (Proc.devRef .tc main_arg1) : FVec Ideal S1x1 .f32) (ix2 0 0))) (Cert.Spec.qRow q) (tI k) (tJ k) :=
    fun k => hG _ k
  have hs : ∀ k : Fin 2080, supRowOf (after opsB (after opsA V) (Proc.devRef .tc main_v46)) cls k
      = Cert.Spec.sup (Cert.Spec.flat (V (Proc.devRef .tc main_arg0)))
          (Ideal.exp ((V (Proc.devRef .tc main_arg1) : FVec Ideal S1x1 .f32) (ix2 0 0))) cls (tI k) (tJ k) := fun k => by
    unfold supRowOf Cert.Spec.sup
    rw [c0_eq, zero_add]
    exact congrArg (Ideal.div · Cert.Spec.c80) (Finset.sum_congr rfl fun l _ => hG _ k)
  -- the three sums over the table entries are the sums over the triangle
  have e1 : (∑ k : Fin 2080, qRowOf (after opsB (after opsA V) (Proc.devRef .tc main_v46)) q k
        * qRowOf (after opsB (after opsA V) (Proc.devRef .tc main_v46)) q k)
      = Cert.Spec.q2 (Cert.Spec.flat (V (Proc.devRef .tc main_arg0)))
          (Ideal.exp ((V (Proc.devRef .tc main_arg1) : FVec Ideal S1x1 .f32) (ix2 0 0))) q :=
    (Finset.sum_congr rfl fun k _ => by rw [hq k]).trans
      (sum_triu fun i j =>
        Cert.Spec.tv (Cert.Spec.flat (V (Proc.devRef .tc main_arg0)))
            (Ideal.exp ((V (Proc.devRef .tc main_arg1) : FVec Ideal S1x1 .f32) (ix2 0 0))) (Cert.Spec.qRow q) i j
          * Cert.Spec.tv (Cert.Spec.flat (V (Proc.devRef .tc main_arg0)))
            (Ideal.exp ((V (Proc.devRef .tc main_arg1) : FVec Ideal S1x1 .f32) (ix2 0 0))) (Cert.Spec.qRow q) i j)
  have e2 : (∑ k : Fin 2080, supRowOf (after opsB (after opsA V) (Proc.devRef .tc main_v46)) cls k
        * supRowOf (after opsB (after opsA V) (Proc.devRef .tc main_v46)) cls k)
      = Cert.Spec.s2 (Cert.Spec.flat (V (Proc.devRef .tc main_arg0)))
          (Ideal.exp ((V (Proc.devRef .tc main_arg1) : FVec Ideal S1x1 .f32) (ix2 0 0))) cls :=
    (Finset.sum_congr rfl fun k _ => by rw [hs k]).trans
      (sum_triu fun i j =>
        Cert.Spec.sup (Cert.Spec.flat (V (Proc.devRef .tc main_arg0)))
            (Ideal.exp ((V (Proc.devRef .tc main_arg1) : FVec Ideal S1x1 .f32) (ix2 0 0))) cls i j
          * Cert.Spec.sup (Cert.Spec.flat (V (Proc.devRef .tc main_arg0)))
            (Ideal.exp ((V (Proc.devRef .tc main_arg1) : FVec Ideal S1x1 .f32) (ix2 0 0))) cls i j)
  have e3 : (∑ k : Fin 2080, qRowOf (after opsB (after opsA V) (Proc.devRef .tc main_v46)) q k
        * supRowOf (after opsB (after opsA V) (Proc.devRef .tc main_v46)) cls k)
      = Cert.Spec.cross (Cert.Spec.flat (V (Proc.devRef .tc main_arg0)))
          (Ideal.exp ((V (Proc.devRef .tc main_arg1) : FVec Ideal S1x1 .f32) (ix2 0 0))) q cls :=
    (Finset.sum_congr rfl fun k _ => by rw [hq k, hs k]).trans
      (sum_triu fun i j =>
        Cert.Spec.tv (Cert.Spec.flat (V (Proc.devRef .tc main_arg0)))
            (Ideal.exp ((V (Proc.devRef .tc main_arg1) : FVec Ideal S1x1 .f32) (ix2 0 0))) (Cert.Spec.qRow q) i j
          * Cert.Spec.sup (Cert.Spec.flat (V (Proc.devRef .tc main_arg0)))
            (Ideal.exp ((V (Proc.devRef .tc main_arg1) : FVec Ideal S1x1 .f32) (ix2 0 0))) cls i j)
  rw [e1, e2, e3, c0_eq, zero_add, zero_add]
  rfl

/-- The loss the reference computes is the shared loss of its score and the labels. -/
theorem loss_eq (V : Valuation τ sig (Elt Ideal)) :
    (after ops V (Proc.devRef .tc main_v72) : FVec Ideal S_ .f32)
      = Cert.Spec.tail (F := Ideal) (after ops V (Proc.devRef .tc main_v66)) (V (Proc.devRef .tc main_arg2)) := by
  rw [after_ops, tailD, keepD_v66, keepC_arg2, keepB_arg2, keepA_arg2]

/-- The reference writes no argument. -/
theorem arg0_eq (V : Valuation τ sig (Elt Ideal)) : after ops V (Proc.devRef .tc main_arg0) = V (Proc.devRef .tc main_arg0) := by
  rw [after_ops, keepD_arg0, keepC_arg0, keepB_arg0, keepA_arg0]
theorem arg1_eq (V : Valuation τ sig (Elt Ideal)) : after ops V (Proc.devRef .tc main_arg1) = V (Proc.devRef .tc main_arg1) := by
  rw [after_ops, keepD_arg1, keepC_arg1, keepB_arg1, keepA_arg1]
theorem arg2_eq (V : Valuation τ sig (Elt Ideal)) : after ops V (Proc.devRef .tc main_arg2) = V (Proc.devRef .tc main_arg2) := by
  rw [after_ops, keepD_arg2, keepC_arg2, keepB_arg2, keepA_arg2]

end Cert.ReferenceIdeal.Val

end
-- ==== Proof.lean ====
/-
  The certificate of a few-shot classification head: Brownian distance covariance features and a squared-distance score.

  Each of 16800 samples (64 channels by 7·7 positions) is turned into the doubly centred matrix of smoothed pairwise
  channel distances (Proof/Spec.lean: gram, dist, cen); only its upper triangle is kept.  A class prototype is the mean
  of the class's 80 support samples; the score of a query against a class is minus the squared distance between their
  triangles, expanded as −(‖q‖² + ‖s‖² − 2⟨q, s⟩); the loss is the mean negative log-softmax at the labels.

  The kernel program keeps the full 64·64 matrix multiplied by the indicator of i ≤ j and sums over all entries (two
  pallas_calls: 100 support samples a block, 400 queries a block, host operations between and after); the reference
  gathers the 2080 triangle entries through two literal index tables and sums over those.  At the ideal values a
  product with the indicator is the entry on the triangle and zero off it, the mean of zeros is zero, and a sum with
  zeros added is the sum without them; the two tables enumerate the triangle once each.  So both score arrays are the
  specification's (Proof/KScore.lean, Proof/RefValue.lean), and both losses are one function (Proof/SpecTail.lean) of
  equal scores and the same labels.  Nothing here needs the inputs to be finite: the laws used (x·1 = x, x·0 = 0,
  0/80 = 0, 0 − x = −x, reordering a finite sum) hold on all extended reals.

  The kernel program's frames are the generated ones; its run with the two results named is the same launch with the
  final read kept (Proof/KernelRun.lean); the reference's run is its list of host operations (Proof/RefRun.lean).
  The ideal pass rewrote nothing, so the idealization conjunct is trivial.
-/
import proofs.«426365_j31061203484793_1_alg».proof.Defs
import proofs.«426365_j31061203484793_1_alg».proof.Proof.Gen.Kernel
import proofs.«426365_j31061203484793_1_alg».proof.Proof.Gen.Kernel.Frame
import proofs.«426365_j31061203484793_1_alg».proof.Proof.Gen.KernelIdeal
import proofs.«426365_j31061203484793_1_alg».proof.Proof.Gen.KernelIdeal.Frame
import proofs.«426365_j31061203484793_1_alg».proof.Proof.Gen.ReferenceIdeal
import proofs.«426365_j31061203484793_1_alg».proof.Proof.Gen.Pre_finite_inputs
import proofs.«426365_j31061203484793_1_alg».proof.Proof.KernelRun
import proofs.«426365_j31061203484793_1_alg».proof.Proof.KScore
import proofs.«426365_j31061203484793_1_alg».proof.Proof.RefRun
import proofs.«426365_j31061203484793_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference runs as its list of host operations, none of which writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.Val.arg0_eq _),
      (h c Cert.ReferenceIdeal.main_arg1).trans (Cert.ReferenceIdeal.Val.arg1_eq _),
      (h c Cert.ReferenceIdeal.main_arg2).trans (Cert.ReferenceIdeal.Val.arg2_eq _)⟩)
    (Cert.ReferenceIdeal.Ops.run_main (F := Ideal) m ρ)

/-- The ideal pass rewrote no operation. -/
theorem preserves : Cert.preserves_Kernel_KernelIdeal := trivial

/-- From memories that agree on the arguments both programs end with the specification's score and the shared loss of
    that score and the labels. -/
theorem algebraic : Cert.algebraic_KernelIdeal_ReferenceIdeal := by
  intro m ρ m' ρ' _ hagree
  refine ⟨fun c => Cert.Spec.scoreOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.tail (F := Ideal) (Cert.Spec.scoreOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Val.run_results (F := Ideal) m ρ)
    obtain ⟨h1, h2, h3, h4, h5⟩ := h c
    refine ⟨h1.trans (Cert.KernelIdeal.Val.score_eq m ρ c), h2.trans ?_, h3, h4, h5⟩
    rw [Cert.KernelIdeal.Val.loss_eq m ρ c, Cert.KernelIdeal.Val.score_eq m ρ c]
  · refine (θ_run Cert.ReferenceIdeal.defs _ _).mono (fun r h c => ?_) (Cert.ReferenceIdeal.Ops.run_main (F := Ideal) m' ρ')
    refine ⟨(h c Cert.ReferenceIdeal.main_v66).trans ?_, (h c Cert.ReferenceIdeal.main_v72).trans ?_,
      (h c Cert.ReferenceIdeal.main_arg0).trans (Cert.ReferenceIdeal.Val.arg0_eq _),
      (h c Cert.ReferenceIdeal.main_arg1).trans (Cert.ReferenceIdeal.Val.arg1_eq _),
      (h c Cert.ReferenceIdeal.main_arg2).trans (Cert.ReferenceIdeal.Val.arg2_eq _)⟩
    · rw [Cert.ReferenceIdeal.Val.score_eq]
      exact congrArg₂ Cert.Spec.scoreOf (hagree c).1 (hagree c).2.1
    · rw [Cert.ReferenceIdeal.Val.loss_eq, Cert.ReferenceIdeal.Val.score_eq]
      exact congrArg₂ (Cert.Spec.tail (F := Ideal)) (congrArg₂ Cert.Spec.scoreOf (hagree c).1 (hagree c).2.1) (hagree c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
